-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x64 : Shape := ⟨4, ![16, 64, 64, 64]⟩
abbrev S64x64 : Shape := ⟨2, ![64, 64]⟩
abbrev S64 : Shape := ⟨1, ![64]⟩
abbrev S_ : Shape := ⟨0, ![]⟩

class Facts : Prop where
  bcast_S_S16x64x64x64 : S_.BroadcastsInDim S16x64x64x64 (![] : Fin 0 → Fin S16x64x64x64.rank)
  reducesTo_S16x64x64x64_S_d0_1_2_3 : S16x64x64x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16x64x64x64 .f32) (main_arg1 : FVec F S64x64 .f32) (main_arg2 : FVec F S64 .f32) (main_arg3 : FVec F S64 .f32) (main_arg4 : FVec F S64x64 .f32) (main_arg5 : FVec F S64 .f32) (main_arg6 : FVec F S64 .f32) : IVec S_ 1 :=
  let main_v0 : FVec F S16x64x64x64 .f32 := Host.absf main_arg0
  let main_cst : FVec F S_ .f32 := constant S_ .f32 0x7F800000#32
  let main_v1 : FVec F S16x64x64x64 .f32 := broadcastInDim S16x64x64x64 ![] bcast_S_S16x64x64x64 main_cst
  let main_v2 : IVec S16x64x64x64 1 := cmpf .olt main_v0 main_v1
  let main_c : IVec S_ 1 := constantI S_ 1 1#1
  let main_v3 : IVec S_ 1 := (fun x v => Host.reduce IntOp.andi x v reducesTo_S16x64x64x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S16x64x64x64 : Shape := ⟨4, ![16, 64, 64, 64]⟩
abbrev S64x64 : Shape := ⟨2, ![64, 64]⟩
abbrev S64 : Shape := ⟨1, ![64]⟩
abbrev S65536x64 : Shape := ⟨2, ![65536, 64]⟩
abbrev S1x64 : Shape := ⟨2, ![1, 64]⟩
abbrev S512x64 : Shape := ⟨2, ![512, 64]⟩
abbrev S512x1x64 : Shape := ⟨3, ![512, 1, 64]⟩
abbrev S1x64x64 : Shape := ⟨3, ![1, 64, 64]⟩
abbrev S512x64x64 : Shape := ⟨3, ![512, 64, 64]⟩
abbrev S_ : Shape := ⟨0, ![]⟩

abbrev nBuf : Space → Nat
  | .hbm => 38
  | .vmem => 28
  | .smem => 0
  | _ => 0

abbrev bufTy : (tb : Table) → Fin (tcTables nBuf tb) → BufTy
  | .hbm, ⟨0, _⟩ => ⟨S16x64x64x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S16x64x64x64, .f32⟩
  | .hbm, ⟨8, _⟩ => ⟨S65536x64, .f32⟩
  | .hbm, ⟨9, _⟩ => ⟨S65536x64, .f32⟩
  | .hbm, ⟨10, _⟩ => ⟨S1x64, .f32⟩
  | .hbm, ⟨11, _⟩ => ⟨S1x64, .f32⟩
  | .hbm, ⟨12, _⟩ => ⟨S_, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S65536x64, .f32⟩
  | .hbm, ⟨23, _⟩ => ⟨S1x64, .f32⟩
  | .hbm, ⟨24, _⟩ => ⟨S1x64, .f32⟩
  | .hbm, ⟨25, _⟩ => ⟨S_, .f32⟩
  | .hbm, ⟨26, _⟩ => ⟨S1x64, .f32⟩
  | .hbm, ⟨27, _⟩ => ⟨S1x64, .f32⟩
  | .hbm, ⟨28, _⟩ => ⟨S_, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S65536x64, .f32⟩
  | .hbm, ⟨36, _⟩ => ⟨S16x64x64x64, .f32⟩
  | .hbm, ⟨37, _⟩ => ⟨S16x64x64x64, .f32⟩
  | .local _ .vmem, ⟨0, _⟩ => ⟨S512x64, .f32⟩
  | .local _ .vmem, ⟨1, _⟩ => ⟨S512x64, .f32⟩
  | .local _ .vmem, ⟨2, _⟩ => ⟨S64x64, .f32⟩
  | .local _ .vmem, ⟨3, _⟩ => ⟨S512x64, .f32⟩
  | .local _ .vmem, ⟨4, _⟩ => ⟨S512x64, .f32⟩
  | .local _ .vmem, ⟨5, _⟩ => ⟨S1x64, .f32⟩
  | .local _ .vmem, ⟨6, _⟩ => ⟨S1x64, .f32⟩
  | .local _ .vmem, ⟨7, _⟩ => ⟨S512x64, .f32⟩
  | .local _ .vmem, ⟨8, _⟩ => ⟨S512x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S64x64, .f32⟩
  | .local _ .vmem, ⟨14, _⟩ => ⟨S512x64, .f32⟩
  | .local _ .vmem, ⟨15, _⟩ => ⟨S512x64, .f32⟩
  | .local _ .vmem, ⟨16, _⟩ => ⟨S1x64, .f32⟩
  | .local _ .vmem, ⟨17, _⟩ => ⟨S1x64, .f32⟩
  | .local _ .vmem, ⟨18, _⟩ => ⟨S512x64, .f32⟩
  | .local _ .vmem, ⟨19, _⟩ => ⟨S512x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S512x64, .f32⟩
  | .local _ .vmem, ⟨25, _⟩ => ⟨S512x64, .f32⟩
  | .local _ .vmem, ⟨26, _⟩ => ⟨S512x64, .f32⟩
  | .local _ .vmem, ⟨27, _⟩ => ⟨S512x64, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg8_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem8_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S16x64x64x64_S16x64x64x64_0_2_3_1 : S16x64x64x64.Transposes [0, 2, 3, 1] S16x64x64x64
  shapeCasts_S16x64x64x64_S65536x64 : S16x64x64x64.ShapeCasts S65536x64
  inb_S1x64_S1x64_0_0 : ∀ a, (![0, 0] : Fin 2 → Nat) a + S1x64.size a ≤ S1x64.size a
  h_S1x64 : 0 < S1x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x64_S64x64_0_0 : ∀ a, (![0, 0] : Fin 2 → Nat) a + S64x64.size a ≤ S64x64.size a
  h_S64x64 : 0 < S64x64.numel
  shapeCasts_S512x64_S512x1x64 : S512x64.ShapeCasts S512x1x64
  shapeCasts_S64x64_S1x64x64 : S64x64.ShapeCasts S1x64x64
  broadcasts_S512x1x64_S512x64x64 : S512x1x64.Broadcasts S512x64x64
  broadcasts_S1x64x64_S512x64x64 : S1x64x64.Broadcasts S512x64x64
  reduces_S512x64x64_S512x64 : S512x64x64.Reduces [2] S512x64
  shapeCasts_S1x64_S1x64 : S1x64.ShapeCasts S1x64
  reduces_S512x64_S64 : S512x64.Reduces [0] S64
  shapeCasts_S64_S1x64 : S64.ShapeCasts S1x64
  bcast_S_S1x64 : S_.BroadcastsInDim S1x64 (![] : Fin 0 → Fin S1x64.rank)
  broadcasts_S1x64_S512x64 : S1x64.Broadcasts S512x64
  shapeCasts_S65536x64_S16x64x64x64 : S65536x64.ShapeCasts S16x64x64x64
  transposes_S16x64x64x64_S16x64x64x64_0_3_1_2 : S16x64x64x64.Transposes [0, 3, 1, 2] S16x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S65536x64.size a
  hwx0_0 : ∀ i : grid0.Coords, EltTy.bits .f32 = 32 ∨ (Rect.block (s := S65536x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S65536x64.size a
  hwx0_2 : ∀ i : grid0.Coords, EltTy.bits .f32 = 32 ∨ (Rect.block (s := S65536x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S65536x64.size a
  hwx1_0 : ∀ i : grid1.Coords, EltTy.bits .f32 = 32 ∨ (Rect.block (s := S65536x64) S512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x64.size a ≤ S65536x64.size a
  hwx1_6 : ∀ i : grid1.Coords, EltTy.bits .f32 = 32 ∨ (Rect.block (s := S65536x64) S512x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S65536x64.size a
  hwx2_0 : ∀ i : grid2.Coords, EltTy.bits .f32 = 32 ∨ (Rect.block (s := S65536x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x64.size a ≤ S65536x64.size a
  hwx2_5 : ∀ i : grid2.Coords, EltTy.bits .f32 = 32 ∨ (Rect.block (s := S65536x64) S512x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x64.size a ≤ S65536x64.size a
  hwx2_6 : ∀ i : grid2.Coords, EltTy.bits .f32 = 32 ∨ (Rect.block (s := S65536x64) S512x64.size (cc2_transform_6 i) (hinb2_6 i)).WholeWords (EltTy.packing .f32)

variable [Facts₀]

abbrev win0_0 : Pipeline.Window sig grid0 :=
  Pipeline.Window.ofSpec (Memref.whole main_v1) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11_0) S512x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11_1) S1x64.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11_2) S1x64.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v11_0) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v1) S512x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v20) S512x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S16x64x64x64 : Shape := ⟨4, ![16, 64, 64, 64]⟩
abbrev S64x64 : Shape := ⟨2, ![64, 64]⟩
abbrev S64 : Shape := ⟨1, ![64]⟩
abbrev S16x64x64x1x64 : Shape := ⟨5, ![16, 64, 64, 1, 64]⟩
abbrev S1x1x1x64x64 : Shape := ⟨5, ![1, 1, 1, 64, 64]⟩
abbrev S16x64x64x64x64 : Shape := ⟨5, ![16, 64, 64, 64, 64]⟩
abbrev S_ : Shape := ⟨0, ![]⟩
abbrev S1x64x1x1 : Shape := ⟨4, ![1, 64, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S16x64x64x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S16x64x64x64, .f32⟩
  | .hbm, ⟨8, _⟩ => ⟨S16x64x64x1x64, .f32⟩
  | .hbm, ⟨9, _⟩ => ⟨S1x1x1x64x64, .f32⟩
  | .hbm, ⟨10, _⟩ => ⟨S16x64x64x64x64, .f32⟩
  | .hbm, ⟨11, _⟩ => ⟨S16x64x64x64x64, .f32⟩
  | .hbm, ⟨12, _⟩ => ⟨S16x64x64x64x64, .f32⟩
  | .hbm, ⟨13, _⟩ => ⟨S16x64x64x64x64, .f32⟩
  | .hbm, ⟨14, _⟩ => ⟨S_, .f32⟩
  | .hbm, ⟨15, _⟩ => ⟨S16x64x64x64, .f32⟩
  | .hbm, ⟨16, _⟩ => ⟨S16x64x64x64, .f32⟩
  | .hbm, ⟨17, _⟩ => ⟨S16x64x64x64, .f32⟩
  | .hbm, ⟨18, _⟩ => ⟨S_, .f32⟩
  | .hbm, ⟨19, _⟩ => ⟨S64, .f32⟩
  | .hbm, ⟨20, _⟩ => ⟨S1x64x1x1, .f32⟩
  | .hbm, ⟨21, _⟩ => ⟨S_, .f32⟩
  | .hbm, ⟨22, _⟩ => ⟨S1x64x1x1, .f32⟩
  | .hbm, ⟨23, _⟩ => ⟨S1x64x1x1, .f32⟩
  | .hbm, ⟨24, _⟩ => ⟨S_, .i32⟩
  | .hbm, ⟨25, _⟩ => ⟨S_, .f32⟩
  | .hbm, ⟨26, _⟩ => ⟨S64, .f32⟩
  | .hbm, ⟨27, _⟩ => ⟨S1x64x1x1, .f32⟩
  | .hbm, ⟨28, _⟩ => ⟨S_, .f32⟩
  | .hbm, ⟨29, _⟩ => ⟨S1x64x1x1, .f32⟩
  | .hbm, ⟨30, _⟩ => ⟨S1x64x1x1, .f32⟩
  | .hbm, ⟨31, _⟩ => ⟨S16x64x64x64, .f32⟩
  | .hbm, ⟨32, _⟩ => ⟨S16x64x64x64, .f32⟩
  | .hbm, ⟨33, _⟩ => ⟨S16x64x64x64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S64, .f32⟩
  | .hbm, ⟨39, _⟩ => ⟨S1x64x1x1, .f32⟩
  | .hbm, ⟨40, _⟩ => ⟨S1x64x1x1, .f32⟩
  | .hbm, ⟨41, _⟩ => ⟨S1x64x1x1, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S1x64x1x1, .f32⟩
  | .hbm, ⟨47, _⟩ => ⟨S1x64x1x1, .f32⟩
  | .hbm, ⟨48, _⟩ => ⟨S16x64x64x64, .f32⟩
  | .hbm, ⟨49, _⟩ => ⟨S16x64x64x64, .f32⟩
  | .hbm, ⟨50, _⟩ => ⟨S_, .f32⟩
  | .hbm, ⟨51, _⟩ => ⟨S1x64x1x1, .f32⟩
  | .hbm, ⟨52, _⟩ => ⟨S1x64x1x1, .f32⟩
  | .hbm, ⟨53, _⟩ => ⟨S1x64x1x1, .f32⟩
  | .hbm, ⟨54, _⟩ => ⟨S16x64x64x64, .f32⟩
  | .hbm, ⟨55, _⟩ => ⟨S16x64x64x64, .f32⟩
  | .hbm, ⟨56, _⟩ => ⟨S1x64x1x1, .f32⟩
  | .hbm, ⟨57, _⟩ => ⟨S16x64x64x64, .f32⟩
  | .hbm, ⟨58, _⟩ => ⟨S16x64x64x64, .f32⟩
  | .hbm, ⟨59, _⟩ => ⟨S1x64x1x1, .f32⟩
  | .hbm, ⟨60, _⟩ => ⟨S16x64x64x64, .f32⟩
  | .hbm, ⟨61, _⟩ => ⟨S16x64x64x64, .f32⟩
  | .hbm, ⟨62, _⟩ => ⟨S_, .f32⟩
  | .hbm, ⟨63, _⟩ => ⟨S16x64x64x64, .f32⟩
  | .hbm, ⟨64, _⟩ => ⟨S16x64x64x64, .f32⟩
  | .hbm, ⟨65, _⟩ => ⟨S16x64x64x64, .f32⟩
  | .hbm, ⟨66, _⟩ => ⟨S16x64x64x1x64, .f32⟩
  | .hbm, ⟨67, _⟩ => ⟨S1x1x1x64x64, .f32⟩
  | .hbm, ⟨68, _⟩ => ⟨S16x64x64x64x64, .f32⟩
  | .hbm, ⟨69, _⟩ => ⟨S16x64x64x64x64, .f32⟩
  | .hbm, ⟨70, _⟩ => ⟨S16x64x64x64x64, .f32⟩
  | .hbm, ⟨71, _⟩ => ⟨S16x64x64x64x64, .f32⟩
  | .hbm, ⟨72, _⟩ => ⟨S_, .f32⟩
  | .hbm, ⟨73, _⟩ => ⟨S16x64x64x64, .f32⟩
  | .hbm, ⟨74, _⟩ => ⟨S16x64x64x64, .f32⟩
  | .hbm, ⟨75, _⟩ => ⟨S16x64x64x64, .f32⟩
  | .hbm, ⟨76, _⟩ => ⟨S_, .f32⟩
  | .hbm, ⟨77, _⟩ => ⟨S64, .f32⟩
  | .hbm, ⟨78, _⟩ => ⟨S1x64x1x1, .f32⟩
  | .hbm, ⟨79, _⟩ => ⟨S_, .f32⟩
  | .hbm, ⟨80, _⟩ => ⟨S1x64x1x1, .f32⟩
  | .hbm, ⟨81, _⟩ => ⟨S1x64x1x1, .f32⟩
  | .hbm, ⟨82, _⟩ => ⟨S_, .i32⟩
  | .hbm, ⟨83, _⟩ => ⟨S_, .f32⟩
  | .hbm, ⟨84, _⟩ => ⟨S64, .f32⟩
  | .hbm, ⟨85, _⟩ => ⟨S1x64x1x1, .f32⟩
  | .hbm, ⟨86, _⟩ => ⟨S_, .f32⟩
  | .hbm, ⟨87, _⟩ => ⟨S1x64x1x1, .f32⟩
  | .hbm, ⟨88, _⟩ => ⟨S1x64x1x1, .f32⟩
  | .hbm, ⟨89, _⟩ => ⟨S16x64x64x64, .f32⟩
  | .hbm, ⟨90, _⟩ => ⟨S16x64x64x64, .f32⟩
  | .hbm, ⟨91, _⟩ => ⟨S16x64x64x64, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S64, .f32⟩
  | .hbm, ⟨97, _⟩ => ⟨S1x64x1x1, .f32⟩
  | .hbm, ⟨98, _⟩ => ⟨S1x64x1x1, .f32⟩
  | .hbm, ⟨99, _⟩ => ⟨S1x64x1x1, .f32⟩
  | .hbm, ⟨100, _⟩ => ⟨S_, .f32⟩
  | .hbm, ⟨101, _⟩ => ⟨S_, .i1⟩
  | .hbm, ⟨102, _⟩ => ⟨S_, .f32⟩
  | .hbm, ⟨103, _⟩ => ⟨S_, .f32⟩
  | .hbm, ⟨104, _⟩ => ⟨S1x64x1x1, .f32⟩
  | .hbm, ⟨105, _⟩ => ⟨S1x64x1x1, .f32⟩
  | .hbm, ⟨106, _⟩ => ⟨S16x64x64x64, .f32⟩
  | .hbm, ⟨107, _⟩ => ⟨S16x64x64x64, .f32⟩
  | .hbm, ⟨108, _⟩ => ⟨S_, .f32⟩
  | .hbm, ⟨109, _⟩ => ⟨S1x64x1x1, .f32⟩
  | .hbm, ⟨110, _⟩ => ⟨S1x64x1x1, .f32⟩
  | .hbm, ⟨111, _⟩ => ⟨S1x64x1x1, .f32⟩
  | .hbm, ⟨112, _⟩ => ⟨S16x64x64x64, .f32⟩
  | .hbm, ⟨113, _⟩ => ⟨S16x64x64x64, .f32⟩
  | .hbm, ⟨114, _⟩ => ⟨S1x64x1x1, .f32⟩
  | .hbm, ⟨115, _⟩ => ⟨S16x64x64x64, .f32⟩
  | .hbm, ⟨116, _⟩ => ⟨S16x64x64x64, .f32⟩
  | .hbm, ⟨117, _⟩ => ⟨S1x64x1x1, .f32⟩
  | .hbm, ⟨118, _⟩ => ⟨S16x64x64x64, .f32⟩
  | .hbm, ⟨119, _⟩ => ⟨S16x64x64x64, .f32⟩
  | .hbm, ⟨120, _⟩ => ⟨S16x64x64x64, .f32⟩
  | .hbm, ⟨121, _⟩ => ⟨S_, .f32⟩
  | .hbm, ⟨122, _⟩ => ⟨S16x64x64x64, .f32⟩
  | .hbm, ⟨123, _⟩ => ⟨S16x64x64x64, .f32⟩
  | _, _ => ⟨S16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_cst_3 : Ref sig .tc := ⟨.hbm, 42, rfl⟩
abbrev main_call0_v13 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_2 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call1_cst : Ref sig .tc := ⟨.hbm, 62, rfl⟩
abbrev main_call1_v0 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_3 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_4 : Ref sig .tc := ⟨.hbm, 76, rfl⟩
abbrev main_v39 : Ref sig .tc := ⟨.hbm, 77, rfl⟩
abbrev main_v40 : Ref sig .tc := ⟨.hbm, 78, rfl⟩
abbrev main_cst_5 : Ref sig .tc := ⟨.hbm, 79, rfl⟩
abbrev main_v41 : Ref sig .tc := ⟨.hbm, 80, rfl⟩
abbrev main_v42 : Ref sig .tc := ⟨.hbm, 81, rfl⟩
abbrev main_c_6 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_cst_1 : Ref sig .tc := ⟨.hbm, 93, rfl⟩
abbrev main_call2_v8 : Ref sig .tc := ⟨.hbm, 94, rfl⟩
abbrev main_call2_cst_2 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_v12 : Ref sig .tc := ⟨.hbm, 99, rfl⟩
abbrev main_call2_cst_3 : Ref sig .tc := ⟨.hbm, 100, rfl⟩
abbrev main_call2_v13 : Ref sig .tc := ⟨.hbm, 101, rfl⟩
abbrev main_call2_cst_4 : Ref sig .tc := ⟨.hbm, 102, rfl⟩
abbrev main_call2_call0_v0 : Ref sig .tc := ⟨.hbm, 103, rfl⟩
abbrev main_call2_call0_v1 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_cst_7 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_call3_cst : Ref sig .tc := ⟨.hbm, 121, rfl⟩
abbrev main_call3_v0 : Ref sig .tc := ⟨.hbm, 122, rfl⟩
abbrev main_v58 : Ref sig .tc := ⟨.hbm, 123, rfl⟩

abbrev nD : Nat := 1
abbrev τ : Topo := Topo.v7x

variable {F : FTy → Type} [FloatOps F]

class Facts₀ : Prop where
  transposes_S16x64x64x64_S16x64x64x64_0_2_3_1 : S16x64x64x64.Transposes [0, 2, 3, 1] S16x64x64x64
  bcast_S16x64x64x64_S16x64x64x1x64_0_1_2_4 : S16x64x64x64.BroadcastsInDim S16x64x64x1x64 (![0, 1, 2, 4] : Fin 4 → Fin S16x64x64x1x64.rank)
  bcast_S64x64_S1x1x1x64x64_3_4 : S64x64.BroadcastsInDim S1x1x1x64x64 (![3, 4] : Fin 2 → Fin S1x1x1x64x64.rank)
  bcast_S16x64x64x1x64_S16x64x64x64x64_0_1_2_3_4 : S16x64x64x1x64.BroadcastsInDim S16x64x64x64x64 (![0, 1, 2, 3, 4] : Fin 5 → Fin S16x64x64x64x64.rank)
  bcast_S1x1x1x64x64_S16x64x64x64x64_0_1_2_3_4 : S1x1x1x64x64.BroadcastsInDim S16x64x64x64x64 (![0, 1, 2, 3, 4] : Fin 5 → Fin S16x64x64x64x64.rank)
  reducesTo_S16x64x64x64x64_S16x64x64x64_d4 : S16x64x64x64x64.ReducesTo [4] S16x64x64x64
  h_S_ : 0 < S_.numel
  transposes_S16x64x64x64_S16x64x64x64_0_3_1_2 : S16x64x64x64.Transposes [0, 3, 1, 2] S16x64x64x64
  reducesTo_S16x64x64x64_S64_d0_2_3 : S16x64x64x64.ReducesTo [0, 2, 3] S64
  bcast_S64_S1x64x1x1_1 : S64.BroadcastsInDim S1x64x1x1 (![1] : Fin 1 → Fin S1x64x1x1.rank)
  bcast_S_S1x64x1x1 : S_.BroadcastsInDim S1x64x1x1 (![] : Fin 0 → Fin S1x64x1x1.rank)
  bcast_S1x64x1x1_S16x64x64x64_0_1_2_3 : S1x64x1x1.BroadcastsInDim S16x64x64x64 (![0, 1, 2, 3] : Fin 4 → Fin S16x64x64x64.rank)
  bcast_S_S16x64x64x64 : S_.BroadcastsInDim S16x64x64x64 (![] : Fin 0 → Fin S16x64x64x64.rank)

variable [Facts₀]

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# The mathematics of the residual block, over the extended reals

A pixel is a flat position `n < 65536 = 16·64·64` (batch, row, column); a channel is `c < 64`.
The "adder" layer of a pixel array `X` against a weight table `w` is `H n o = -(∑ c, |X n c - w o c|)`.
Batch normalisation uses the per-channel mean `μ o = (∑ n, H n o) / 65536` and a variance that the two
programs spell differently: `E[H²] - μ²` on one side, `E[(H - μ)²]` on the other. They agree on
finite data, which is the only algebraic law this certificate needs.
-/

noncomputable section

namespace Cert.Spec

open Idealize.ShloMosaic Idealize.ShloMosaic.ValueIdx

/-! ## Arrays and their curried readings -/

abbrev SPx : Shape := ⟨2, ![65536, 64]⟩
abbrev SW : Shape := ⟨2, ![64, 64]⟩
abbrev SRow : Shape := ⟨2, ![1, 64]⟩
abbrev SCh : Shape := ⟨1, ![64]⟩
abbrev SImg : Shape := ⟨4, ![16, 64, 64, 64]⟩

/-- A rank-2 array read by its two coordinates, and back. -/
def cur2 {n0 n1 : Nat} {α : Type} (A : (⟨2, ![n0, n1]⟩ : Shape).Idx → α) (a : Fin n0) (b : Fin n1) : α := A (ix2 a b)
def arr2 {n0 n1 : Nat} {α : Type} (f : Fin n0 → Fin n1 → α) : (⟨2, ![n0, n1]⟩ : Shape).Idx → α := fun j => f (j 0) (j 1)
/-- A `[1, 64]` row read by its channel, and back. -/
def curRow {α : Type} (A : SRow.Idx → α) (o : Fin 64) : α := A (ix2 (0 : Fin 1) o)
def arrRow {α : Type} (f : Fin 64 → α) : SRow.Idx → α := fun j => f (j 1)
/-- A `[64]` vector read by its channel, and back. -/
def cur1 {α : Type} (A : SCh.Idx → α) (o : Fin 64) : α := A (ix1 o)
def arr1 {α : Type} (f : Fin 64 → α) : SCh.Idx → α := fun j => f (j 0)
/-- A `[16, 64, 64, 64]` image batch (batch, channel, row, column) read by its coordinates, and back. -/
def cur4 {α : Type} (A : SImg.Idx → α) (b : Fin 16) (c : Fin 64) (h : Fin 64) (w : Fin 64) : α := A (ix4 b c h w)
def arr4 {α : Type} (f : Fin 16 → Fin 64 → Fin 64 → Fin 64 → α) : SImg.Idx → α := fun j => f (j 0) (j 1) (j 2) (j 3)

theorem cur2_arr2 {n0 n1 : Nat} {α : Type} (f : Fin n0 → Fin n1 → α) : cur2 (arr2 f) = f := rfl
theorem arr2_cur2 {n0 n1 : Nat} {α : Type} (A : (⟨2, ![n0, n1]⟩ : Shape).Idx → α) : arr2 (cur2 A) = A :=
  funext fun j => (congrArg A (eq_ix2 j)).symm
theorem curRow_arrRow {α : Type} (f : Fin 64 → α) : curRow (arrRow f) = f := rfl
theorem cur1_arr1 {α : Type} (f : Fin 64 → α) : cur1 (arr1 f) = f := rfl
theorem cur4_arr4 {α : Type} (f : Fin 16 → Fin 64 → Fin 64 → Fin 64 → α) : cur4 (arr4 f) = f := rfl
theorem arr4_cur4 {α : Type} (A : SImg.Idx → α) : arr4 (cur4 A) = A :=
  funext fun j => (congrArg A (eq_ix4 j)).symm

/-! ## Pixels: the flat position of (batch, row, column) -/

/-- The flat position `(b·64 + h)·64 + w`. -/
def flat (b : Fin 16) (h w : Fin 64) : Fin 65536 :=
  ⟨(b.val * 64 + h.val) * 64 + w.val, by have := b.isLt; have := h.isLt; have := w.isLt; omega⟩
/-- The batch, row and column of a flat position. -/
def pb (n : Fin 65536) : Fin 16 := ⟨n.val / 4096, by have := n.isLt; omega⟩
def ph (n : Fin 65536) : Fin 64 := ⟨n.val / 64 % 64, Nat.mod_lt _ (by decide)⟩
def pw (n : Fin 65536) : Fin 64 := ⟨n.val % 64, Nat.mod_lt _ (by decide)⟩

theorem flat_pb_ph_pw (n : Fin 65536) : flat (pb n) (ph n) (pw n) = n := by
  apply Fin.ext; show (n.val / 4096 * 64 + n.val / 64 % 64) * 64 + n.val % 64 = n.val; omega
theorem pb_flat (b : Fin 16) (h w : Fin 64) : pb (flat b h w) = b := by
  apply Fin.ext; show ((b.val * 64 + h.val) * 64 + w.val) / 4096 = b.val
  have := h.isLt; have := w.isLt; omega
theorem ph_flat (b : Fin 16) (h w : Fin 64) : ph (flat b h w) = h := by
  apply Fin.ext; show ((b.val * 64 + h.val) * 64 + w.val) / 64 % 64 = h.val
  have := h.isLt; have := w.isLt; omega
theorem pw_flat (b : Fin 16) (h w : Fin 64) : pw (flat b h w) = w := by
  apply Fin.ext; show ((b.val * 64 + h.val) * 64 + w.val) % 64 = w.val
  have := w.isLt; omega

/-- An image batch as a pixel array (channel last), and back. -/
def flatOf {α : Type} (x : Fin 16 → Fin 64 → Fin 64 → Fin 64 → α) : Fin 65536 → Fin 64 → α :=
  fun n c => x (pb n) c (ph n) (pw n)
def ofFlat {α : Type} (f : Fin 65536 → Fin 64 → α) : Fin 16 → Fin 64 → Fin 64 → Fin 64 → α :=
  fun b c h w => f (flat b h w) c

theorem flatOf_ofFlat {α : Type} (f : Fin 65536 → Fin 64 → α) : flatOf (ofFlat f) = f := by
  funext n c; show f (flat (pb n) (ph n) (pw n)) c = f n c; rw [flat_pb_ph_pw]
theorem ofFlat_flatOf {α : Type} (x : Fin 16 → Fin 64 → Fin 64 → Fin 64 → α) : ofFlat (flatOf x) = x := by
  funext b c h w; show x (pb (flat b h w)) c (ph (flat b h w)) (pw (flat b h w)) = x b c h w
  rw [pb_flat, ph_flat, pw_flat]

/-! ## The layers -/

/-- The adder layer: minus the L1 distance between a pixel's channel vector and a weight row. -/
def adder (X : Fin 65536 → Fin 64 → EReal) (w : Fin 64 → Fin 64 → EReal) (n : Fin 65536) (o : Fin 64) : EReal :=
  -(∑ c : Fin 64, max (X n c - w o c) (-(X n c - w o c)))

/-- Per channel: the sum, and the sum of squares, over all pixels. -/
def ssum (H : Fin 65536 → Fin 64 → EReal) (o : Fin 64) : EReal := ∑ n : Fin 65536, H n o
def ssq (H : Fin 65536 → Fin 64 → EReal) (o : Fin 64) : EReal := ∑ n : Fin 65536, H n o * H n o

/-- A per-channel total divided by the pixel count (the f32 word of 65536). -/
def perN (s : Fin 64 → EReal) (o : Fin 64) : EReal := Ideal.div (s o) (Ideal.ofBits .f32 0x47800000#32)

/-- The mean. -/
def mean (H : Fin 65536 → Fin 64 → EReal) : Fin 64 → EReal := perN (ssum H)
/-- The variance as mean of squares minus square of mean. -/
def varK (H : Fin 65536 → Fin 64 → EReal) (o : Fin 64) : EReal := perN (ssq H) o - mean H o * mean H o
/-- The variance as mean squared deviation. -/
def varR (H : Fin 65536 → Fin 64 → EReal) (o : Fin 64) : EReal :=
  perN (fun o => ∑ n : Fin 65536, (H n o - mean H o) * (H n o - mean H o)) o

/-- Normalise with a given mean and variance, then scale and shift (ε is the f32 word nearest 1e-5). -/
def bn (H : Fin 65536 → Fin 64 → EReal) (μ v g b : Fin 64 → EReal) (n : Fin 65536) (o : Fin 64) : EReal :=
  (H n o - μ o) * Ideal.rsqrt (v o + Ideal.ofBits .f32 0x3727C5AC#32) * g o + b o

/-- Normalise, then clamp below at zero. -/
def act (H : Fin 65536 → Fin 64 → EReal) (μ v g b : Fin 64 → EReal) (n : Fin 65536) (o : Fin 64) : EReal :=
  max (bn H μ v g b n o) 0

/-- Normalise, add the residual input, clamp below at zero. -/
def res (H : Fin 65536 → Fin 64 → EReal) (μ v g b : Fin 64 → EReal) (X : Fin 65536 → Fin 64 → EReal)
    (n : Fin 65536) (o : Fin 64) : EReal :=
  max (bn H μ v g b n o + X n o) 0

/-! ## The two programs -/

/-- The whole block with a chosen variance formula `V`. -/
def block (V : (Fin 65536 → Fin 64 → EReal) → Fin 64 → EReal)
    (x : Fin 16 → Fin 64 → Fin 64 → Fin 64 → EReal) (w1 : Fin 64 → Fin 64 → EReal) (g1 b1 : Fin 64 → EReal)
    (w2 : Fin 64 → Fin 64 → EReal) (g2 b2 : Fin 64 → EReal) : Fin 16 → Fin 64 → Fin 64 → Fin 64 → EReal :=
  let X := flatOf x
  let H1 := adder X w1
  let A1 := act H1 (mean H1) (V H1) g1 b1
  let H2 := adder A1 w2
  ofFlat (res H2 (mean H2) (V H2) g2 b2 X)

/-- What the kernel computes. -/
def kernelOut := block varK
/-- What the reference computes. -/
def refOut := block varR

end Cert.Spec

end
-- ==== Proof.SpecLaw.lean ====
import proofs.«147408_j71545565217396_1_alg».proof.Proof.Spec

/-!
# The one law: the two variance formulas agree on finite data

On real (finite) per-pixel values `H n o`, with `μ = (∑ H)/N`:
`(∑ H²)/N - μ² = (∑ (H - μ)²)/N`. The adder layer of finite data is finite; the normalised
activation of finite data is finite because the variance is non-negative and ε is positive, so the
reciprocal square root is a real number. Hence both layers' statistics agree and the two blocks are equal.
-/

noncomputable section

namespace Cert.Spec

open Idealize.ShloMosaic

/-- The pixel count's f32 word is the real number 65536. -/
theorem count_eq : Ideal.ofBits .f32 0x47800000#32 = ((65536 : ℝ) : EReal) := by
  simp [Ideal.ofBits, Ideal.ieee]
  rw [← EReal.coe_mul]
  norm_num

/-- ε's f32 word is a positive real number. -/
theorem eps_pos : ∃ r : ℝ, 0 < r ∧ Ideal.ofBits .f32 0x3727C5AC#32 = (r : EReal) := by
  refine ⟨_, ?_, by simp [Ideal.ofBits, Ideal.ieee]; rfl⟩; positivity

/-! ## Finite sums and maxima of reals, read in the extended reals -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of two reals is the maximum of the coercions. -/
theorem coe_max (a b : ℝ) : ((max a b : ℝ) : EReal) = max (a : EReal) (b : EReal) :=
  EReal.coe_strictMono.monotone.map_max

/-- Dividing a real total by the pixel count is multiplying it by `1/65536`. -/
theorem perN_coe (s : Fin 64 → EReal) (o : Fin 64) (r : ℝ) (h : s o = (r : EReal)) :
    perN s o = ((r * (1 / 65536) : ℝ) : EReal) := by
  unfold perN
  rw [count_eq, Ideal.div_coe (by norm_num), h, ← EReal.coe_mul]

/-! ## The variance identity over the reals -/

/-- `(∑ f²)/N - μ² = (∑ (f - μ)²)/N` with `μ = (∑ f)/N`, for `N = 65536`. -/
theorem real_var (f : Fin 65536 → ℝ) :
    (∑ n, f n * f n) * (1 / 65536) - (∑ n, f n) * (1 / 65536) * ((∑ n, f n) * (1 / 65536))
      = (∑ n, (f n - (∑ n, f n) * (1 / 65536)) * (f n - (∑ n, f n) * (1 / 65536))) * (1 / 65536) := by
  generalize hμ : (∑ n, f n) * (1 / 65536 : ℝ) = μ
  have hS : (∑ n, f n) = 65536 * μ := by rw [← hμ]; ring
  have e : ∀ n, (f n - μ) * (f n - μ) = f n * f n - 2 * μ * f n + μ * μ := fun n => by ring
  simp only [e, Finset.sum_add_distrib, Finset.sum_sub_distrib, ← Finset.mul_sum, Finset.sum_const,
    Finset.card_univ, Fintype.card_fin, nsmul_eq_mul, hS]
  push_cast
  ring

/-- The mean of real data is the real mean. -/
theorem mean_coe (H : Fin 65536 → Fin 64 → EReal) (h : Fin 65536 → Fin 64 → ℝ)
    (hh : ∀ n o, H n o = (h n o : EReal)) (o : Fin 64) :
    mean H o = (((∑ n, h n o) * (1 / 65536) : ℝ) : EReal) := by
  unfold mean
  apply perN_coe
  unfold ssum
  rw [coe_sum]
  exact Finset.sum_congr rfl fun n _ => hh n o

/-- The mean-of-squares variance of real data, as a real. -/
theorem varK_coe (H : Fin 65536 → Fin 64 → EReal) (h : Fin 65536 → Fin 64 → ℝ)
    (hh : ∀ n o, H n o = (h n o : EReal)) (o : Fin 64) :
    varK H o = (((∑ n, h n o * h n o) * (1 / 65536)
      - (∑ n, h n o) * (1 / 65536) * ((∑ n, h n o) * (1 / 65536)) : ℝ) : EReal) := by
  unfold varK
  rw [mean_coe H h hh o, perN_coe (ssq H) o (∑ n, h n o * h n o), ← EReal.coe_mul, ← EReal.coe_sub]
  unfold ssq
  rw [coe_sum]
  exact Finset.sum_congr rfl fun n _ => by rw [hh n o, EReal.coe_mul]

/-- The mean-squared-deviation variance of real data, as a real. -/
theorem varR_coe (H : Fin 65536 → Fin 64 → EReal) (h : Fin 65536 → Fin 64 → ℝ)
    (hh : ∀ n o, H n o = (h n o : EReal)) (o : Fin 64) :
    varR H o = (((∑ n, (h n o - (∑ n, h n o) * (1 / 65536)) * (h n o - (∑ n, h n o) * (1 / 65536)))
      * (1 / 65536) : ℝ) : EReal) := by
  unfold varR
  apply perN_coe
  rw [coe_sum]
  refine Finset.sum_congr rfl fun n _ => ?_
  rw [mean_coe H h hh o, hh n o, ← EReal.coe_sub, ← EReal.coe_mul]

/-- On finite data the two variance formulas agree. -/
theorem varK_eq_varR (H : Fin 65536 → Fin 64 → EReal) (hH : ∀ n o, ∃ r : ℝ, H n o = (r : EReal)) :
    varK H = varR H := by
  choose h hh using hH
  funext o
  rw [varK_coe H h hh o, varR_coe H h hh o, real_var]

/-! ## Finiteness is preserved by the layers -/

/-- The adder layer of real data against real weights is real. -/
theorem adder_real (X : Fin 65536 → Fin 64 → EReal) (w : Fin 64 → Fin 64 → EReal)
    (hX : ∀ n c, ∃ r : ℝ, X n c = (r : EReal)) (hw : ∀ o c, ∃ r : ℝ, w o c = (r : EReal)) :
    ∀ n o, ∃ r : ℝ, adder X w n o = (r : EReal) := by
  choose xr hxr using hX
  choose wr hwr using hw
  intro n o
  refine ⟨-(∑ c : Fin 64, max (xr n c - wr o c) (-(xr n c - wr o c))), ?_⟩
  unfold adder
  rw [EReal.coe_neg, coe_sum]
  congr 1
  refine Finset.sum_congr rfl fun c _ => ?_
  rw [hxr n c, hwr o c, coe_max, EReal.coe_neg, EReal.coe_sub]

/-- The mean-squared-deviation variance of real data is a non-negative real. -/
theorem varR_nonneg_real (H : Fin 65536 → Fin 64 → EReal) (hH : ∀ n o, ∃ r : ℝ, H n o = (r : EReal)) :
    ∀ o, ∃ r : ℝ, 0 ≤ r ∧ varR H o = (r : EReal) := by
  choose h hh using hH
  intro o
  refine ⟨_, ?_, varR_coe H h hh o⟩
  exact mul_nonneg (Finset.sum_nonneg fun n _ => mul_self_nonneg _) (by norm_num)

/-- The mean of real data is real. -/
theorem mean_real (H : Fin 65536 → Fin 64 → EReal) (hH : ∀ n o, ∃ r : ℝ, H n o = (r : EReal)) :
    ∀ o, ∃ r : ℝ, mean H o = (r : EReal) := by
  choose h hh using hH
  exact fun o => ⟨_, mean_coe H h hh o⟩

/-- Normalising real data with a real mean, a non-negative real variance and real scale and shift,
then clamping below at zero, gives real data: `v + ε > 0`, so its reciprocal square root is real. -/
theorem act_real (H : Fin 65536 → Fin 64 → EReal) (μ v g b : Fin 64 → EReal)
    (hH : ∀ n o, ∃ r : ℝ, H n o = (r : EReal)) (hμ : ∀ o, ∃ r : ℝ, μ o = (r : EReal))
    (hv : ∀ o, ∃ r : ℝ, 0 ≤ r ∧ v o = (r : EReal)) (hg : ∀ o, ∃ r : ℝ, g o = (r : EReal))
    (hb : ∀ o, ∃ r : ℝ, b o = (r : EReal)) :
    ∀ n o, ∃ r : ℝ, act H μ v g b n o = (r : EReal) := by
  choose h hh using hH
  choose m hm using hμ
  choose vr hv0 hvr using hv
  choose gr hgr using hg
  choose br hbr using hb
  obtain ⟨ε, hε, hεe⟩ := eps_pos
  intro n o
  have hpos : 0 < vr o + ε := add_pos_of_nonneg_of_pos (hv0 o) hε
  refine ⟨max ((h n o - m o) * (Real.sqrt (vr o + ε))⁻¹ * gr o + br o) 0, ?_⟩
  unfold act bn
  rw [hh n o, hm o, hvr o, hgr o, hbr o, hεe, ← EReal.coe_add, Ideal.rsqrt_coe,
    if_neg (not_lt.mpr hpos.le), if_neg hpos.ne', ← EReal.coe_sub, ← EReal.coe_mul, ← EReal.coe_mul,
    ← EReal.coe_add, coe_max, EReal.coe_zero]

/-! ## The block -/

/-- The whole block: on finite inputs the kernel's and the reference's outputs agree. -/
theorem kernelOut_eq_refOut
    (x : Fin 16 → Fin 64 → Fin 64 → Fin 64 → EReal) (w1 : Fin 64 → Fin 64 → EReal) (g1 b1 : Fin 64 → EReal)
    (w2 : Fin 64 → Fin 64 → EReal) (g2 b2 : Fin 64 → EReal)
    (hx : ∀ b c h w, ∃ r : ℝ, x b c h w = (r : EReal)) (hw1 : ∀ o c, ∃ r : ℝ, w1 o c = (r : EReal))
    (hg1 : ∀ o, ∃ r : ℝ, g1 o = (r : EReal)) (hb1 : ∀ o, ∃ r : ℝ, b1 o = (r : EReal))
    (hw2 : ∀ o c, ∃ r : ℝ, w2 o c = (r : EReal)) :
    kernelOut x w1 g1 b1 w2 g2 b2 = refOut x w1 g1 b1 w2 g2 b2 := by
  -- the first layer's pre-activations are real, so its two variances agree
  have hX : ∀ n c, ∃ r : ℝ, flatOf x n c = (r : EReal) := fun n c => hx _ _ _ _
  have hH1 := adder_real (flatOf x) w1 hX hw1
  have e1 : varK (adder (flatOf x) w1) = varR (adder (flatOf x) w1) := varK_eq_varR _ hH1
  -- hence the first activation is the same real-valued array on both sides
  have hA1 := act_real (adder (flatOf x) w1) (mean (adder (flatOf x) w1)) (varR (adder (flatOf x) w1)) g1 b1
    hH1 (mean_real _ hH1) (varR_nonneg_real _ hH1) hg1 hb1
  -- so the second layer's pre-activations are real and its two variances agree too
  have hH2 := adder_real _ w2 hA1 hw2
  have e2 := varK_eq_varR _ hH2
  show block varK x w1 g1 b1 w2 g2 b2 = block varR x w1 g1 b1 w2 g2 b2
  unfold block
  dsimp only
  rw [e1, e2]

end Cert.Spec

end
-- ==== Proof.Reg0Value.lean ====
import proofs.«147408_j71545565217396_1_alg».proof.Proof.Gen.KernelIdeal.Frame
import proofs.«147408_j71545565217396_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Reg0

open Cert.KernelIdeal Cert.KernelIdeal.Gen Cert.Spec

variable (V : (c : Dev nD) → (b : Ref sig .tc) → Buf (Elt Ideal) ((c : Thread nD τ).loc b))

/-!
# The first call: the adder layer, and its per-channel sum and sum of squares

The grid has 128 points; point t holds rows 512·t … 512·t + 511 of the pixel array and the whole weight table. At
every point the body stores the adder values of its 512 rows — minus the sum over the channels of |x − w| — into the
output block of the same rows, and adds their column sums, and the column sums of their squares, into two [1, 64] rows
that stay in place over the whole grid, set to zero at the first point and written back once, after the last. So the
output array is the adder layer index by index, and the two rows are the totals over the 128 blocks; pixel n is row
n % 512 of block n / 512, and addition of extended reals is commutative and associative, so the 128 block totals are
the sum over all 65536 pixels.
-/

section Work
open Idealize.ShloMosaic.ValueIdx

/-! ## What one grid point leaves in each output block

At every point the body stores, through the whole-block rectangle, the adder values of the point's 512 pixel rows
into output 2, and adds their column sums (and the column sums of their squares) into outputs 3 and 4; at the first
point the two running rows are first set to zero and read back. -/

section Pieces
variable {F : FTy → Type} [FloatOps F]

theorem hz : (![0, 0] : Fin 2 → Nat) = fun _ => 0 := funext fun a => by fin_cases a <;> rfl

/-- A later point leaves the adder values of its rows in output 2. -/
theorem out_B_2 (c : Dev nD) (i : grid0.Coords) (a1 : Memref sig .tc .vmem S512x64 .f32) (h1 : a1.IsWhole)
    (a2 : Memref sig .tc .vmem S64x64 .f32) (h2 : a2.IsWhole) (a3 : Memref sig .tc .vmem S512x64 .f32) (h3 : a3.IsWhole)
    (a4 : Memref sig .tc .vmem S1x64 .f32) (h4 : a4.IsWhole) (a5 : Memref sig .tc .vmem S1x64 .f32) (h5 : a5.IsWhole)
    (hc : ¬cond0_0 i) (x0 : Vec F S512x64 .f32) (x1 : Vec F S64x64 .f32) (xo3 xo4 : Vec F S1x64 .f32) :
    out0_B_2 c i a1 h1 a2 h2 a3 h3 a4 h4 a5 h5 hc x0 x1 xo3 xo4 = k0_pay3 x0 x1 := by
  unfold out0_B_2
  rw [View.read_writes_eq_canon _ _ _ (cover0_B_2 c i a1 h1 a2 h2 a3 h3 a4 h4 a5 h5 hc x0 x1 xo3 xo4)]
  unfold kernelRun0_B
  dsimp only
  sl_unfold_words
  rw [View.canon_unit_zero hz]
  simp only [View.readAt_eq_ld, h1.read_unread, h2.read_unread, h4.read_unread, h5.read_unread,
    View.ld_unit_zero (S := S512x64) hz, View.ld_unit_zero (S := S64x64) hz, View.ld_unit_zero (S := S1x64) hz]

/-- A later point adds its rows' column sums to what the running sum held. -/
theorem out_B_3 (c : Dev nD) (i : grid0.Coords) (a1 : Memref sig .tc .vmem S512x64 .f32) (h1 : a1.IsWhole)
    (a2 : Memref sig .tc .vmem S64x64 .f32) (h2 : a2.IsWhole) (a3 : Memref sig .tc .vmem S512x64 .f32) (h3 : a3.IsWhole)
    (a4 : Memref sig .tc .vmem S1x64 .f32) (h4 : a4.IsWhole) (a5 : Memref sig .tc .vmem S1x64 .f32) (h5 : a5.IsWhole)
    (hc : ¬cond0_0 i) (x0 : Vec F S512x64 .f32) (x1 : Vec F S64x64 .f32) (xo3 xo4 : Vec F S1x64 .f32) :
    out0_B_3 c i a1 h1 a2 h2 a3 h3 a4 h4 a5 h5 hc x0 x1 xo3 xo4 = k0_pay4 x0 x1 xo3 := by
  unfold out0_B_3
  rw [View.read_writes_eq_canon _ _ _ (cover0_B_3 c i a1 h1 a2 h2 a3 h3 a4 h4 a5 h5 hc x0 x1 xo3 xo4)]
  unfold kernelRun0_B
  dsimp only
  sl_unfold_words
  rw [View.canon_unit_zero hz]
  simp only [View.readAt_eq_ld, h1.read_unread, h2.read_unread, h4.read_unread, h5.read_unread,
    View.ld_unit_zero (S := S512x64) hz, View.ld_unit_zero (S := S64x64) hz, View.ld_unit_zero (S := S1x64) hz]

/-- A later point adds its rows' column sums of squares to what the running sum of squares held. -/
theorem out_B_4 (c : Dev nD) (i : grid0.Coords) (a1 : Memref sig .tc .vmem S512x64 .f32) (h1 : a1.IsWhole)
    (a2 : Memref sig .tc .vmem S64x64 .f32) (h2 : a2.IsWhole) (a3 : Memref sig .tc .vmem S512x64 .f32) (h3 : a3.IsWhole)
    (a4 : Memref sig .tc .vmem S1x64 .f32) (h4 : a4.IsWhole) (a5 : Memref sig .tc .vmem S1x64 .f32) (h5 : a5.IsWhole)
    (hc : ¬cond0_0 i) (x0 : Vec F S512x64 .f32) (x1 : Vec F S64x64 .f32) (xo3 xo4 : Vec F S1x64 .f32) :
    out0_B_4 c i a1 h1 a2 h2 a3 h3 a4 h4 a5 h5 hc x0 x1 xo3 xo4 = k0_pay5 x0 x1 xo4 := by
  unfold out0_B_4
  rw [View.read_writes_eq_canon _ _ _ (cover0_B_4 c i a1 h1 a2 h2 a3 h3 a4 h4 a5 h5 hc x0 x1 xo3 xo4)]
  unfold kernelRun0_B
  dsimp only
  sl_unfold_words
  rw [View.canon_unit_zero hz]
  simp only [View.readAt_eq_ld, h1.read_unread, h2.read_unread, h4.read_unread, h5.read_unread,
    View.ld_unit_zero (S := S512x64) hz, View.ld_unit_zero (S := S64x64) hz, View.ld_unit_zero (S := S1x64) hz]

/-- The first point leaves the adder values of its rows in output 2. -/
theorem out_A_2 (c : Dev nD) (i : grid0.Coords) (a1 : Memref sig .tc .vmem S512x64 .f32) (h1 : a1.IsWhole)
    (a2 : Memref sig .tc .vmem S64x64 .f32) (h2 : a2.IsWhole) (a3 : Memref sig .tc .vmem S512x64 .f32) (h3 : a3.IsWhole)
    (a4 : Memref sig .tc .vmem S1x64 .f32) (h4 : a4.IsWhole) (a5 : Memref sig .tc .vmem S1x64 .f32) (h5 : a5.IsWhole)
    (hc : cond0_0 i) (x0 : Vec F S512x64 .f32) (x1 : Vec F S64x64 .f32) :
    out0_A_2 c i a1 h1 a2 h2 a3 h3 a4 h4 a5 h5 hc x0 x1 = k0_pay3 x0 x1 := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero hz]
  simp only [View.readAt_eq_ld, h1.read_unread, h2.read_unread, h4.read_unread, h5.read_unread,
    View.ld_unit_zero (S := S512x64) hz, View.ld_unit_zero (S := S64x64) hz, View.ld_unit_zero (S := S1x64) hz]

/-- The first point sets the running sum to zero, reads it back and adds its rows' column sums. -/
theorem out_A_3 (c : Dev nD) (i : grid0.Coords) (a1 : Memref sig .tc .vmem S512x64 .f32) (h1 : a1.IsWhole)
    (a2 : Memref sig .tc .vmem S64x64 .f32) (h2 : a2.IsWhole) (a3 : Memref sig .tc .vmem S512x64 .f32) (h3 : a3.IsWhole)
    (a4 : Memref sig .tc .vmem S1x64 .f32) (h4 : a4.IsWhole) (a5 : Memref sig .tc .vmem S1x64 .f32) (h5 : a5.IsWhole)
    (hc : cond0_0 i) (x0 : Vec F S512x64 .f32) (x1 : Vec F S64x64 .f32) :
    out0_A_3 c i a1 h1 a2 h2 a3 h3 a4 h4 a5 h5 hc x0 x1 = k0_pay4 x0 x1 (k0_pay1 (F := F)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S1x64) hz, View.readCov_unit_zero (S := S1x64) _ hz]
  simp only [View.readAt_eq_ld, h1.read_unread, h2.read_unread, h4.read_unread, h5.read_unread,
    View.ld_unit_zero (S := S512x64) hz, View.ld_unit_zero (S := S64x64) hz, View.ld_unit_zero (S := S1x64) hz]

/-- The first point sets the running sum of squares to zero, reads it back and adds its rows' column sums of squares. -/
theorem out_A_4 (c : Dev nD) (i : grid0.Coords) (a1 : Memref sig .tc .vmem S512x64 .f32) (h1 : a1.IsWhole)
    (a2 : Memref sig .tc .vmem S64x64 .f32) (h2 : a2.IsWhole) (a3 : Memref sig .tc .vmem S512x64 .f32) (h3 : a3.IsWhole)
    (a4 : Memref sig .tc .vmem S1x64 .f32) (h4 : a4.IsWhole) (a5 : Memref sig .tc .vmem S1x64 .f32) (h5 : a5.IsWhole)
    (hc : cond0_0 i) (x0 : Vec F S512x64 .f32) (x1 : Vec F S64x64 .f32) :
    out0_A_4 c i a1 h1 a2 h2 a3 h3 a4 h4 a5 h5 hc x0 x1 = k0_pay5 x0 x1 (k0_pay2 (F := F)) := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S1x64) hz, View.readCov_unit_zero (S := S1x64) _ hz]
  simp only [View.readAt_eq_ld, h1.read_unread, h2.read_unread, h4.read_unread, h5.read_unread,
    View.ld_unit_zero (S := S512x64) hz, View.ld_unit_zero (S := S64x64) hz, View.ld_unit_zero (S := S1x64) hz]

end Pieces

/-! ## The body's arithmetic at an index -/

section Payload

/-- A row of the pixel block, given a unit middle axis and repeated over the 64 weight rows, read at (r, o, k): entry (r, k). -/
theorem rowBcast_apply {α : Type} (x0 : S512x64.Idx → α) (r : Fin 512) (o k : Fin 64) :
    broadcastTo S512x64x64 (shapeCast S512x1x64 (shapeCast S512x64 x0 shapeCasts_S512x64_S512x64) shapeCasts_S512x64_S512x1x64)
      broadcasts_S512x1x64_S512x64x64 (ix3 r o k) = x0 (ix2 r k) := by
  refine (broadcastTo_apply _ _ (ix3 r o k) (ix3 r (0 : Fin 1) k) fun a => ?_).trans ?_
  · match a with
    | ⟨0, _⟩ => rfl
    | ⟨1, _⟩ => rfl
    | ⟨2, _⟩ => rfl
  · refine (shapeCast_apply _ _ (ix3 r (0 : Fin 1) k) (ix2 r k) ?_).trans ?_
    · rw [Shape.rowMajor_val_two, Shape.rowMajor_val_three]
      show r.val * 64 + k.val = (r.val * 1 + 0) * 64 + k.val
      omega
    · exact congrFun (shapeCast_self x0 _) _

/-- The weight table, given a unit leading axis and repeated over the 512 rows, read at (r, o, k): entry (o, k). -/
theorem tableBcast_apply {α : Type} (x1 : S64x64.Idx → α) (r : Fin 512) (o k : Fin 64) :
    broadcastTo S512x64x64 (shapeCast S1x64x64 x1 shapeCasts_S64x64_S1x64x64) broadcasts_S1x64x64_S512x64x64 (ix3 r o k)
      = x1 (ix2 o k) := by
  refine (broadcastTo_apply _ _ (ix3 r o k) (ix3 (0 : Fin 1) o k) fun a => ?_).trans ?_
  · match a with
    | ⟨0, _⟩ => rfl
    | ⟨1, _⟩ => rfl
    | ⟨2, _⟩ => rfl
  · exact shapeCast_ab_1ab_apply x1 _ 0 o k

/-- The index the lane reduction over axis 2 inserts. -/
theorem lift2_eq (r : Fin 512) (o k : Fin 64) :
    reduces_S512x64x64_S512x64.lift (ix2 r o) k = ix3 r o k :=
  funext fun a => Fin.ext (match a with | ⟨0, _⟩ => rfl | ⟨1, _⟩ => rfl | ⟨2, _⟩ => rfl)

/-- The index the reduction over axis 0 inserts. -/
theorem lift0_eq (r : Fin 512) (o : Fin 64) :
    reduces_S512x64_S64.lift (ix1 o) r = ix2 r o :=
  funext fun a => Fin.ext (match a with | ⟨0, _⟩ => rfl | ⟨1, _⟩ => rfl)

/-- The absolute value, at an index, over the extended reals. -/
theorem absf_at {s : Shape} {φ : FTy} (a : FVec Ideal s φ) (i : s.Idx) : absf a i = max (a i) (-(a i)) := rfl

/-- The lane reduction over the channel axis, read at (r, o): the sum over the channels. -/
theorem laneSum_apply (src : FVec Ideal S512x64x64 .f32) (hφ : FKind.Formats .f32)
    (hacc : (0x00000000#32 : BitVec 32) = FKind.add.neutral .f32 hφ) (r : Fin 512) (o : Fin 64) :
    multiReduction .add [2] S512x64 src 0x00000000#32 reduces_S512x64x64_S512x64 hφ hacc (ix2 r o)
      = ∑ k : Fin 64, src (ix3 r o k) :=
  (Ideal.multiReduction_add_single src _ reduces_S512x64x64_S512x64 hφ hacc (ix2 r o)).trans
    (Finset.sum_congr rfl fun k _ => congrArg src (lift2_eq r o k))

/-- The reduction over the 512 rows of a block, read at channel o: the sum over the rows. -/
theorem rowSum_apply (src : FVec Ideal S512x64 .f32) (hφ : FKind.Formats .f32)
    (hacc : (0x00000000#32 : BitVec 32) = FKind.add.neutral .f32 hφ) (o : Fin 64) :
    multiReduction .add [0] S64 src 0x00000000#32 reduces_S512x64_S64 hφ hacc (ix1 o)
      = ∑ r : Fin 512, src (ix2 r o) :=
  (Ideal.multiReduction_add_single src _ reduces_S512x64_S64 hφ hacc (ix1 o)).trans
    (Finset.sum_congr rfl fun r _ => congrArg src (lift0_eq r o))

/-- The adder value of pixel row r against weight row o: minus the sum over the channels of |x − w|. -/
theorem pay3_apply (x0 : Vec Ideal S512x64 .f32) (x1 : Vec Ideal S64x64 .f32) (r : Fin 512) (o : Fin 64) :
    (k0_pay3 (F := Ideal) x0 x1 : S512x64.Idx → EReal) (ix2 r o)
      = -(∑ k : Fin 64, max (x0 (ix2 r k) - x1 (ix2 o k)) (-(x0 (ix2 r k) - x1 (ix2 o k)))) := by
  unfold k0_pay3
  dsimp only
  refine (subf_apply _ _ _).trans ?_
  refine (congrArg₂ (fun a b : EReal => a - b)
    (show broadcast S512x64 (FloatOps.ofBits (F := Ideal) .f32 0x00000000#32) (ix2 r o) = (0 : EReal) from Ideal.ofBits_zero_f32)
    (laneSum_apply _ _ _ r o)).trans ?_
  rw [zero_sub]
  refine congrArg Neg.neg (Finset.sum_congr rfl fun k _ => ?_)
  refine (absf_at _ _).trans ?_
  rw [subf_apply, rowBcast_apply, tableBcast_apply]

/-- The running sum after a point: what it held, plus the column sums of the point's adder values. -/
theorem pay4_apply (x0 : Vec Ideal S512x64 .f32) (x1 : Vec Ideal S64x64 .f32) (acc : Vec Ideal S1x64 .f32) (o : Fin 64) :
    (k0_pay4 (F := Ideal) x0 x1 acc : S1x64.Idx → EReal) (ix2 (0 : Fin 1) o)
      = acc (ix2 (0 : Fin 1) o) + ∑ r : Fin 512, (k0_pay3 (F := Ideal) x0 x1 : S512x64.Idx → EReal) (ix2 r o) := by
  unfold k0_pay4
  dsimp only
  refine (addf_apply _ _ _).trans ?_
  refine congrArg₂ (fun a b : EReal => a + b) (congrFun (shapeCast_self acc _) _) ?_
  refine (shapeCast_a_1a_apply _ _ 0 o).trans ?_
  exact rowSum_apply _ _ _ o

/-- The running sum of squares after a point: what it held, plus the column sums of the squared adder values. -/
theorem pay5_apply (x0 : Vec Ideal S512x64 .f32) (x1 : Vec Ideal S64x64 .f32) (acc : Vec Ideal S1x64 .f32) (o : Fin 64) :
    (k0_pay5 (F := Ideal) x0 x1 acc : S1x64.Idx → EReal) (ix2 (0 : Fin 1) o)
      = acc (ix2 (0 : Fin 1) o) + ∑ r : Fin 512, (k0_pay3 (F := Ideal) x0 x1 : S512x64.Idx → EReal) (ix2 r o)
          * (k0_pay3 (F := Ideal) x0 x1 : S512x64.Idx → EReal) (ix2 r o) := by
  unfold k0_pay5
  dsimp only
  refine (addf_apply _ _ _).trans ?_
  refine congrArg₂ (fun a b : EReal => a + b) (congrFun (shapeCast_self acc _) _) ?_
  refine (shapeCast_a_1a_apply _ _ 0 o).trans ?_
  refine (rowSum_apply _ _ _ o).trans ?_
  exact Finset.sum_congr rfl fun r _ => mulf_apply _ _ _

/-- The two zero rows the first point stores. -/
theorem pay1_apply (o : Fin 64) : (k0_pay1 (F := Ideal) : S1x64.Idx → EReal) (ix2 (0 : Fin 1) o) = 0 := by
  unfold k0_pay1
  exact Ideal.ofBits_zero_f32
theorem pay2_apply (o : Fin 64) : (k0_pay2 (F := Ideal) : S1x64.Idx → EReal) (ix2 (0 : Fin 1) o) = 0 := by
  unfold k0_pay2
  exact Ideal.ofBits_zero_f32

end Payload

/-! ## Blocks of the arrays, and the sum over all pixels cut into blocks -/

section Run

/-- The adder layer of the pixel array against the weight table, as the first call finds the two arrays. -/
abbrev H (c : Dev nD) : Fin 65536 → Fin 64 → EReal := adder (cur2 (V c main_v1)) (cur2 (V c main_arg1))

/-- The pixel block and the weight block of a grid point, at their literal types. -/
abbrev xb (c : Dev nD) (t : Fin cfg0.N) : Vec Ideal S512x64 .f32 := iblk0 V c 0 t
abbrev wb (c : Dev nD) (t : Fin cfg0.N) : Vec Ideal S64x64 .f32 := iblk0 V c 1 t

theorem pt_lt (t : Fin cfg0.N) : t.val < 128 := lt_of_lt_of_eq t.isLt (show cfg0.N = 128 from N_0)

theorem row_lt (t : Fin cfg0.N) (r : Fin 512) : 512 * t.val + r.val < 65536 := by
  have := pt_lt t; have := r.isLt; omega

/-- The block index of every window at every point: the pixel windows move one block of rows per point, the others stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row r of the pixel block at point t is pixel 512·t + r. -/
theorem xb_apply (c : Dev nD) (t : Fin cfg0.N) (r : Fin 512) (k : Fin 64) :
    xb V c t (ix2 r k) = cur2 (V c main_v1) ⟨512 * t.val + r.val, row_lt t r⟩ k := by
  obtain ⟨e0, e1, -⟩ := idx_facts t
  unfold cur2
  show iblk0 V c 0 t (ix2 r k) = _
  unfold iblk0
  rw [View.read_apply]
  show V c main_v1 _ = V c main_v1 _
  congr 1
  funext a
  apply Fin.ext
  match a with
  | ⟨0, _⟩ => show win0_0.index t 0 * 512 + 1 * r.val = 512 * t.val + r.val; rw [e0]; omega
  | ⟨1, _⟩ => show win0_0.index t 1 * 64 + 1 * k.val = k.val; rw [e1]; omega

/-- The weight block at every point is the whole weight table. -/
theorem wb_apply (c : Dev nD) (t : Fin cfg0.N) (o k : Fin 64) :
    wb V c t (ix2 o k) = cur2 (V c main_arg1) o k := by
  obtain ⟨-, -, e0, e1, -⟩ := idx_facts t
  unfold cur2
  show iblk0 V c 1 t (ix2 o k) = _
  unfold iblk0
  rw [View.read_apply]
  show V c main_arg1 _ = V c main_arg1 _
  congr 1
  funext a
  apply Fin.ext
  match a with
  | ⟨0, _⟩ => show win0_1.index t 0 * 64 + 1 * o.val = o.val; rw [e0]; omega
  | ⟨1, _⟩ => show win0_1.index t 1 * 64 + 1 * k.val = k.val; rw [e1]; omega

/-- The adder values the body computes at point t are the adder layer's at the pixels of block t. -/
theorem blk_adder (c : Dev nD) (t : Fin cfg0.N) (r : Fin 512) (o : Fin 64) :
    (k0_pay3 (F := Ideal) (xb V c t) (wb V c t) : S512x64.Idx → EReal) (ix2 r o)
      = H V c ⟨512 * t.val + r.val, row_lt t r⟩ o := by
  refine (pay3_apply (xb V c t) (wb V c t) r o).trans ?_
  show _ = -(∑ k : Fin 64, max _ _)
  refine congrArg Neg.neg (Finset.sum_congr rfl fun k _ => ?_)
  rw [xb_apply, wb_apply]

/-- The total of a pixel-indexed family over the 512 pixels of block s (zero past the grid). -/
def blockTot (f : Fin 65536 → EReal) (s : ℕ) : EReal :=
  if h : s < 128 then ∑ r : Fin 512, f ⟨512 * s + r.val, by have := r.isLt; omega⟩ else 0

theorem blockTot_pt (f : Fin 65536 → EReal) (t : Fin cfg0.N) :
    blockTot f t.val = ∑ r : Fin 512, f ⟨512 * t.val + r.val, row_lt t r⟩ := by
  unfold blockTot
  rw [dif_pos (pt_lt t)]

/-- The 128 block totals add up to the total over all 65536 pixels: pixel n is row n % 512 of block n / 512, and
    addition of extended reals is commutative and associative. -/
theorem sum_blockTot (f : Fin 65536 → EReal) : ∑ s ∈ Finset.range 128, blockTot f s = ∑ n : Fin 65536, f n := by
  rw [← Fin.sum_univ_eq_sum_range (fun s => blockTot f s) 128]
  have e : ∀ s : Fin 128, blockTot f s.val = ∑ r : Fin 512, f (finProdFinEquiv (m := 128) (n := 512) (s, r)) := fun s => by
    unfold blockTot
    rw [dif_pos s.isLt]
    refine Finset.sum_congr rfl fun r _ => congrArg f (Fin.ext ?_)
    show 512 * s.val + r.val = r.val + 512 * s.val
    omega
  rw [Finset.sum_congr rfl fun s _ => e s]
  rw [← Fintype.sum_prod_type' (fun (s : Fin 128) (r : Fin 512) => f (finProdFinEquiv (m := 128) (n := 512) (s, r)))]
  exact Equiv.sum_comp (finProdFinEquiv (m := 128) (n := 512)) f

/-! ## What the outputs hold after each point -/

/-- After the first point. -/
theorem at_first (c : Dev nD) (t : Fin cfg0.N) (h0 : t.val % 128 = 0) :
    outsAt0 V c t.val t.isLt
      = (k0_pay3 (xb V c t) (wb V c t), k0_pay4 (xb V c t) (wb V c t) (k0_pay1 (F := Ideal)),
          k0_pay5 (xb V c t) (wb V c t) (k0_pay2 (F := Ideal))) := by
  rw [outsAt0_A V c t h0, out_A_2, out_A_3, out_A_4]

/-- After a later point, over what the point before left. -/
theorem at_later (c : Dev nD) (t : Fin cfg0.N) (h0 : ¬t.val % 128 = 0) :
    outsAt0 V c t.val t.isLt
      = (k0_pay3 (xb V c t) (wb V c t),
          k0_pay4 (xb V c t) (wb V c t) (outsAt0 V c (t.val - 1) (Nat.lt_of_le_of_lt (Nat.sub_le _ _) t.isLt)).2.1,
          k0_pay5 (xb V c t) (wb V c t) (outsAt0 V c (t.val - 1) (Nat.lt_of_le_of_lt (Nat.sub_le _ _) t.isLt)).2.2) := by
  rw [outsAt0_B V c t h0, out_B_2, out_B_3, out_B_4]

/-- The column sums of the adder values of block t, and of their squares, are block totals. -/
theorem colSum_eq (c : Dev nD) (t : Fin cfg0.N) (o : Fin 64) :
    ∑ r : Fin 512, (k0_pay3 (F := Ideal) (xb V c t) (wb V c t) : S512x64.Idx → EReal) (ix2 r o)
      = blockTot (fun p => H V c p o) t.val :=
  (Finset.sum_congr rfl fun r _ => blk_adder V c t r o).trans (blockTot_pt (fun p => H V c p o) t).symm

theorem colSq_eq (c : Dev nD) (t : Fin cfg0.N) (o : Fin 64) :
    ∑ r : Fin 512, (k0_pay3 (F := Ideal) (xb V c t) (wb V c t) : S512x64.Idx → EReal) (ix2 r o)
        * (k0_pay3 (F := Ideal) (xb V c t) (wb V c t) : S512x64.Idx → EReal) (ix2 r o)
      = blockTot (fun p => H V c p o * H V c p o) t.val :=
  (Finset.sum_congr rfl fun r _ => by rw [blk_adder V c t r o]).trans (blockTot_pt (fun p => H V c p o * H V c p o) t).symm

/-- The running sum after point n is the total over the blocks 0 … n: by induction on the point. -/
theorem sum_after (c : Dev nD) : ∀ (n : ℕ) (h : n < cfg0.N) (o : Fin 64),
    ((outsAt0 V c n h).2.1 : S1x64.Idx → EReal) (ix2 (0 : Fin 1) o)
      = ∑ s ∈ Finset.range (n + 1), blockTot (fun p => H V c p o) s
  | 0, h, o => by
    rw [at_first V c ⟨0, h⟩ rfl]
    refine (pay4_apply _ _ _ o).trans ?_
    rw [pay1_apply, zero_add, Finset.sum_range_one]
    exact colSum_eq V c ⟨0, h⟩ o
  | n + 1, h, o => by
    have hB : ¬(⟨n + 1, h⟩ : Fin cfg0.N).val % 128 = 0 := by
      have hn : n + 1 < 128 := pt_lt ⟨n + 1, h⟩
      show ¬(n + 1) % 128 = 0
      omega
    rw [at_later V c ⟨n + 1, h⟩ hB]
    refine (pay4_apply _ _ _ o).trans ?_
    rw [Finset.sum_range_succ]
    exact congrArg₂ (fun a b : EReal => a + b) (sum_after c n (Nat.lt_of_succ_lt h) o) (colSum_eq V c ⟨n + 1, h⟩ o)

/-- The running sum of squares after point n likewise. -/
theorem sq_after (c : Dev nD) : ∀ (n : ℕ) (h : n < cfg0.N) (o : Fin 64),
    ((outsAt0 V c n h).2.2 : S1x64.Idx → EReal) (ix2 (0 : Fin 1) o)
      = ∑ s ∈ Finset.range (n + 1), blockTot (fun p => H V c p o * H V c p o) s
  | 0, h, o => by
    rw [at_first V c ⟨0, h⟩ rfl]
    refine (pay5_apply _ _ _ o).trans ?_
    rw [pay2_apply, zero_add, Finset.sum_range_one]
    exact colSq_eq V c ⟨0, h⟩ o
  | n + 1, h, o => by
    have hB : ¬(⟨n + 1, h⟩ : Fin cfg0.N).val % 128 = 0 := by
      have hn : n + 1 < 128 := pt_lt ⟨n + 1, h⟩
      show ¬(n + 1) % 128 = 0
      omega
    rw [at_later V c ⟨n + 1, h⟩ hB]
    refine (pay5_apply _ _ _ o).trans ?_
    rw [Finset.sum_range_succ]
    exact congrArg₂ (fun a b : EReal => a + b) (sq_after c n (Nat.lt_of_succ_lt h) o) (colSq_eq V c ⟨n + 1, h⟩ o)

end Run

/-! ## The write-backs, and the arrays after the last point -/

section Final

theorem last_pt : (127 : ℕ) < cfg0.N := by rw [show cfg0.N = 128 from N_0]; decide

/-- An index of the [1, 64] sum array lies in the block a point writes back iff each coordinate is in the block's range. -/
theorem mem_blk3 (t : Fin cfg0.N) (i : S1x64.Idx) :
    i ∈ ((cfg0.win 3).blk t).view.set ↔ ∀ a : Fin 2, win0_3.index t a * S1x64.size a ≤ (i a).val ∧ (i a).val < win0_3.index t a * S1x64.size a + S1x64.size a := by
  show i ∈ ((View.whole main_v2_1).slice (win0_3.rect t)).set ↔ _
  rw [View.set_slice_whole, Rect.mem_set_unit]
  exact Iff.rfl

theorem mem_blk4 (t : Fin cfg0.N) (i : S1x64.Idx) :
    i ∈ ((cfg0.win 4).blk t).view.set ↔ ∀ a : Fin 2, win0_4.index t a * S1x64.size a ≤ (i a).val ∧ (i a).val < win0_4.index t a * S1x64.size a + S1x64.size a := by
  show i ∈ ((View.whole main_v2_2).slice (win0_4.rect t)).set ↔ _
  rw [View.set_slice_whole, Rect.mem_set_unit]
  exact Iff.rfl

/-- The one write-back of the running sum, after the last point, writes the sum over all pixels. -/
theorem flushed3_eq (c : Dev nD) (t : Fin cfg0.N) (hf : (cfg0.win 3).flush t = true) :
    (dat0 V c).flushed 3 t = ((cfg0.win 3).blk t).view.read (Elt Ideal) (arrRow (ssum (H V c))) := by
  have h127 : t.val + 1 = 128 := by have := (flush0_3 t).mp hf; have := pt_lt t; omega
  obtain ⟨-, -, -, -, -, -, e0, e1, -⟩ := idx_facts t
  show (cfg0.win 3).cut (grid0.coords t) ((dat0 V c).after 3 t) = _
  rw [after0_3]
  funext j
  obtain ⟨u, o, rfl⟩ : ∃ (u : Fin 1) (o : Fin 64), j = ix2 u o := ⟨j 0, j 1, eq_ix2 j⟩
  obtain rfl : u = 0 := Subsingleton.elim _ _
  rw [View.read_apply]
  show ((outsAt0 V c t.val t.isLt).2.1 : S1x64.Idx → EReal) (ix2 (0 : Fin 1) o) = _
  refine Eq.trans ?_ (cast_eq _ _).symm
  unfold arrRow ssum
  rw [sum_after V c t.val t.isLt o, h127]
  refine (sum_blockTot (fun p => H V c p o)).trans (Finset.sum_congr rfl fun n _ => congrArg (H V c n) (Fin.ext ?_))
  show o.val = win0_3.index t 1 * 64 + 1 * o.val
  rw [e1]; omega

/-- The one write-back of the running sum of squares likewise. -/
theorem flushed4_eq (c : Dev nD) (t : Fin cfg0.N) (hf : (cfg0.win 4).flush t = true) :
    (dat0 V c).flushed 4 t = ((cfg0.win 4).blk t).view.read (Elt Ideal) (arrRow (ssq (H V c))) := by
  have h127 : t.val + 1 = 128 := by have := (flush0_4 t).mp hf; have := pt_lt t; omega
  obtain ⟨-, -, -, -, -, -, -, -, e0, e1⟩ := idx_facts t
  show (cfg0.win 4).cut (grid0.coords t) ((dat0 V c).after 4 t) = _
  rw [after0_4]
  funext j
  obtain ⟨u, o, rfl⟩ : ∃ (u : Fin 1) (o : Fin 64), j = ix2 u o := ⟨j 0, j 1, eq_ix2 j⟩
  obtain rfl : u = 0 := Subsingleton.elim _ _
  rw [View.read_apply]
  show ((outsAt0 V c t.val t.isLt).2.2 : S1x64.Idx → EReal) (ix2 (0 : Fin 1) o) = _
  refine Eq.trans ?_ (cast_eq _ _).symm
  unfold arrRow ssq
  rw [sq_after V c t.val t.isLt o, h127]
  refine (sum_blockTot (fun p => H V c p o * H V c p o)).trans (Finset.sum_congr rfl fun n _ => ?_)
  have eo : o = (((cfg0.win 4).blk t).view.emb (ix2 (0 : Fin 1) o)) 1 := Fin.ext (by
    show o.val = win0_4.index t 1 * 64 + 1 * o.val
    rw [e1]; omega)
  rw [← eo]

/-- The last point's block is the whole [1, 64] array. -/
theorem cover3 (i : S1x64.Idx) : ∃ t : Fin cfg0.N, (cfg0.win 3).flush t = true ∧ i ∈ ((cfg0.win 3).blk t).view.set := by
  refine ⟨⟨127, last_pt⟩, (flush0_3 _).mpr rfl, ?_⟩
  obtain ⟨-, -, -, -, -, -, e0, e1, -⟩ := idx_facts ⟨127, last_pt⟩
  rw [mem_blk3]
  intro a
  have h0 : (i 0).val < 1 := (i 0).isLt
  have h1 : (i 1).val < 64 := (i 1).isLt
  match a with
  | ⟨0, _⟩ =>
    show win0_3.index ⟨127, last_pt⟩ 0 * 1 ≤ (i 0).val ∧ (i 0).val < win0_3.index ⟨127, last_pt⟩ 0 * 1 + 1
    rw [e0]; omega
  | ⟨1, _⟩ =>
    show win0_3.index ⟨127, last_pt⟩ 1 * 64 ≤ (i 1).val ∧ (i 1).val < win0_3.index ⟨127, last_pt⟩ 1 * 64 + 64
    rw [e1]; omega

theorem cover4 (i : S1x64.Idx) : ∃ t : Fin cfg0.N, (cfg0.win 4).flush t = true ∧ i ∈ ((cfg0.win 4).blk t).view.set := by
  refine ⟨⟨127, last_pt⟩, (flush0_4 _).mpr rfl, ?_⟩
  obtain ⟨-, -, -, -, -, -, -, -, e0, e1⟩ := idx_facts ⟨127, last_pt⟩
  rw [mem_blk4]
  intro a
  have h0 : (i 0).val < 1 := (i 0).isLt
  have h1 : (i 1).val < 64 := (i 1).isLt
  match a with
  | ⟨0, _⟩ =>
    show win0_4.index ⟨127, last_pt⟩ 0 * 1 ≤ (i 0).val ∧ (i 0).val < win0_4.index ⟨127, last_pt⟩ 0 * 1 + 1
    rw [e0]; omega
  | ⟨1, _⟩ =>
    show win0_4.index ⟨127, last_pt⟩ 1 * 64 ≤ (i 1).val ∧ (i 1).val < win0_4.index ⟨127, last_pt⟩ 1 * 64 + 64
    rw [e1]; omega

theorem sum_final (c : Dev nD) : (dat0 (F := Ideal) V c).arrAt 3 cfg0.N = arrRow (ssum (H V c)) :=
  (dat0 V c).arrAt_eq_of_cover 3 (arrRow (ssum (H V c))) (flushed3_eq V c) cover3

theorem ssq_final (c : Dev nD) : (dat0 (F := Ideal) V c).arrAt 4 cfg0.N = arrRow (ssq (H V c)) :=
  (dat0 V c).arrAt_eq_of_cover 4 (arrRow (ssq (H V c))) (flushed4_eq V c) cover4

end Final

/-! ## The layer's output array: every point writes its own block of rows -/

section Out

theorem mem_blk2 (t : Fin cfg0.N) (i : S65536x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v2_0).slice (win0_2.rect t)).set ↔ _
  rw [View.set_slice_whole, Rect.mem_set_unit]
  exact Iff.rfl

/-- What point t writes back is block t of the adder layer's array. -/
theorem flushed2_eq (c : Dev nD) (t : Fin cfg0.N) :
    (dat0 V c).flushed 2 t = ((cfg0.win 2).blk t).view.read (Elt Ideal) (arr2 (H V c)) := by
  have hv : (outsAt0 V c t.val t.isLt).1 = k0_pay3 (xb V c t) (wb V c t) := by
    by_cases h0 : t.val % 128 = 0
    · rw [at_first V c t h0]
    · rw [at_later V c t h0]
  obtain ⟨-, -, -, -, e0, e1, -⟩ := idx_facts t
  show (cfg0.win 2).cut (grid0.coords t) ((dat0 V c).after 2 t) = _
  rw [after0_2, hv]
  funext j
  obtain ⟨r, o, rfl⟩ : ∃ (r : Fin 512) (o : Fin 64), j = ix2 r o := ⟨j 0, j 1, eq_ix2 j⟩
  rw [View.read_apply]
  show (k0_pay3 (F := Ideal) (xb V c t) (wb V c t) : S512x64.Idx → EReal) (ix2 r o) = _
  refine Eq.trans ?_ (cast_eq _ _).symm
  unfold arr2
  refine (blk_adder V c t r o).trans ?_
  refine congrArg₂ (H V c) (Fin.ext ?_) (Fin.ext ?_)
  · show 512 * t.val + r.val = win0_2.index t 0 * 512 + 1 * r.val
    rw [e0]; omega
  · show o.val = win0_2.index t 1 * 64 + 1 * o.val
    rw [e1]; omega

/-- Row n of the array lies in the block of point n / 512. -/
theorem cover2 (i : S65536x64.Idx) : ∃ t : Fin cfg0.N, (cfg0.win 2).flush t = true ∧ i ∈ ((cfg0.win 2).blk t).view.set := by
  have h0 : (i 0).val < 65536 := (i 0).isLt
  have h1 : (i 1).val < 64 := (i 1).isLt
  have hq : (i 0).val / 512 < cfg0.N := by rw [show cfg0.N = 128 from N_0]; omega
  refine ⟨⟨(i 0).val / 512, hq⟩, flush0_2 _, ?_⟩
  obtain ⟨-, -, -, -, e0, e1, -⟩ := idx_facts ⟨(i 0).val / 512, hq⟩
  have e0' : win0_2.index ⟨(i 0).val / 512, hq⟩ 0 = (i 0).val / 512 := e0
  rw [mem_blk2]
  intro a
  match a with
  | ⟨0, _⟩ =>
    show win0_2.index ⟨(i 0).val / 512, hq⟩ 0 * 512 ≤ (i 0).val ∧ (i 0).val < win0_2.index ⟨(i 0).val / 512, hq⟩ 0 * 512 + 512
    rw [e0']; omega
  | ⟨1, _⟩ =>
    show win0_2.index ⟨(i 0).val / 512, hq⟩ 1 * 64 ≤ (i 1).val ∧ (i 1).val < win0_2.index ⟨(i 0).val / 512, hq⟩ 1 * 64 + 64
    rw [e1]; omega

theorem out_final (c : Dev nD) : (dat0 (F := Ideal) V c).arrAt 2 cfg0.N = arr2 (H V c) :=
  (dat0 V c).arrAt_eq_of_cover 2 (arr2 (H V c)) (fun t _ => flushed2_eq V c t) cover2

end Out

end Work

/-- The layer's output array after the first call: the adder layer of the pixel array against the weight table. -/
theorem out_eq (c : Dev nD) :
    (dat0 (F := Ideal) V c).arrAt 2 cfg0.N = arr2 (adder (cur2 (V c main_v1)) (cur2 (V c main_arg1))) := by
  exact out_final V c

/-- The first call's running per-channel sum, after the last grid point: the sum over all pixels. -/
theorem sum_eq (c : Dev nD) :
    (dat0 (F := Ideal) V c).arrAt 3 cfg0.N = arrRow (ssum (adder (cur2 (V c main_v1)) (cur2 (V c main_arg1)))) := by
  exact sum_final V c

/-- The first call's running per-channel sum of squares, after the last grid point. -/
theorem ssq_eq (c : Dev nD) :
    (dat0 (F := Ideal) V c).arrAt 4 cfg0.N = arrRow (ssq (adder (cur2 (V c main_v1)) (cur2 (V c main_arg1)))) := by
  exact ssq_final V c

end Cert.KernelIdeal.Reg0

end
-- ==== Proof.Reg1Value.lean ====
import proofs.«147408_j71545565217396_1_alg».proof.Proof.Gen.KernelIdeal.Frame
import proofs.«147408_j71545565217396_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Reg1

open Cert.KernelIdeal Cert.KernelIdeal.Gen Cert.Spec
open Idealize.ShloMosaic.ValueIdx

variable (V : (c : Dev nD) → (b : Ref sig .tc) → Buf (Elt Ideal) ((c : Thread nD τ).loc b))

/-- The second call's input activation: the first layer's output normalised with the given mean and
    variance rows, scaled, shifted and clamped at zero. -/
def actIn (c : Dev nD) : Fin 65536 → Fin 64 → EReal :=
  act (cur2 (V c main_v2_0)) (curRow (V c main_v4)) (curRow (V c main_v8)) (curRow (V c main_v9)) (curRow (V c main_v10))

/-! ## What each control case leaves in the three output buffers, as terms of the loaded blocks -/

section Pieces

variable {F : FTy → Type} [FloatOps F]

theorem hz : (![0, 0] : Fin 2 → Nat) = fun _ => 0 := funext fun a => by fin_cases a <;> rfl

/-- First point: the layer's block is the one covering store's value. -/
theorem outA6 (c : Dev nD) (i : grid1.Coords) (arg1 : Memref sig .tc .vmem S512x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x64 .f32) (harg9 : arg9.IsWhole) (hc0 : cond1_0 i) (x0 : Vec F S512x64 .f32) (x1 : Vec F S1x64 .f32) (x2 : Vec F S1x64 .f32) (x3 : Vec F S1x64 .f32) (x4 : Vec F S1x64 .f32) (x5 : Vec F S64x64 .f32) :
    out1_A_6 c i arg1 harg1 arg2 harg2 arg3 harg3 arg4 harg4 arg5 harg5 arg6 harg6 arg7 harg7 arg8 harg8 arg9 harg9 hc0 x0 x1 x2 x3 x4 x5 = k1_pay5 x0 x1 x2 x3 x4 x5 := by
  unfold out1_A_6
  rw [View.read_writes_eq_canon _ _ _ (cover1_A_6 c i arg1 harg1 arg2 harg2 arg3 harg3 arg4 harg4 arg5 harg5 arg6 harg6 arg7 harg7 arg8 harg8 arg9 harg9 hc0 x0 x1 x2 x3 x4 x5)]
  unfold kernelRun1_A
  dsimp only
  sl_unfold_words
  rw [View.canon_unit_zero hz]
  simp only [View.readAt_eq_ld, harg1.read_unread, harg2.read_unread, harg3.read_unread, harg4.read_unread, harg5.read_unread, harg6.read_unread, View.ld_unit_zero (S := S512x64) hz, View.ld_unit_zero (S := S1x64) hz, View.ld_unit_zero (S := S64x64) hz]

/-- First point: the sum row is reset, read back, and the block's column sums are added to it. -/
theorem outA7 (c : Dev nD) (i : grid1.Coords) (arg1 : Memref sig .tc .vmem S512x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x64 .f32) (harg9 : arg9.IsWhole) (hc0 : cond1_0 i) (x0 : Vec F S512x64 .f32) (x1 : Vec F S1x64 .f32) (x2 : Vec F S1x64 .f32) (x3 : Vec F S1x64 .f32) (x4 : Vec F S1x64 .f32) (x5 : Vec F S64x64 .f32) :
    out1_A_7 c i arg1 harg1 arg2 harg2 arg3 harg3 arg4 harg4 arg5 harg5 arg6 harg6 arg7 harg7 arg8 harg8 arg9 harg9 hc0 x0 x1 x2 x3 x4 x5 = k1_pay1 (k1_pay5 x0 x1 x2 x3 x4 x5) (k1_pay3 (F := F)) := by
  unfold out1_A_7
  rw [View.read_writes_eq_canon _ _ _ (cover1_A_7 c i arg1 harg1 arg2 harg2 arg3 harg3 arg4 harg4 arg5 harg5 arg6 harg6 arg7 harg7 arg8 harg8 arg9 harg9 hc0 x0 x1 x2 x3 x4 x5)]
  unfold kernelRun1_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg6.read_unread, View.ld_unit_zero (S := S512x64) hz, View.ld_unit_zero (S := S1x64) hz, View.ld_unit_zero (S := S64x64) hz]

/-- First point: likewise the row of sums of squares. -/
theorem outA8 (c : Dev nD) (i : grid1.Coords) (arg1 : Memref sig .tc .vmem S512x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x64 .f32) (harg9 : arg9.IsWhole) (hc0 : cond1_0 i) (x0 : Vec F S512x64 .f32) (x1 : Vec F S1x64 .f32) (x2 : Vec F S1x64 .f32) (x3 : Vec F S1x64 .f32) (x4 : Vec F S1x64 .f32) (x5 : Vec F S64x64 .f32) :
    out1_A_8 c i arg1 harg1 arg2 harg2 arg3 harg3 arg4 harg4 arg5 harg5 arg6 harg6 arg7 harg7 arg8 harg8 arg9 harg9 hc0 x0 x1 x2 x3 x4 x5 = k1_pay2 (k1_pay5 x0 x1 x2 x3 x4 x5) (k1_pay4 (F := F)) := by
  unfold out1_A_8
  rw [View.read_writes_eq_canon _ _ _ (cover1_A_8 c i arg1 harg1 arg2 harg2 arg3 harg3 arg4 harg4 arg5 harg5 arg6 harg6 arg7 harg7 arg8 harg8 arg9 harg9 hc0 x0 x1 x2 x3 x4 x5)]
  unfold kernelRun1_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg6.read_unread, View.ld_unit_zero (S := S512x64) hz, View.ld_unit_zero (S := S1x64) hz, View.ld_unit_zero (S := S64x64) hz]

/-- Later points: the layer's block again. -/
theorem outB6 (c : Dev nD) (i : grid1.Coords) (arg1 : Memref sig .tc .vmem S512x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (x0 : Vec F S512x64 .f32) (x1 : Vec F S1x64 .f32) (x2 : Vec F S1x64 .f32) (x3 : Vec F S1x64 .f32) (x4 : Vec F S1x64 .f32) (x5 : Vec F S64x64 .f32) (xo7 xo8 : Vec F S1x64 .f32) :
    out1_B_6 c i arg1 harg1 arg2 harg2 arg3 harg3 arg4 harg4 arg5 harg5 arg6 harg6 arg7 harg7 arg8 harg8 arg9 harg9 hc0 x0 x1 x2 x3 x4 x5 xo7 xo8 = k1_pay5 x0 x1 x2 x3 x4 x5 := by
  unfold out1_B_6
  rw [View.read_writes_eq_canon _ _ _ (cover1_B_6 c i arg1 harg1 arg2 harg2 arg3 harg3 arg4 harg4 arg5 harg5 arg6 harg6 arg7 harg7 arg8 harg8 arg9 harg9 hc0 x0 x1 x2 x3 x4 x5 xo7 xo8)]
  unfold kernelRun1_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S512x64) hz, View.ld_unit_zero (S := S1x64) hz, View.ld_unit_zero (S := S64x64) hz]

/-- Later points: the block's column sums are added to the running row. -/
theorem outB7 (c : Dev nD) (i : grid1.Coords) (arg1 : Memref sig .tc .vmem S512x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (x0 : Vec F S512x64 .f32) (x1 : Vec F S1x64 .f32) (x2 : Vec F S1x64 .f32) (x3 : Vec F S1x64 .f32) (x4 : Vec F S1x64 .f32) (x5 : Vec F S64x64 .f32) (xo7 xo8 : Vec F S1x64 .f32) :
    out1_B_7 c i arg1 harg1 arg2 harg2 arg3 harg3 arg4 harg4 arg5 harg5 arg6 harg6 arg7 harg7 arg8 harg8 arg9 harg9 hc0 x0 x1 x2 x3 x4 x5 xo7 xo8 = k1_pay1 (k1_pay5 x0 x1 x2 x3 x4 x5) xo7 := by
  unfold out1_B_7
  rw [View.read_writes_eq_canon _ _ _ (cover1_B_7 c i arg1 harg1 arg2 harg2 arg3 harg3 arg4 harg4 arg5 harg5 arg6 harg6 arg7 harg7 arg8 harg8 arg9 harg9 hc0 x0 x1 x2 x3 x4 x5 xo7 xo8)]
  unfold kernelRun1_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S512x64) hz, View.ld_unit_zero (S := S1x64) hz, View.ld_unit_zero (S := S64x64) hz]

/-- Later points: likewise the sums of squares. -/
theorem outB8 (c : Dev nD) (i : grid1.Coords) (arg1 : Memref sig .tc .vmem S512x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (x0 : Vec F S512x64 .f32) (x1 : Vec F S1x64 .f32) (x2 : Vec F S1x64 .f32) (x3 : Vec F S1x64 .f32) (x4 : Vec F S1x64 .f32) (x5 : Vec F S64x64 .f32) (xo7 xo8 : Vec F S1x64 .f32) :
    out1_B_8 c i arg1 harg1 arg2 harg2 arg3 harg3 arg4 harg4 arg5 harg5 arg6 harg6 arg7 harg7 arg8 harg8 arg9 harg9 hc0 x0 x1 x2 x3 x4 x5 xo7 xo8 = k1_pay2 (k1_pay5 x0 x1 x2 x3 x4 x5) xo8 := by
  unfold out1_B_8
  rw [View.read_writes_eq_canon _ _ _ (cover1_B_8 c i arg1 harg1 arg2 harg2 arg3 harg3 arg4 harg4 arg5 harg5 arg6 harg6 arg7 harg7 arg8 harg8 arg9 harg9 hc0 x0 x1 x2 x3 x4 x5 xo7 xo8)]
  unfold kernelRun1_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S512x64) hz, View.ld_unit_zero (S := S1x64) hz, View.ld_unit_zero (S := S64x64) hz]

end Pieces

/-! ## The block arithmetic read at an index, over the extended reals -/

section Payloads

/-- A middle unit axis added by a cast: `[a, b] → [a, 1, b]` reads `(r, u, k)` at `(r, k)`. -/
theorem cast_mid_apply {α : Type} (v : S512x64.Idx → α) (h : S512x64.ShapeCasts S512x1x64) (r : Fin 512) (u : Fin 1) (k : Fin 64) :
    shapeCast S512x1x64 v h (ix3 r u k) = v (ix2 r k) :=
  shapeCast_apply v h _ _ (by
    have hu : u.val = 0 := by omega
    rw [Shape.rowMajor_val_three, Shape.rowMajor_val_two]
    show r.val * 64 + k.val = (r.val * 1 + u.val) * 64 + k.val
    rw [hu]; omega)

/-- The activation block repeated along the new middle axis. -/
theorem bcast_mid_apply {α : Type} (v : S512x1x64.Idx → α) (h : S512x1x64.Broadcasts S512x64x64) (r : Fin 512) (o k : Fin 64) :
    broadcastTo S512x64x64 v h (ix3 r o k) = v (ix3 r (0 : Fin 1) k) :=
  broadcastTo_apply v h (ix3 r o k) (ix3 r (0 : Fin 1) k) fun a =>
    match a with
    | ⟨0, _⟩ => rfl
    | ⟨1, _⟩ => rfl
    | ⟨2, _⟩ => rfl

/-- The weight table repeated along the new leading axis. -/
theorem bcast_lead_apply {α : Type} (v : S1x64x64.Idx → α) (h : S1x64x64.Broadcasts S512x64x64) (r : Fin 512) (o k : Fin 64) :
    broadcastTo S512x64x64 v h (ix3 r o k) = v (ix3 (0 : Fin 1) o k) :=
  broadcastTo_apply v h (ix3 r o k) (ix3 (0 : Fin 1) o k) fun a =>
    match a with
    | ⟨0, _⟩ => rfl
    | ⟨1, _⟩ => rfl
    | ⟨2, _⟩ => rfl

/-- A sum along the last axis of a `[512, 64, 64]` vector, term by term. -/
theorem sum_last_apply (src : FVec Ideal S512x64x64 .f32) (h : S512x64x64.Reduces [2] S512x64) (hφ : FKind.Formats .f32)
    (hacc : (0x00000000#32 : BitVec FTy.f32.bits) = FKind.add.neutral .f32 hφ) (r : Fin 512) (o : Fin 64) :
    multiReduction .add [2] S512x64 src 0x00000000#32 h hφ hacc (ix2 r o) = ∑ k : Fin 64, src (ix3 r o k) :=
  (Ideal.multiReduction_add_single src 0x00000000#32 h hφ hacc (ix2 r o)).trans
    (Finset.sum_congr rfl fun k _ => congrArg src (funext fun a =>
      match a with
      | ⟨0, _⟩ => rfl
      | ⟨1, _⟩ => rfl
      | ⟨2, _⟩ => rfl))

/-- A sum down the rows of a `[512, 64]` vector, term by term. -/
theorem sum_rows_apply (src : FVec Ideal S512x64 .f32) (h : S512x64.Reduces [0] S64) (hφ : FKind.Formats .f32)
    (hacc : (0x00000000#32 : BitVec FTy.f32.bits) = FKind.add.neutral .f32 hφ) (o : Fin 64) :
    multiReduction .add [0] S64 src 0x00000000#32 h hφ hacc (ix1 o) = ∑ r : Fin 512, src (ix2 r o) :=
  (Ideal.multiReduction_add_single src 0x00000000#32 h hφ hacc (ix1 o)).trans
    (Finset.sum_congr rfl fun k _ => congrArg src (funext fun a =>
      match a with
      | ⟨0, _⟩ => rfl
      | ⟨1, _⟩ => rfl))

/-- One entry of the activation a block feeds the second adder layer: normalise with the mean and variance rows, scale,
    shift, clamp below at zero. -/
def actAt (x0 : Vec Ideal S512x64 .f32) (x1 x2 x3 x4 : Vec Ideal S1x64 .f32) (r : Fin 512) (k : Fin 64) : EReal :=
  max ((x0 (ix2 r k) - x1 (ix2 (0 : Fin 1) k)) * Ideal.rsqrt (x2 (ix2 (0 : Fin 1) k) + Ideal.ofBits .f32 0x3727C5AC#32)
    * x3 (ix2 (0 : Fin 1) k) + x4 (ix2 (0 : Fin 1) k)) 0

theorem absf_at {s : Shape} {φ : FTy} (a : FVec Ideal s φ) (i : s.Idx) : absf a i = max (a i) (-(a i)) := rfl
theorem rsqrt_at {s : Shape} {φ : FTy} (a : FVec Ideal s φ) (i : s.Idx) : rsqrt a i = Ideal.rsqrt (a i) := rfl

/-- The layer's block at `(r, o)`: minus the L1 distance between row `r` of the activation and weight row `o`. -/
theorem pay5_apply (x0 : Vec Ideal S512x64 .f32) (x1 x2 x3 x4 : Vec Ideal S1x64 .f32) (x5 : Vec Ideal S64x64 .f32)
    (r : Fin 512) (o : Fin 64) :
    k1_pay5 x0 x1 x2 x3 x4 x5 (ix2 r o)
      = -(∑ k : Fin 64, max (actAt x0 x1 x2 x3 x4 r k - x5 (ix2 o k)) (-(actAt x0 x1 x2 x3 x4 r k - x5 (ix2 o k)))) := by
  unfold k1_pay5
  refine (congrArg (fun z => Ideal.ofBits .f32 0x00000000#32 - z) (sum_last_apply _ _ _ _ r o)).trans ?_
  rw [Ideal.ofBits_zero_f32, zero_sub]
  refine congrArg Neg.neg (Finset.sum_congr rfl fun k _ => ?_)
  simp only [absf_at, rsqrt_at, subf_apply, addf_apply, mulf_apply, maximumf_apply, broadcast_apply, bcast_mid_apply,
    bcast_lead_apply, cast_mid_apply, shapeCast_ab_1ab_apply, broadcastTo_1b_ab_apply, shapeCast_self, Ideal.ofBits_def,
    Ideal.ofBits_zero_f32]
  rfl

/-- The running sum row after a block: what it held plus the block's column sums. -/
theorem pay1_apply (d : FVec Ideal S512x64 .f32) (acc : Vec Ideal S1x64 .f32) (u : Fin 1) (o : Fin 64) :
    k1_pay1 d acc (ix2 u o) = acc (ix2 u o) + ∑ r : Fin 512, d (ix2 r o) := by
  unfold k1_pay1
  refine (addf_apply _ _ _).trans ?_
  rw [shapeCast_self]
  exact congrArg (acc (ix2 u o) + ·) ((shapeCast_a_1a_apply _ _ u o).trans (sum_rows_apply _ _ _ _ o))

/-- The running row of sums of squares after a block: what it held plus the column sums of the block's squares. -/
theorem pay2_apply (d : FVec Ideal S512x64 .f32) (acc : Vec Ideal S1x64 .f32) (u : Fin 1) (o : Fin 64) :
    k1_pay2 d acc (ix2 u o) = acc (ix2 u o) + ∑ r : Fin 512, d (ix2 r o) * d (ix2 r o) := by
  unfold k1_pay2
  refine (addf_apply _ _ _).trans ?_
  rw [shapeCast_self]
  exact congrArg (acc (ix2 u o) + ·) ((shapeCast_a_1a_apply _ _ u o).trans (sum_rows_apply _ _ _ _ o))

/-- The two reset rows are zero. -/
theorem pay3_apply (j : S1x64.Idx) : (k1_pay3 (F := Ideal)) j = 0 := by
  unfold k1_pay3
  exact Ideal.ofBits_zero_f32
theorem pay4_apply (j : S1x64.Idx) : (k1_pay4 (F := Ideal)) j = 0 := by
  unfold k1_pay4
  exact Ideal.ofBits_zero_f32

end Payloads

/-! ## The blocks the windows read, and the layer's block at a grid point -/

section Blocks

/-- Where each window's block sits at grid point `t`: the two pixel windows move with the point, every other window stays. -/
structure IdxFacts (t : Fin cfg1.N) : Prop where
  w0 : win1_0.index t (0 : Fin 2) = t.val ∧ win1_0.index t (1 : Fin 2) = 0
  w1 : win1_1.index t (0 : Fin 2) = 0 ∧ win1_1.index t (1 : Fin 2) = 0
  w2 : win1_2.index t (0 : Fin 2) = 0 ∧ win1_2.index t (1 : Fin 2) = 0
  w3 : win1_3.index t (0 : Fin 2) = 0 ∧ win1_3.index t (1 : Fin 2) = 0
  w4 : win1_4.index t (0 : Fin 2) = 0 ∧ win1_4.index t (1 : Fin 2) = 0
  w5 : win1_5.index t (0 : Fin 2) = 0 ∧ win1_5.index t (1 : Fin 2) = 0
  w6 : win1_6.index t (0 : Fin 2) = t.val ∧ win1_6.index t (1 : Fin 2) = 0
  w7 : win1_7.index t (0 : Fin 2) = 0 ∧ win1_7.index t (1 : Fin 2) = 0
  w8 : win1_8.index t (0 : Fin 2) = 0 ∧ win1_8.index t (1 : Fin 2) = 0

theorem idx_facts_raw : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

theorem idx_facts (t : Fin cfg1.N) : IdxFacts t := by
  obtain ⟨h0, h1, h2, h3, h4, h5, h6, h7, h8⟩ := idx_facts_raw t
  exact ⟨h0, h1, h2, h3, h4, h5, h6, h7, h8⟩

/-- A pixel-window block of any `[65536, 64]` array: row `r` of block `t` is row `512 t + r` of the array. -/
theorem blk0_read (c : Dev nD) (t : Fin cfg1.N) (G : S65536x64.Idx → Elt Ideal .f32) (r : Fin 512) (k : Fin 64)
    (n : Fin 65536) (hn : n.val = 512 * t.val + r.val) :
    (((cfg1.win 0).blk t).view.read (Elt Ideal) G : Vec Ideal S512x64 .f32) (ix2 r k) = G (ix2 n k) := by
  have e := idx_facts t
  rw [View.read_apply]
  refine congrArg G (funext fun a => ?_)
  apply Fin.ext
  match a with
  | ⟨0, _⟩ => show win1_0.index t 0 * 512 + 1 * r.val = n.val; rw [e.w0.1, hn]; omega
  | ⟨1, _⟩ => show win1_0.index t 1 * 64 + 1 * k.val = k.val; rw [e.w0.2]; omega

theorem blk6_read (c : Dev nD) (t : Fin cfg1.N) (G : S65536x64.Idx → Elt Ideal .f32) (r : Fin 512) (k : Fin 64)
    (n : Fin 65536) (hn : n.val = 512 * t.val + r.val) :
    (((cfg1.win 6).blk t).view.read (Elt Ideal) G : Vec Ideal S512x64 .f32) (ix2 r k) = G (ix2 n k) := by
  have e := idx_facts t
  rw [View.read_apply]
  refine congrArg G (funext fun a => ?_)
  apply Fin.ext
  match a with
  | ⟨0, _⟩ => show win1_6.index t 0 * 512 + 1 * r.val = n.val; rw [e.w6.1, hn]; omega
  | ⟨1, _⟩ => show win1_6.index t 1 * 64 + 1 * k.val = k.val; rw [e.w6.2]; omega

/-- The block of a row window is the whole row, whatever the row holds. -/
theorem blk7_read (t : Fin cfg1.N) (G : S1x64.Idx → Elt Ideal .f32) :
    (((cfg1.win 7).blk t).view.read (Elt Ideal) G : Vec Ideal S1x64 .f32) = G := by
  have e := idx_facts t
  funext x
  rw [View.read_apply]
  refine congrArg G (funext fun a => ?_)
  apply Fin.ext
  match a with
  | ⟨0, _⟩ => show win1_7.index t 0 * 1 + 1 * (x 0).val = (x 0).val; rw [e.w7.1]; omega
  | ⟨1, _⟩ => show win1_7.index t 1 * 64 + 1 * (x 1).val = (x 1).val; rw [e.w7.2]; omega

theorem blk8_read (t : Fin cfg1.N) (G : S1x64.Idx → Elt Ideal .f32) :
    (((cfg1.win 8).blk t).view.read (Elt Ideal) G : Vec Ideal S1x64 .f32) = G := by
  have e := idx_facts t
  funext x
  rw [View.read_apply]
  refine congrArg G (funext fun a => ?_)
  apply Fin.ext
  match a with
  | ⟨0, _⟩ => show win1_8.index t 0 * 1 + 1 * (x 0).val = (x 0).val; rw [e.w8.1]; omega
  | ⟨1, _⟩ => show win1_8.index t 1 * 64 + 1 * (x 1).val = (x 1).val; rw [e.w8.2]; omega

theorem blk1_eq (c : Dev nD) (t : Fin cfg1.N) : (iblk1 V c 1 t : Vec Ideal S1x64 .f32) = V c main_v4 := by
  have e := idx_facts t
  funext x
  unfold iblk1
  rw [View.read_apply]
  show V c main_v4 _ = V c main_v4 x
  congr 1
  funext a
  apply Fin.ext
  match a with
  | ⟨0, _⟩ => show win1_1.index t 0 * 1 + 1 * (x 0).val = (x 0).val; rw [e.w1.1]; omega
  | ⟨1, _⟩ => show win1_1.index t 1 * 64 + 1 * (x 1).val = (x 1).val; rw [e.w1.2]; omega

theorem blk2_eq (c : Dev nD) (t : Fin cfg1.N) : (iblk1 V c 2 t : Vec Ideal S1x64 .f32) = V c main_v8 := by
  have e := idx_facts t
  funext x
  unfold iblk1
  rw [View.read_apply]
  show V c main_v8 _ = V c main_v8 x
  congr 1
  funext a
  apply Fin.ext
  match a with
  | ⟨0, _⟩ => show win1_2.index t 0 * 1 + 1 * (x 0).val = (x 0).val; rw [e.w2.1]; omega
  | ⟨1, _⟩ => show win1_2.index t 1 * 64 + 1 * (x 1).val = (x 1).val; rw [e.w2.2]; omega

theorem blk3_eq (c : Dev nD) (t : Fin cfg1.N) : (iblk1 V c 3 t : Vec Ideal S1x64 .f32) = V c main_v9 := by
  have e := idx_facts t
  funext x
  unfold iblk1
  rw [View.read_apply]
  show V c main_v9 _ = V c main_v9 x
  congr 1
  funext a
  apply Fin.ext
  match a with
  | ⟨0, _⟩ => show win1_3.index t 0 * 1 + 1 * (x 0).val = (x 0).val; rw [e.w3.1]; omega
  | ⟨1, _⟩ => show win1_3.index t 1 * 64 + 1 * (x 1).val = (x 1).val; rw [e.w3.2]; omega

theorem blk4_eq (c : Dev nD) (t : Fin cfg1.N) : (iblk1 V c 4 t : Vec Ideal S1x64 .f32) = V c main_v10 := by
  have e := idx_facts t
  funext x
  unfold iblk1
  rw [View.read_apply]
  show V c main_v10 _ = V c main_v10 x
  congr 1
  funext a
  apply Fin.ext
  match a with
  | ⟨0, _⟩ => show win1_4.index t 0 * 1 + 1 * (x 0).val = (x 0).val; rw [e.w4.1]; omega
  | ⟨1, _⟩ => show win1_4.index t 1 * 64 + 1 * (x 1).val = (x 1).val; rw [e.w4.2]; omega

theorem blk5_eq (c : Dev nD) (t : Fin cfg1.N) : (iblk1 V c 5 t : Vec Ideal S64x64 .f32) = V c main_arg4 := by
  have e := idx_facts t
  funext x
  unfold iblk1
  rw [View.read_apply]
  show V c main_arg4 _ = V c main_arg4 x
  congr 1
  funext a
  apply Fin.ext
  match a with
  | ⟨0, _⟩ => show win1_5.index t 0 * 64 + 1 * (x 0).val = (x 0).val; rw [e.w5.1]; omega
  | ⟨1, _⟩ => show win1_5.index t 1 * 64 + 1 * (x 1).val = (x 1).val; rw [e.w5.2]; omega

end Blocks

/-! ## The layer's block at a grid point is a run of rows of the layer's output -/

section Value

/-- The second adder layer's output on the clamped, normalised first layer. -/
abbrev Hout (c : Dev nD) : Fin 65536 → Fin 64 → EReal := adder (actIn V c) (cur2 (V c main_arg4))

/-- The layer's block the body computes at grid point `t`, from the blocks its windows hold there. -/
abbrev dblk (c : Dev nD) (t : Fin cfg1.N) : Vec Ideal S512x64 .f32 :=
  k1_pay5 (iblk1 V c 0 t) (iblk1 V c 1 t) (iblk1 V c 2 t) (iblk1 V c 3 t) (iblk1 V c 4 t) (iblk1 V c 5 t)

/-- It is rows `512 t … 512 t + 511` of the layer's output. -/
theorem dblk_apply (c : Dev nD) (t : Fin cfg1.N) (r : Fin 512) (o : Fin 64) (n : Fin 65536)
    (hn : n.val = 512 * t.val + r.val) : dblk V c t (ix2 r o) = Hout V c n o := by
  refine (pay5_apply (iblk1 V c 0 t) (iblk1 V c 1 t) (iblk1 V c 2 t) (iblk1 V c 3 t) (iblk1 V c 4 t) (iblk1 V c 5 t) r o).trans ?_
  refine congrArg Neg.neg (Finset.sum_congr rfl fun k _ => ?_)
  have ha : actAt (iblk1 V c 0 t) (iblk1 V c 1 t) (iblk1 V c 2 t) (iblk1 V c 3 t) (iblk1 V c 4 t) r k = actIn V c n k := by
    unfold actAt
    rw [blk1_eq, blk2_eq, blk3_eq, blk4_eq,
      show (iblk1 V c 0 t : Vec Ideal S512x64 .f32) (ix2 r k) = V c main_v2_0 (ix2 n k) from blk0_read c t (V c main_v2_0) r k n hn]
    rfl
  have hw : (iblk1 V c 5 t : Vec Ideal S64x64 .f32) (ix2 o k) = cur2 (V c main_arg4) o k := by rw [blk5_eq]; rfl
  rw [ha, hw]

/-! ## What the three output buffers hold after each grid point -/

/-- The layer's buffer holds the point's block, at the first point and after. -/
theorem out6_eq (c : Dev nD) (t : Fin cfg1.N) : (outsAt1 V c t.val t.isLt).1 = dblk V c t := by
  by_cases h0 : t.val % 128 = 0
  · rw [outsAt1_A V c t h0]
    dsimp only
    exact outA6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)
  · rw [outsAt1_B V c t h0]
    dsimp only
    exact outB6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t)
      (outsAt1 V c (t.val - 1) (Nat.lt_of_le_of_lt (Nat.sub_le _ _) t.isLt)).2.1 (outsAt1 V c (t.val - 1) (Nat.lt_of_le_of_lt (Nat.sub_le _ _) t.isLt)).2.2

/-- The sum row: reset then stepped at the first point, stepped from the point before at every later one. -/
theorem acc7_A (c : Dev nD) (t : Fin cfg1.N) (h0 : t.val % 128 = 0) :
    (outsAt1 V c t.val t.isLt).2.1 = k1_pay1 (F := Ideal) (dblk V c t) (k1_pay3 (F := Ideal)) := by
  rw [outsAt1_A V c t h0]
  dsimp only
  exact outA7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)

theorem acc7_B (c : Dev nD) (t : Fin cfg1.N) (h0 : ¬t.val % 128 = 0) :
    (outsAt1 V c t.val t.isLt).2.1 = k1_pay1 (F := Ideal) (dblk V c t) (outsAt1 V c (t.val - 1) (Nat.lt_of_le_of_lt (Nat.sub_le _ _) t.isLt)).2.1 := by
  rw [outsAt1_B V c t h0]
  dsimp only
  exact outB7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t)
    (outsAt1 V c (t.val - 1) (Nat.lt_of_le_of_lt (Nat.sub_le _ _) t.isLt)).2.1 (outsAt1 V c (t.val - 1) (Nat.lt_of_le_of_lt (Nat.sub_le _ _) t.isLt)).2.2

/-- The row of sums of squares, likewise. -/
theorem acc8_A (c : Dev nD) (t : Fin cfg1.N) (h0 : t.val % 128 = 0) :
    (outsAt1 V c t.val t.isLt).2.2 = k1_pay2 (F := Ideal) (dblk V c t) (k1_pay4 (F := Ideal)) := by
  rw [outsAt1_A V c t h0]
  dsimp only
  exact outA8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)

theorem acc8_B (c : Dev nD) (t : Fin cfg1.N) (h0 : ¬t.val % 128 = 0) :
    (outsAt1 V c t.val t.isLt).2.2 = k1_pay2 (F := Ideal) (dblk V c t) (outsAt1 V c (t.val - 1) (Nat.lt_of_le_of_lt (Nat.sub_le _ _) t.isLt)).2.2 := by
  rw [outsAt1_B V c t h0]
  dsimp only
  exact outB8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t)
    (outsAt1 V c (t.val - 1) (Nat.lt_of_le_of_lt (Nat.sub_le _ _) t.isLt)).2.1 (outsAt1 V c (t.val - 1) (Nat.lt_of_le_of_lt (Nat.sub_le _ _) t.isLt)).2.2

/-- After point `n` the sum row holds, per channel, the sum over the blocks `0 … n` of each block's column sum:
    zero plus the first block at the reset, one more block at each later point. -/
theorem sum7_inv (c : Dev nD) : ∀ (n : ℕ) (h : n < cfg1.N) (u : Fin 1) (o : Fin 64),
    (outsAt1 V c n h).2.1 (ix2 u o)
      = ∑ s : Fin (n + 1), ∑ r : Fin 512, dblk V c ⟨s.val, Nat.lt_of_lt_of_le s.isLt h⟩ (ix2 r o)
  | 0, h, u, o => by
    refine (congrFun (acc7_A V c ⟨0, h⟩ rfl) (ix2 u o)).trans ?_
    rw [pay1_apply, pay3_apply, zero_add, Fin.sum_univ_one]
    rfl
  | n + 1, h, u, o => by
    have hN : cfg1.N = 128 := N_1
    have hB : ¬(⟨n + 1, h⟩ : Fin cfg1.N).val % 128 = 0 := by dsimp only; omega
    refine (congrFun (acc7_B V c ⟨n + 1, h⟩ hB) (ix2 u o)).trans ?_
    rw [pay1_apply]
    refine Eq.trans ?_ (Fin.sum_univ_castSucc _).symm
    exact congrArg₂ (· + ·) ((sum7_inv c n (Nat.lt_of_succ_lt h) u o).trans (Finset.sum_congr rfl fun s _ => rfl)) rfl

/-- Likewise the row of sums of squares. -/
theorem sum8_inv (c : Dev nD) : ∀ (n : ℕ) (h : n < cfg1.N) (u : Fin 1) (o : Fin 64),
    (outsAt1 V c n h).2.2 (ix2 u o)
      = ∑ s : Fin (n + 1), ∑ r : Fin 512,
          dblk V c ⟨s.val, Nat.lt_of_lt_of_le s.isLt h⟩ (ix2 r o) * dblk V c ⟨s.val, Nat.lt_of_lt_of_le s.isLt h⟩ (ix2 r o)
  | 0, h, u, o => by
    refine (congrFun (acc8_A V c ⟨0, h⟩ rfl) (ix2 u o)).trans ?_
    rw [pay2_apply, pay4_apply, zero_add, Fin.sum_univ_one]
    rfl
  | n + 1, h, u, o => by
    have hN : cfg1.N = 128 := N_1
    have hB : ¬(⟨n + 1, h⟩ : Fin cfg1.N).val % 128 = 0 := by dsimp only; omega
    refine (congrFun (acc8_B V c ⟨n + 1, h⟩ hB) (ix2 u o)).trans ?_
    rw [pay2_apply]
    refine Eq.trans ?_ (Fin.sum_univ_castSucc _).symm
    exact congrArg₂ (· + ·) ((sum8_inv c n (Nat.lt_of_succ_lt h) u o).trans (Finset.sum_congr rfl fun s _ => rfl)) rfl

/-! ## From blocks to all pixels -/

/-- A pixel is a grid point and a row within that point's block: `n = 512 s + r`. -/
def pixEquiv : Fin 128 × Fin 512 ≃ Fin 65536 where
  toFun x := ⟨512 * x.1.val + x.2.val, by have := x.1.isLt; have := x.2.isLt; omega⟩
  invFun n := (⟨n.val / 512, by have := n.isLt; omega⟩, ⟨n.val % 512, Nat.mod_lt _ (by decide)⟩)
  left_inv x := by
    have h1 := x.1.isLt
    have h2 := x.2.isLt
    refine Prod.ext (Fin.ext ?_) (Fin.ext ?_)
    · show (512 * x.1.val + x.2.val) / 512 = x.1.val; omega
    · show (512 * x.1.val + x.2.val) % 512 = x.2.val; omega
  right_inv n := by
    apply Fin.ext
    show 512 * (n.val / 512) + n.val % 512 = n.val; omega

/-- Summing block by block, then within each block, is summing over all pixels: addition on the extended reals is a
    commutative monoid, so the regrouping asks nothing of the terms. -/
theorem sum_pixels (g : Fin 65536 → EReal) : ∑ s : Fin 128, ∑ r : Fin 512, g (pixEquiv (s, r)) = ∑ n : Fin 65536, g n :=
  (Fintype.sum_prod_type (fun x : Fin 128 × Fin 512 => g (pixEquiv x))).symm.trans (Equiv.sum_comp pixEquiv g)

/-- After the last point the sum row is the per-channel total of the layer's output. -/
theorem sum7_last (c : Dev nD) (n : ℕ) (h : n < cfg1.N) (hn : n = 127) (u : Fin 1) (o : Fin 64) :
    (outsAt1 V c n h).2.1 (ix2 u o) = ssum (Hout V c) o := by
  rw [sum7_inv V c n h u o]
  subst hn
  exact (Finset.sum_congr rfl fun s _ => Finset.sum_congr rfl fun r _ =>
    dblk_apply V c ⟨s.val, Nat.lt_of_lt_of_le s.isLt h⟩ r o (pixEquiv (s, r)) rfl).trans (sum_pixels fun n => Hout V c n o)

/-- And the other row is the per-channel total of its squares. -/
theorem sum8_last (c : Dev nD) (n : ℕ) (h : n < cfg1.N) (hn : n = 127) (u : Fin 1) (o : Fin 64) :
    (outsAt1 V c n h).2.2 (ix2 u o) = ssq (Hout V c) o := by
  rw [sum8_inv V c n h u o]
  subst hn
  exact (Finset.sum_congr rfl fun s _ => Finset.sum_congr rfl fun r _ =>
    congrArg₂ (· * ·) (dblk_apply V c ⟨s.val, Nat.lt_of_lt_of_le s.isLt h⟩ r o (pixEquiv (s, r)) rfl)
      (dblk_apply V c ⟨s.val, Nat.lt_of_lt_of_le s.isLt h⟩ r o (pixEquiv (s, r)) rfl)).trans
    (sum_pixels fun n => Hout V c n o * Hout V c n o)

end Value

/-! ## The three arrays after the whole grid -/

section Final

/-- An index is under a window's block at `t` iff each coordinate lies in the block's range on its axis. -/
theorem mem_blk6 (t : Fin cfg1.N) (i : S65536x64.Idx) :
    i ∈ ((cfg1.win 6).blk t).view.set ↔ ∀ a : Fin 2, win1_6.index t a * S512x64.size a ≤ (i a).val ∧ (i a).val < win1_6.index t a * S512x64.size a + S512x64.size a := by
  show i ∈ ((View.whole main_v11_0).slice (win1_6.rect t)).set ↔ _
  rw [View.set_slice_whole, Rect.mem_set_unit]
  exact Iff.rfl

theorem mem_blk7 (t : Fin cfg1.N) (i : S1x64.Idx) :
    i ∈ ((cfg1.win 7).blk t).view.set ↔ ∀ a : Fin 2, win1_7.index t a * S1x64.size a ≤ (i a).val ∧ (i a).val < win1_7.index t a * S1x64.size a + S1x64.size a := by
  show i ∈ ((View.whole main_v11_1).slice (win1_7.rect t)).set ↔ _
  rw [View.set_slice_whole, Rect.mem_set_unit]
  exact Iff.rfl

theorem mem_blk8 (t : Fin cfg1.N) (i : S1x64.Idx) :
    i ∈ ((cfg1.win 8).blk t).view.set ↔ ∀ a : Fin 2, win1_8.index t a * S1x64.size a ≤ (i a).val ∧ (i a).val < win1_8.index t a * S1x64.size a + S1x64.size a := by
  show i ∈ ((View.whole main_v11_2).slice (win1_8.rect t)).set ↔ _
  rw [View.set_slice_whole, Rect.mem_set_unit]
  exact Iff.rfl

/-- Every point writes its block of the layer's output back. -/
theorem flushed6_eq (c : Dev nD) (t : Fin cfg1.N) :
    (dat1 V c).flushed 6 t = ((cfg1.win 6).blk t).view.read (Elt Ideal) (arr2 (Hout V c)) := by
  have hN : cfg1.N = 128 := N_1
  have ht : t.val < 128 := lt_of_lt_of_eq t.isLt hN
  show (cfg1.win 6).cut (grid1.coords t) ((dat1 V c).after 6 t) = _
  rw [after1_6, out6_eq]
  funext j
  obtain ⟨r, o, rfl⟩ : ∃ (r : Fin 512) (o : Fin 64), j = ix2 r o := ⟨j 0, j 1, eq_ix2 j⟩
  have hb : 512 * t.val + r.val < 65536 := by have := r.isLt; omega
  exact (dblk_apply V c t r o ⟨512 * t.val + r.val, hb⟩ rfl).trans
    (blk6_read c t (arr2 (Hout V c)) r o ⟨512 * t.val + r.val, hb⟩ rfl).symm

/-- The last point writes the sum row back: the per-channel totals. -/
theorem flushed7_eq (c : Dev nD) (t : Fin cfg1.N) (hf : (cfg1.win 7).flush t = true) :
    (dat1 V c).flushed 7 t = ((cfg1.win 7).blk t).view.read (Elt Ideal) (arrRow (ssum (Hout V c))) := by
  have hN : cfg1.N = 128 := N_1
  have h127 : t.val = 127 := by have := (flush1_7 t).mp hf; have := t.isLt; omega
  refine Eq.trans ?_ (blk7_read t (arrRow (ssum (Hout V c)))).symm
  show (cfg1.win 7).cut (grid1.coords t) ((dat1 V c).after 7 t) = _
  rw [after1_7]
  funext j
  obtain ⟨u, o, rfl⟩ : ∃ (u : Fin 1) (o : Fin 64), j = ix2 u o := ⟨j 0, j 1, eq_ix2 j⟩
  exact sum7_last V c t.val t.isLt h127 u o

/-- And the row of sums of squares. -/
theorem flushed8_eq (c : Dev nD) (t : Fin cfg1.N) (hf : (cfg1.win 8).flush t = true) :
    (dat1 V c).flushed 8 t = ((cfg1.win 8).blk t).view.read (Elt Ideal) (arrRow (ssq (Hout V c))) := by
  have hN : cfg1.N = 128 := N_1
  have h127 : t.val = 127 := by have := (flush1_8 t).mp hf; have := t.isLt; omega
  refine Eq.trans ?_ (blk8_read t (arrRow (ssq (Hout V c)))).symm
  show (cfg1.win 8).cut (grid1.coords t) ((dat1 V c).after 8 t) = _
  rw [after1_8]
  funext j
  obtain ⟨u, o, rfl⟩ : ∃ (u : Fin 1) (o : Fin 64), j = ix2 u o := ⟨j 0, j 1, eq_ix2 j⟩
  exact sum8_last V c t.val t.isLt h127 u o

/-- The last grid point. -/
theorem lastPt_lt : 127 < cfg1.N := by rw [show cfg1.N = 128 from N_1]; decide

end Final

/-- The layer's output array after the second call. -/
theorem out_eq (c : Dev nD) :
    (dat1 (F := Ideal) V c).arrAt 6 cfg1.N = arr2 (adder (actIn V c) (cur2 (V c main_arg4))) :=
  (dat1 V c).arrAt_eq_of_cover 6 (arr2 (Hout V c)) (fun t _ => flushed6_eq V c t) fun i => by
    have hi0 : (i 0).val < 65536 := (i 0).isLt
    have hi1 : (i 1).val < 64 := (i 1).isLt
    have hN : cfg1.N = 128 := N_1
    have ht : (i 0).val / 512 < cfg1.N := by rw [hN]; omega
    refine ⟨⟨(i 0).val / 512, ht⟩, flush1_6 _, ?_⟩
    have e := idx_facts ⟨(i 0).val / 512, ht⟩
    rw [mem_blk6]
    intro a
    match a with
    | ⟨0, _⟩ =>
      show win1_6.index ⟨(i 0).val / 512, ht⟩ 0 * 512 ≤ (i 0).val ∧ (i 0).val < win1_6.index ⟨(i 0).val / 512, ht⟩ 0 * 512 + 512
      rw [e.w6.1]; dsimp only; omega
    | ⟨1, _⟩ =>
      show win1_6.index ⟨(i 0).val / 512, ht⟩ 1 * 64 ≤ (i 1).val ∧ (i 1).val < win1_6.index ⟨(i 0).val / 512, ht⟩ 1 * 64 + 64
      rw [e.w6.2]; omega

/-- The second call's running per-channel sum, after the last grid point. -/
theorem sum_eq (c : Dev nD) :
    (dat1 (F := Ideal) V c).arrAt 7 cfg1.N = arrRow (ssum (adder (actIn V c) (cur2 (V c main_arg4)))) :=
  (dat1 V c).arrAt_eq_of_cover 7 (arrRow (ssum (Hout V c))) (flushed7_eq V c) fun i => by
    have hi0 : (i 0).val < 1 := (i 0).isLt
    have hi1 : (i 1).val < 64 := (i 1).isLt
    refine ⟨⟨127, lastPt_lt⟩, (flush1_7 _).mpr rfl, ?_⟩
    have e := idx_facts ⟨127, lastPt_lt⟩
    rw [mem_blk7]
    intro a
    match a with
    | ⟨0, _⟩ =>
      show win1_7.index ⟨127, lastPt_lt⟩ 0 * 1 ≤ (i 0).val ∧ (i 0).val < win1_7.index ⟨127, lastPt_lt⟩ 0 * 1 + 1
      rw [e.w7.1]; omega
    | ⟨1, _⟩ =>
      show win1_7.index ⟨127, lastPt_lt⟩ 1 * 64 ≤ (i 1).val ∧ (i 1).val < win1_7.index ⟨127, lastPt_lt⟩ 1 * 64 + 64
      rw [e.w7.2]; omega

/-- The second call's running per-channel sum of squares, after the last grid point. -/
theorem ssq_eq (c : Dev nD) :
    (dat1 (F := Ideal) V c).arrAt 8 cfg1.N = arrRow (ssq (adder (actIn V c) (cur2 (V c main_arg4)))) :=
  (dat1 V c).arrAt_eq_of_cover 8 (arrRow (ssq (Hout V c))) (flushed8_eq V c) fun i => by
    have hi0 : (i 0).val < 1 := (i 0).isLt
    have hi1 : (i 1).val < 64 := (i 1).isLt
    refine ⟨⟨127, lastPt_lt⟩, (flush1_8 _).mpr rfl, ?_⟩
    have e := idx_facts ⟨127, lastPt_lt⟩
    rw [mem_blk8]
    intro a
    match a with
    | ⟨0, _⟩ =>
      show win1_8.index ⟨127, lastPt_lt⟩ 0 * 1 ≤ (i 0).val ∧ (i 0).val < win1_8.index ⟨127, lastPt_lt⟩ 0 * 1 + 1
      rw [e.w8.1]; omega
    | ⟨1, _⟩ =>
      show win1_8.index ⟨127, lastPt_lt⟩ 1 * 64 ≤ (i 1).val ∧ (i 1).val < win1_8.index ⟨127, lastPt_lt⟩ 1 * 64 + 64
      rw [e.w8.2]; omega

end Cert.KernelIdeal.Reg1

end
-- ==== Proof.Reg2Value.lean ====
import proofs.«147408_j71545565217396_1_alg».proof.Proof.Gen.KernelIdeal.Frame
import proofs.«147408_j71545565217396_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Reg2

open Cert.KernelIdeal Cert.KernelIdeal.Gen Cert.Spec
open Idealize.ShloMosaic.ValueIdx

variable (V : (c : Dev nD) → (b : Ref sig .tc) → Buf (Elt Ideal) ((c : Thread nD τ).loc b))

/-- The zero offsets of a whole-block access, as a constant function. -/
theorem off_zero : (![0, 0] : Fin 2 → Nat) = fun _ => 0 := funext fun a => by fin_cases a <;> rfl

/-- The value the body stores at row `p`, channel `q` of its block: the block's element minus the mean row's,
    times the reciprocal root of the variance row's plus ε, times the scale row's, plus the shift row's, plus the
    residual block's element, clamped below at zero. -/
theorem pay_apply (x0 : Vec Ideal S512x64 .f32) (x1 x2 x3 x4 : Vec Ideal S1x64 .f32) (x5 : Vec Ideal S512x64 .f32)
    (p : Fin 512) (q : Fin 64) :
    k2_pay1 (F := Ideal) x0 x1 x2 x3 x4 x5 (ix2 p q)
      = max ((x0 (ix2 p q) - x1 (ix2 (0 : Fin 1) q)) * Ideal.rsqrt (x2 (ix2 (0 : Fin 1) q) + Ideal.ofBits .f32 0x3727C5AC#32)
          * x3 (ix2 (0 : Fin 1) q) + x4 (ix2 (0 : Fin 1) q) + x5 (ix2 p q)) 0 := by
  unfold k2_pay1
  simp only [shapeCast_self]
  rw [maximumf_apply, addf_apply, addf_apply, mulf_apply, mulf_apply, subf_apply, broadcast_apply,
    broadcastTo_1b_ab_apply, broadcastTo_1b_ab_apply, broadcastTo_1b_ab_apply, broadcastTo_1b_ab_apply]
  show max (_ * Ideal.rsqrt (x2 (ix2 (0 : Fin 1) q) + Ideal.ofBits .f32 0x3727C5AC#32) * _ + _ + _)
      (Ideal.ofBits .f32 0x00000000#32) = _
  rw [Ideal.ofBits_zero_f32]

/-! ## Where each window's block sits in its array -/

/-- The block indices over the grid: the two pixel arrays' blocks and the output's move with the point along the
    rows; the four rows' blocks never move. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The pixel that row `p` of block `t` is: `512·t + p`. -/
def px (t : Fin cfg2.N) (p : Fin 512) : Fin 65536 :=
  ⟨512 * t.val + p.val, by have h : t.val < 128 := lt_of_lt_of_eq t.isLt N_2; have := p.isLt; omega⟩

/-- Block `t` of the second layer's output, at row `p` and channel `q`, is the array at pixel `512·t + p`. -/
theorem iblk0_apply (c : Dev nD) (t : Fin cfg2.N) (p : Fin 512) (q : Fin 64) :
    iblk2 V c 0 t (ix2 p q) = V c main_v11_0 (ix2 (px t p) q) := by
  obtain ⟨e0, e1, -⟩ := idx_facts t
  show V c main_v11_0 (((cfg2.win 0).blk t).view.emb (ix2 p q)) = V c main_v11_0 (ix2 (px t p) q)
  refine congrArg _ (funext fun a => Fin.ext ?_)
  match a with
  | ⟨0, _⟩ => show win2_0.index t (0 : Fin 2) * 512 + 1 * p.val = 512 * t.val + p.val; rw [e0]; omega
  | ⟨1, _⟩ => show win2_0.index t (1 : Fin 2) * 64 + 1 * q.val = q.val; rw [e1]; omega

/-- Block `t` of the residual pixel array, at row `p` and channel `q`, is the array at pixel `512·t + p`. -/
theorem iblk5_apply (c : Dev nD) (t : Fin cfg2.N) (p : Fin 512) (q : Fin 64) :
    iblk2 V c 5 t (ix2 p q) = V c main_v1 (ix2 (px t p) q) := by
  obtain ⟨-, -, -, -, -, -, -, -, -, -, e0, e1, -⟩ := idx_facts t
  show V c main_v1 (((cfg2.win 5).blk t).view.emb (ix2 p q)) = V c main_v1 (ix2 (px t p) q)
  refine congrArg _ (funext fun a => Fin.ext ?_)
  match a with
  | ⟨0, _⟩ => show win2_5.index t (0 : Fin 2) * 512 + 1 * p.val = 512 * t.val + p.val; rw [e0]; omega
  | ⟨1, _⟩ => show win2_5.index t (1 : Fin 2) * 64 + 1 * q.val = q.val; rw [e1]; omega

/-- The mean row's block is the row, at every point. -/
theorem iblk1_apply (c : Dev nD) (t : Fin cfg2.N) (q : Fin 64) :
    iblk2 V c 1 t (ix2 (0 : Fin 1) q) = V c main_v13 (ix2 (0 : Fin 1) q) := by
  obtain ⟨-, -, e0, e1, -⟩ := idx_facts t
  show V c main_v13 (((cfg2.win 1).blk t).view.emb (ix2 (0 : Fin 1) q)) = V c main_v13 (ix2 (0 : Fin 1) q)
  refine congrArg _ (funext fun a => Fin.ext ?_)
  match a with
  | ⟨0, _⟩ => show win2_1.index t (0 : Fin 2) * 1 + 1 * 0 = 0; rw [e0]
  | ⟨1, _⟩ => show win2_1.index t (1 : Fin 2) * 64 + 1 * q.val = q.val; rw [e1]; omega

/-- The variance row's block is the row, at every point. -/
theorem iblk2_apply (c : Dev nD) (t : Fin cfg2.N) (q : Fin 64) :
    iblk2 V c 2 t (ix2 (0 : Fin 1) q) = V c main_v17 (ix2 (0 : Fin 1) q) := by
  obtain ⟨-, -, -, -, e0, e1, -⟩ := idx_facts t
  show V c main_v17 (((cfg2.win 2).blk t).view.emb (ix2 (0 : Fin 1) q)) = V c main_v17 (ix2 (0 : Fin 1) q)
  refine congrArg _ (funext fun a => Fin.ext ?_)
  match a with
  | ⟨0, _⟩ => show win2_2.index t (0 : Fin 2) * 1 + 1 * 0 = 0; rw [e0]
  | ⟨1, _⟩ => show win2_2.index t (1 : Fin 2) * 64 + 1 * q.val = q.val; rw [e1]; omega

/-- The scale row's block is the row, at every point. -/
theorem iblk3_apply (c : Dev nD) (t : Fin cfg2.N) (q : Fin 64) :
    iblk2 V c 3 t (ix2 (0 : Fin 1) q) = V c main_v18 (ix2 (0 : Fin 1) q) := by
  obtain ⟨-, -, -, -, -, -, e0, e1, -⟩ := idx_facts t
  show V c main_v18 (((cfg2.win 3).blk t).view.emb (ix2 (0 : Fin 1) q)) = V c main_v18 (ix2 (0 : Fin 1) q)
  refine congrArg _ (funext fun a => Fin.ext ?_)
  match a with
  | ⟨0, _⟩ => show win2_3.index t (0 : Fin 2) * 1 + 1 * 0 = 0; rw [e0]
  | ⟨1, _⟩ => show win2_3.index t (1 : Fin 2) * 64 + 1 * q.val = q.val; rw [e1]; omega

/-- The shift row's block is the row, at every point. -/
theorem iblk4_apply (c : Dev nD) (t : Fin cfg2.N) (q : Fin 64) :
    iblk2 V c 4 t (ix2 (0 : Fin 1) q) = V c main_v19 (ix2 (0 : Fin 1) q) := by
  obtain ⟨-, -, -, -, -, -, -, -, e0, e1, -⟩ := idx_facts t
  show V c main_v19 (((cfg2.win 4).blk t).view.emb (ix2 (0 : Fin 1) q)) = V c main_v19 (ix2 (0 : Fin 1) q)
  refine congrArg _ (funext fun a => Fin.ext ?_)
  match a with
  | ⟨0, _⟩ => show win2_4.index t (0 : Fin 2) * 1 + 1 * 0 = 0; rw [e0]
  | ⟨1, _⟩ => show win2_4.index t (1 : Fin 2) * 64 + 1 * q.val = q.val; rw [e1]; omega

/-- Row `p`, channel `q` of the output's block `t` sits in the output array at pixel `512·t + p`, channel `q`. -/
theorem oblk_emb (t : Fin cfg2.N) (p : Fin 512) (q : Fin 64) :
    ((cfg2.win 6).blk t).view.emb (ix2 p q) = ix2 (px t p) q := by
  obtain ⟨-, -, -, -, -, -, -, -, -, -, -, -, e0, e1⟩ := idx_facts t
  refine funext fun a => Fin.ext ?_
  match a with
  | ⟨0, _⟩ => show win2_6.index t (0 : Fin 2) * 512 + 1 * p.val = 512 * t.val + p.val; rw [e0]; omega
  | ⟨1, _⟩ => show win2_6.index t (1 : Fin 2) * 64 + 1 * q.val = q.val; rw [e1]; omega

/-! ## From the blocks to the array -/

/-- The array the call ends with: the second layer's output normalised with the four rows, plus the residual pixel
    array, clamped at zero. -/
abbrev result (c : Dev nD) : S65536x64.Idx → EReal :=
  arr2 (res (cur2 (V c main_v11_0)) (curRow (V c main_v13)) (curRow (V c main_v17)) (curRow (V c main_v18))
    (curRow (V c main_v19)) (cur2 (V c main_v1)))

/-- What point `t` writes back is block `t` of that array: the body's stored value read index by index, each input
    block read where the output's row says. -/
theorem flushed_eq (c : Dev nD) (t : Fin cfg2.N) :
    (dat2 (F := Ideal) V c).flushed 6 t = ((cfg2.win 6).blk t).view.read (Elt Ideal) (result V c) := by
  show (cfg2.win 6).cut (grid2.coords t) ((dat2 V c).after 6 t) = _
  rw [after2_6]
  unfold out2_6
  rw [View.canon_unit_zero off_zero]
  simp only [View.ld_unit_zero (S := S512x64) off_zero, View.ld_unit_zero (S := S1x64) off_zero]
  funext j
  obtain ⟨p, q, rfl⟩ : ∃ (p : Fin 512) (q : Fin 64), j = ix2 p q := ⟨j 0, j 1, eq_ix2 j⟩
  show k2_pay1 (iblk2 V c 0 t) (iblk2 V c 1 t) (iblk2 V c 2 t) (iblk2 V c 3 t) (iblk2 V c 4 t) (iblk2 V c 5 t) (ix2 p q)
    = result V c (((cfg2.win 6).blk t).view.emb (ix2 p q))
  rw [oblk_emb, pay_apply, iblk0_apply, iblk1_apply, iblk2_apply, iblk3_apply, iblk4_apply, iblk5_apply]
  rfl

/-- An index of the output array is in point `t`'s block iff each coordinate is in the block's range on its axis. -/
theorem mem_blk (t : Fin cfg2.N) (i : S65536x64.Idx) :
    i ∈ ((cfg2.win 6).blk t).view.set ↔ ∀ a : Fin 2, win2_6.index t a * S512x64.size a ≤ (i a).val ∧ (i a).val < win2_6.index t a * S512x64.size a + S512x64.size a := by
  show i ∈ ((View.whole main_v20).slice (win2_6.rect t)).set ↔ _
  rw [View.set_slice_whole, Rect.mem_set_unit]
  exact Iff.rfl

/-- Every index of the output array is in some point's block: pixel `r` is in block `r / 512`. -/
theorem cover (i : S65536x64.Idx) :
    ∃ t : Fin cfg2.N, (cfg2.win 6).flush t = true ∧ i ∈ ((cfg2.win 6).blk t).view.set := by
  have hi0 : (i 0).val < 65536 := (i 0).isLt
  have hi1 : (i 1).val < 64 := (i 1).isLt
  have hN : cfg2.N = 128 := N_2
  let t : Fin cfg2.N := ⟨(i 0).val / 512, by rw [hN]; omega⟩
  obtain ⟨-, -, -, -, -, -, -, -, -, -, -, -, e0, e1⟩ := idx_facts t
  have ht : t.val = (i 0).val / 512 := rfl
  refine ⟨t, flush2_6 t, ?_⟩
  rw [mem_blk]
  intro a
  match a with
  | ⟨0, _⟩ => show win2_6.index t (0 : Fin 2) * 512 ≤ (i 0).val ∧ (i 0).val < win2_6.index t (0 : Fin 2) * 512 + 512; rw [e0, ht]; omega
  | ⟨1, _⟩ => show win2_6.index t (1 : Fin 2) * 64 ≤ (i 1).val ∧ (i 1).val < win2_6.index t (1 : Fin 2) * 64 + 64; rw [e1]; omega

/-- The third call's output array: the second layer's output normalised with the given rows, plus the
    residual pixel array, clamped at zero. -/
theorem out_eq (c : Dev nD) :
    (dat2 (F := Ideal) V c).arrAt 6 cfg2.N
      = arr2 (res (cur2 (V c main_v11_0)) (curRow (V c main_v13)) (curRow (V c main_v17)) (curRow (V c main_v18))
          (curRow (V c main_v19)) (cur2 (V c main_v1))) :=
  (dat2 (F := Ideal) V c).arrAt_eq_of_cover 6 (result V c) (fun t _ => flushed_eq V c t) cover

end Cert.KernelIdeal.Reg2

end
-- ==== Proof.KernelValue.lean ====
import proofs.«147408_j71545565217396_1_alg».proof.Proof.Gen.KernelIdeal.Frame
import proofs.«147408_j71545565217396_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«147408_j71545565217396_1_alg».proof.Proof.Reg0Value
import proofs.«147408_j71545565217396_1_alg».proof.Proof.Reg1Value
import proofs.«147408_j71545565217396_1_alg».proof.Proof.Reg2Value
import Idealize.ShloMosaic.Lib.StableHlo.Run

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec
open Idealize.ShloMosaic.ValueIdx

/-! ## Layout operations of the host stretches, read at an index -/

section Layout
variable {α : Type}

/-- Moving the channel axis last and flattening (batch, row, column) into one pixel axis. -/
theorem flatten_eq (x : S16x64x64x64.Idx → α) (hT : S16x64x64x64.Transposes [0, 2, 3, 1] S16x64x64x64)
    (hC : S16x64x64x64.ShapeCasts S65536x64) :
    (fun i => shapeCast S65536x64 (transpose S16x64x64x64 [0, 2, 3, 1] x hT) hC i : S65536x64.Idx → α)
      = arr2 (flatOf (cur4 x)) := by
  funext j
  refine (shapeCast_apply _ hC j (ix4 (pb (j 0)) (ph (j 0)) (pw (j 0)) (j 1)) ?_).trans ?_
  · rw [Shape.rowMajor_val_four, Shape.rowMajor_val_two]
    show ((((j 0).val / 4096) * 64 + (j 0).val / 64 % 64) * 64 + (j 0).val % 64) * 64 + (j 1).val = (j 0).val * 64 + (j 1).val
    have := idx2_lt0 j
    omega
  · refine (transpose_apply _ x hT _ (ix4 (pb (j 0)) (j 1) (ph (j 0)) (pw (j 0))) ?_).trans rfl
    intro b
    match b with
    | ⟨0, _⟩ => rfl
    | ⟨1, _⟩ => rfl
    | ⟨2, _⟩ => rfl
    | ⟨3, _⟩ => rfl

/-- Splitting the pixel axis back into (batch, row, column) and moving the channel axis second. -/
theorem unflatten_eq (f : S65536x64.Idx → α) (hC : S65536x64.ShapeCasts S16x64x64x64)
    (hT : S16x64x64x64.Transposes [0, 3, 1, 2] S16x64x64x64) :
    transpose S16x64x64x64 [0, 3, 1, 2] (fun i => shapeCast S16x64x64x64 f hC i) hT = arr4 (ofFlat (cur2 f)) := by
  funext j
  refine (transpose_apply _ _ hT j (ix4 (j 0) (j 2) (j 3) (j 1)) ?_).trans ?_
  · intro b
    match b with
    | ⟨0, _⟩ => rfl
    | ⟨1, _⟩ => rfl
    | ⟨2, _⟩ => rfl
    | ⟨3, _⟩ => rfl
  · refine (shapeCast_apply f hC _ (ix2 (flat (j 0) (j 2) (j 3)) (j 1)) ?_).trans rfl
    rw [Shape.rowMajor_val_four, Shape.rowMajor_val_two]
    rfl

/-- A channel vector stored as a one-row table. -/
theorem addRow_eq (g : S64.Idx → α) (hC : S64.ShapeCasts S1x64) :
    (fun i => shapeCast S1x64 g hC i : S1x64.Idx → α) = arrRow (cur1 g) := by
  funext j
  refine (shapeCast_apply g hC j (ix1 (j 1)) ?_).trans rfl
  rw [Shape.rowMajor_val_one, Shape.rowMajor_val_two]
  show (j 1).val = (j 0).val * 64 + (j 1).val
  have := idx2_lt0 j
  omega

end Layout

/-! ## The one-row tables of the host stretches, read at a channel -/

section Rows

/-- Every index of a one-row table is row 0 at its channel. -/
theorem row_idx (j : S1x64.Idx) : ∃ o : Fin 64, j = ix2 (0 : Fin 1) o :=
  ⟨j 1, funext fun a => match a with
    | ⟨0, _⟩ => Fin.ext (by have := idx2_lt0 j; show (j 0).val = 0; omega)
    | ⟨1, _⟩ => rfl⟩

/-- The 65536-word, broadcast along a one-row table. -/
abbrev cntRow : FVec Ideal S1x64 .f32 := broadcastInDim S1x64 ![] bcast_S_S1x64 (constant (F := Ideal) S_ .f32 0x47800000#32)

/-- A row of per-channel totals divided by the pixel count. -/
theorem perN_row (s : Fin 64 → EReal) : Host.divf (arrRow s) cntRow = arrRow (perN s) := by
  funext j
  obtain ⟨o, rfl⟩ := row_idx j
  rfl

/-- Mean of squares minus square of mean, as rows. -/
theorem sub_sq_row (q μ : Fin 64 → EReal) :
    subf (Host.divf (arrRow q) cntRow) (mulf (arrRow μ) (arrRow μ)) = arrRow (fun o => perN q o - μ o * μ o) := by
  funext j
  obtain ⟨o, rfl⟩ := row_idx j
  rfl

theorem mean_row (H : Fin 65536 → Fin 64 → EReal) : Host.divf (arrRow (ssum H)) cntRow = arrRow (mean H) := by
  rw [perN_row, mean]

theorem varK_eq (H : Fin 65536 → Fin 64 → EReal) : varK H = fun o => perN (ssq H) o - mean H o * mean H o := by
  funext o; rw [varK]

theorem varK_row (H : Fin 65536 → Fin 64 → EReal) :
    subf (Host.divf (arrRow (ssq H)) cntRow) (mulf (arrRow (mean H)) (arrRow (mean H))) = arrRow (varK H) := by
  rw [sub_sq_row, varK_eq]

end Rows

/-- A buffer that no operation of a host stretch writes keeps its contents across the stretch. -/
local macro "host_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.reshape_writes, Finset.mem_singleton]
      repeat' apply And.intro
      all_goals exact StableHlo.devRef_ne_of_ne (by decide))))

variable (m : (ℓ : Loc nD τ sig) → Buf (Elt Ideal) ℓ) (ρ : Dev nD → PrngReg)

/-! ## The block's stages, named (functions of the launched arguments only) -/

/-- The input as a pixel array. -/
def pixIn (c : Dev nD) : Fin 65536 → Fin 64 → EReal := flatOf (cur4 (m ((c.tc : Thread nD τ).loc main_arg0)))
/-- The first adder layer. -/
def layer1 (c : Dev nD) : Fin 65536 → Fin 64 → EReal := adder (pixIn m c) (cur2 (m ((c.tc : Thread nD τ).loc main_arg1)))
/-- Normalised and clamped. -/
def clamp1 (c : Dev nD) : Fin 65536 → Fin 64 → EReal :=
  act (layer1 m c) (mean (layer1 m c)) (varK (layer1 m c)) (cur1 (m ((c.tc : Thread nD τ).loc main_arg2))) (cur1 (m ((c.tc : Thread nD τ).loc main_arg3)))
/-- The second adder layer. -/
def layer2 (c : Dev nD) : Fin 65536 → Fin 64 → EReal := adder (clamp1 m c) (cur2 (m ((c.tc : Thread nD τ).loc main_arg4)))
/-- Normalised, the input added back, clamped. -/
def pixOut (c : Dev nD) : Fin 65536 → Fin 64 → EReal :=
  res (layer2 m c) (mean (layer2 m c)) (varK (layer2 m c)) (cur1 (m ((c.tc : Thread nD τ).loc main_arg5))) (cur1 (m ((c.tc : Thread nD τ).loc main_arg6))) (pixIn m c)

/-! ## Region 0's entry: the input flattened by the first host stretch; the other arguments as launched -/

theorem W1_v1 (c : Dev nD) : W1 (F := Ideal) m ρ c (Proc.devRef .tc main_v1) = arr2 (pixIn m c) := by
  refine Eq.trans ?_ (flatten_eq (m ((c.tc : Thread nD τ).loc main_arg0))
    transposes_S16x64x64x64_S16x64x64x64_0_2_3_1 shapeCasts_S16x64x64x64_S65536x64)
  show StableHlo.after hostOps0 _ (Proc.devRef .tc main_v1) = _
  after_results
  rfl

theorem W1_arg1 (c : Dev nD) : W1 (F := Ideal) m ρ c (Proc.devRef .tc main_arg1) = m ((c.tc : Thread nD τ).loc main_arg1) := by
  show StableHlo.after hostOps0 _ (Proc.devRef .tc main_arg1) = _
  host_keeps hostOps0
theorem W1_arg2 (c : Dev nD) : W1 (F := Ideal) m ρ c (Proc.devRef .tc main_arg2) = m ((c.tc : Thread nD τ).loc main_arg2) := by
  show StableHlo.after hostOps0 _ (Proc.devRef .tc main_arg2) = _
  host_keeps hostOps0
theorem W1_arg3 (c : Dev nD) : W1 (F := Ideal) m ρ c (Proc.devRef .tc main_arg3) = m ((c.tc : Thread nD τ).loc main_arg3) := by
  show StableHlo.after hostOps0 _ (Proc.devRef .tc main_arg3) = _
  host_keeps hostOps0
theorem W1_arg4 (c : Dev nD) : W1 (F := Ideal) m ρ c (Proc.devRef .tc main_arg4) = m ((c.tc : Thread nD τ).loc main_arg4) := by
  show StableHlo.after hostOps0 _ (Proc.devRef .tc main_arg4) = _
  host_keeps hostOps0
theorem W1_arg5 (c : Dev nD) : W1 (F := Ideal) m ρ c (Proc.devRef .tc main_arg5) = m ((c.tc : Thread nD τ).loc main_arg5) := by
  show StableHlo.after hostOps0 _ (Proc.devRef .tc main_arg5) = _
  host_keeps hostOps0
theorem W1_arg6 (c : Dev nD) : W1 (F := Ideal) m ρ c (Proc.devRef .tc main_arg6) = m ((c.tc : Thread nD τ).loc main_arg6) := by
  show StableHlo.after hostOps0 _ (Proc.devRef .tc main_arg6) = _
  host_keeps hostOps0

/-! ## Region 0's exit: the first adder layer and its per-channel totals -/

theorem W2_v2_0 (c : Dev nD) : W2 (F := Ideal) m ρ c (Proc.devRef .tc main_v2_0) = arr2 (layer1 m c) := by
  refine (W2_arr m ρ c 2).trans ((Reg0.out_eq (V1 m ρ) c).trans ?_)
  refine (congrArg₂ (fun a b => arr2 (adder (cur2 a) (cur2 b))) (W1_v1 m ρ c) (W1_arg1 m ρ c)).trans ?_
  rw [cur2_arr2, layer1]
theorem W2_v2_1 (c : Dev nD) : W2 (F := Ideal) m ρ c (Proc.devRef .tc main_v2_1) = arrRow (ssum (layer1 m c)) := by
  refine (W2_arr m ρ c 3).trans ((Reg0.sum_eq (V1 m ρ) c).trans ?_)
  refine (congrArg₂ (fun a b => arrRow (ssum (adder (cur2 a) (cur2 b)))) (W1_v1 m ρ c) (W1_arg1 m ρ c)).trans ?_
  rw [cur2_arr2, layer1]
theorem W2_v2_2 (c : Dev nD) : W2 (F := Ideal) m ρ c (Proc.devRef .tc main_v2_2) = arrRow (ssq (layer1 m c)) := by
  refine (W2_arr m ρ c 4).trans ((Reg0.ssq_eq (V1 m ρ) c).trans ?_)
  refine (congrArg₂ (fun a b => arrRow (ssq (adder (cur2 a) (cur2 b)))) (W1_v1 m ρ c) (W1_arg1 m ρ c)).trans ?_
  rw [cur2_arr2, layer1]
/-- The pixel array is an input of region 0: it leaves as it entered. -/
theorem W2_v1 (c : Dev nD) : W2 (F := Ideal) m ρ c (Proc.devRef .tc main_v1) = arr2 (pixIn m c) :=
  ((W2_arr m ρ c 0).trans (((dat0 (V1 m ρ) c).arrAt_in 0 rfl _).trans (A_eq0 (V1 m ρ) c 0))).trans (W1_v1 m ρ c)
theorem W2_arg2 (c : Dev nD) : W2 (F := Ideal) m ρ c (Proc.devRef .tc main_arg2) = m ((c.tc : Thread nD τ).loc main_arg2) :=
  (W2_of_ne m ρ c main_arg2 (by decide)).trans (W1_arg2 m ρ c)
theorem W2_arg3 (c : Dev nD) : W2 (F := Ideal) m ρ c (Proc.devRef .tc main_arg3) = m ((c.tc : Thread nD τ).loc main_arg3) :=
  (W2_of_ne m ρ c main_arg3 (by decide)).trans (W1_arg3 m ρ c)
theorem W2_arg4 (c : Dev nD) : W2 (F := Ideal) m ρ c (Proc.devRef .tc main_arg4) = m ((c.tc : Thread nD τ).loc main_arg4) :=
  (W2_of_ne m ρ c main_arg4 (by decide)).trans (W1_arg4 m ρ c)
theorem W2_arg5 (c : Dev nD) : W2 (F := Ideal) m ρ c (Proc.devRef .tc main_arg5) = m ((c.tc : Thread nD τ).loc main_arg5) :=
  (W2_of_ne m ρ c main_arg5 (by decide)).trans (W1_arg5 m ρ c)
theorem W2_arg6 (c : Dev nD) : W2 (F := Ideal) m ρ c (Proc.devRef .tc main_arg6) = m ((c.tc : Thread nD τ).loc main_arg6) :=
  (W2_of_ne m ρ c main_arg6 (by decide)).trans (W1_arg6 m ρ c)

/-! ## Region 1's entry: mean and variance rows of the first layer, scale and shift as rows -/

theorem W3_v2_0 (c : Dev nD) : W3 (F := Ideal) m ρ c (Proc.devRef .tc main_v2_0) = arr2 (layer1 m c) := by
  refine Eq.trans ?_ (W2_v2_0 m ρ c)
  show StableHlo.after hostOps1 _ (Proc.devRef .tc main_v2_0) = _
  host_keeps hostOps1
theorem W3_v1 (c : Dev nD) : W3 (F := Ideal) m ρ c (Proc.devRef .tc main_v1) = arr2 (pixIn m c) := by
  refine Eq.trans ?_ (W2_v1 m ρ c)
  show StableHlo.after hostOps1 _ (Proc.devRef .tc main_v1) = _
  host_keeps hostOps1
theorem W3_arg4 (c : Dev nD) : W3 (F := Ideal) m ρ c (Proc.devRef .tc main_arg4) = m ((c.tc : Thread nD τ).loc main_arg4) := by
  refine Eq.trans ?_ (W2_arg4 m ρ c)
  show StableHlo.after hostOps1 _ (Proc.devRef .tc main_arg4) = _
  host_keeps hostOps1
theorem W3_arg5 (c : Dev nD) : W3 (F := Ideal) m ρ c (Proc.devRef .tc main_arg5) = m ((c.tc : Thread nD τ).loc main_arg5) := by
  refine Eq.trans ?_ (W2_arg5 m ρ c)
  show StableHlo.after hostOps1 _ (Proc.devRef .tc main_arg5) = _
  host_keeps hostOps1
theorem W3_arg6 (c : Dev nD) : W3 (F := Ideal) m ρ c (Proc.devRef .tc main_arg6) = m ((c.tc : Thread nD τ).loc main_arg6) := by
  refine Eq.trans ?_ (W2_arg6 m ρ c)
  show StableHlo.after hostOps1 _ (Proc.devRef .tc main_arg6) = _
  host_keeps hostOps1
theorem W3_v4 (c : Dev nD) : W3 (F := Ideal) m ρ c (Proc.devRef .tc main_v4) = arrRow (mean (layer1 m c)) := by
  have e : W3 (F := Ideal) m ρ c (Proc.devRef .tc main_v4)
      = Host.divf (W2 (F := Ideal) m ρ c (Proc.devRef .tc main_v2_1)) cntRow := by
    show StableHlo.after hostOps1 _ (Proc.devRef .tc main_v4) = _
    after_results
  rw [e, W2_v2_1, mean_row]
theorem W3_v8 (c : Dev nD) : W3 (F := Ideal) m ρ c (Proc.devRef .tc main_v8) = arrRow (varK (layer1 m c)) := by
  have e : W3 (F := Ideal) m ρ c (Proc.devRef .tc main_v8)
      = subf (Host.divf (W2 (F := Ideal) m ρ c (Proc.devRef .tc main_v2_2)) cntRow)
          (mulf (Host.divf (W2 (F := Ideal) m ρ c (Proc.devRef .tc main_v2_1)) cntRow)
            (Host.divf (W2 (F := Ideal) m ρ c (Proc.devRef .tc main_v2_1)) cntRow)) := by
    show StableHlo.after hostOps1 _ (Proc.devRef .tc main_v8) = _
    after_results
  rw [e, W2_v2_1, W2_v2_2, mean_row, varK_row]
theorem W3_v9 (c : Dev nD) : W3 (F := Ideal) m ρ c (Proc.devRef .tc main_v9) = arrRow (cur1 (m ((c.tc : Thread nD τ).loc main_arg2))) := by
  have e : W3 (F := Ideal) m ρ c (Proc.devRef .tc main_v9)
      = fun i => shapeCast S1x64 (W2 (F := Ideal) m ρ c (Proc.devRef .tc main_arg2)) shapeCasts_S64_S1x64 i := by
    show StableHlo.after hostOps1 _ (Proc.devRef .tc main_v9) = _
    after_results
    rfl
  rw [e, W2_arg2, addRow_eq]
theorem W3_v10 (c : Dev nD) : W3 (F := Ideal) m ρ c (Proc.devRef .tc main_v10) = arrRow (cur1 (m ((c.tc : Thread nD τ).loc main_arg3))) := by
  have e : W3 (F := Ideal) m ρ c (Proc.devRef .tc main_v10)
      = fun i => shapeCast S1x64 (W2 (F := Ideal) m ρ c (Proc.devRef .tc main_arg3)) shapeCasts_S64_S1x64 i := by
    show StableHlo.after hostOps1 _ (Proc.devRef .tc main_v10) = _
    after_results
    rfl
  rw [e, W2_arg3, addRow_eq]

/-! ## Region 1's exit: the second adder layer and its per-channel totals -/

/-- Region 1 normalises and clamps the first layer with the rows the second host stretch left. -/
theorem actIn_eq (c : Dev nD) : Reg1.actIn (V3 (F := Ideal) m ρ) c = clamp1 m c := by
  unfold Reg1.actIn
  show act (cur2 (W3 (F := Ideal) m ρ c (Proc.devRef .tc main_v2_0))) (curRow (W3 (F := Ideal) m ρ c (Proc.devRef .tc main_v4)))
      (curRow (W3 (F := Ideal) m ρ c (Proc.devRef .tc main_v8))) (curRow (W3 (F := Ideal) m ρ c (Proc.devRef .tc main_v9)))
      (curRow (W3 (F := Ideal) m ρ c (Proc.devRef .tc main_v10))) = _
  rw [W3_v2_0, W3_v4, W3_v8, W3_v9, W3_v10, clamp1]
  simp only [cur2_arr2, curRow_arrRow]

theorem W4_v11_0 (c : Dev nD) : W4 (F := Ideal) m ρ c (Proc.devRef .tc main_v11_0) = arr2 (layer2 m c) := by
  refine (W4_arr m ρ c 6).trans ((Reg1.out_eq (V3 m ρ) c).trans ?_)
  rw [actIn_eq]
  refine (congrArg (fun b => arr2 (adder (clamp1 m c) (cur2 b))) (W3_arg4 m ρ c)).trans ?_
  rw [layer2]
theorem W4_v11_1 (c : Dev nD) : W4 (F := Ideal) m ρ c (Proc.devRef .tc main_v11_1) = arrRow (ssum (layer2 m c)) := by
  refine (W4_arr m ρ c 7).trans ((Reg1.sum_eq (V3 m ρ) c).trans ?_)
  rw [actIn_eq]
  refine (congrArg (fun b => arrRow (ssum (adder (clamp1 m c) (cur2 b)))) (W3_arg4 m ρ c)).trans ?_
  rw [layer2]
theorem W4_v11_2 (c : Dev nD) : W4 (F := Ideal) m ρ c (Proc.devRef .tc main_v11_2) = arrRow (ssq (layer2 m c)) := by
  refine (W4_arr m ρ c 8).trans ((Reg1.ssq_eq (V3 m ρ) c).trans ?_)
  rw [actIn_eq]
  refine (congrArg (fun b => arrRow (ssq (adder (clamp1 m c) (cur2 b)))) (W3_arg4 m ρ c)).trans ?_
  rw [layer2]
/-- The pixel array is no array of region 1. -/
theorem W4_v1 (c : Dev nD) : W4 (F := Ideal) m ρ c (Proc.devRef .tc main_v1) = arr2 (pixIn m c) :=
  (W4_of_ne m ρ c main_v1 (by decide)).trans (W3_v1 m ρ c)
theorem W4_arg5 (c : Dev nD) : W4 (F := Ideal) m ρ c (Proc.devRef .tc main_arg5) = m ((c.tc : Thread nD τ).loc main_arg5) :=
  (W4_of_ne m ρ c main_arg5 (by decide)).trans (W3_arg5 m ρ c)
theorem W4_arg6 (c : Dev nD) : W4 (F := Ideal) m ρ c (Proc.devRef .tc main_arg6) = m ((c.tc : Thread nD τ).loc main_arg6) :=
  (W4_of_ne m ρ c main_arg6 (by decide)).trans (W3_arg6 m ρ c)

/-! ## Region 2's entry: mean and variance rows of the second layer, scale and shift as rows -/

theorem W5_v11_0 (c : Dev nD) : W5 (F := Ideal) m ρ c (Proc.devRef .tc main_v11_0) = arr2 (layer2 m c) := by
  refine Eq.trans ?_ (W4_v11_0 m ρ c)
  show StableHlo.after hostOps2 _ (Proc.devRef .tc main_v11_0) = _
  host_keeps hostOps2
theorem W5_v1 (c : Dev nD) : W5 (F := Ideal) m ρ c (Proc.devRef .tc main_v1) = arr2 (pixIn m c) := by
  refine Eq.trans ?_ (W4_v1 m ρ c)
  show StableHlo.after hostOps2 _ (Proc.devRef .tc main_v1) = _
  host_keeps hostOps2
theorem W5_v13 (c : Dev nD) : W5 (F := Ideal) m ρ c (Proc.devRef .tc main_v13) = arrRow (mean (layer2 m c)) := by
  have e : W5 (F := Ideal) m ρ c (Proc.devRef .tc main_v13)
      = Host.divf (W4 (F := Ideal) m ρ c (Proc.devRef .tc main_v11_1)) cntRow := by
    show StableHlo.after hostOps2 _ (Proc.devRef .tc main_v13) = _
    after_results
  rw [e, W4_v11_1, mean_row]
theorem W5_v17 (c : Dev nD) : W5 (F := Ideal) m ρ c (Proc.devRef .tc main_v17) = arrRow (varK (layer2 m c)) := by
  have e : W5 (F := Ideal) m ρ c (Proc.devRef .tc main_v17)
      = subf (Host.divf (W4 (F := Ideal) m ρ c (Proc.devRef .tc main_v11_2)) cntRow)
          (mulf (Host.divf (W4 (F := Ideal) m ρ c (Proc.devRef .tc main_v11_1)) cntRow)
            (Host.divf (W4 (F := Ideal) m ρ c (Proc.devRef .tc main_v11_1)) cntRow)) := by
    show StableHlo.after hostOps2 _ (Proc.devRef .tc main_v17) = _
    after_results
  rw [e, W4_v11_1, W4_v11_2, mean_row, varK_row]
theorem W5_v18 (c : Dev nD) : W5 (F := Ideal) m ρ c (Proc.devRef .tc main_v18) = arrRow (cur1 (m ((c.tc : Thread nD τ).loc main_arg5))) := by
  have e : W5 (F := Ideal) m ρ c (Proc.devRef .tc main_v18)
      = fun i => shapeCast S1x64 (W4 (F := Ideal) m ρ c (Proc.devRef .tc main_arg5)) shapeCasts_S64_S1x64 i := by
    show StableHlo.after hostOps2 _ (Proc.devRef .tc main_v18) = _
    after_results
    rfl
  rw [e, W4_arg5, addRow_eq]
theorem W5_v19 (c : Dev nD) : W5 (F := Ideal) m ρ c (Proc.devRef .tc main_v19) = arrRow (cur1 (m ((c.tc : Thread nD τ).loc main_arg6))) := by
  have e : W5 (F := Ideal) m ρ c (Proc.devRef .tc main_v19)
      = fun i => shapeCast S1x64 (W4 (F := Ideal) m ρ c (Proc.devRef .tc main_arg6)) shapeCasts_S64_S1x64 i := by
    show StableHlo.after hostOps2 _ (Proc.devRef .tc main_v19) = _
    after_results
    rfl
  rw [e, W4_arg6, addRow_eq]

/-! ## Region 2's exit: normalise, add the input back, clamp -/

theorem W6_v20 (c : Dev nD) : W6 (F := Ideal) m ρ c (Proc.devRef .tc main_v20) = arr2 (pixOut m c) := by
  refine (W6_arr m ρ c 6).trans ((Reg2.out_eq (V5 m ρ) c).trans ?_)
  show arr2 (res (cur2 (W5 (F := Ideal) m ρ c (Proc.devRef .tc main_v11_0))) (curRow (W5 (F := Ideal) m ρ c (Proc.devRef .tc main_v13)))
      (curRow (W5 (F := Ideal) m ρ c (Proc.devRef .tc main_v17))) (curRow (W5 (F := Ideal) m ρ c (Proc.devRef .tc main_v18)))
      (curRow (W5 (F := Ideal) m ρ c (Proc.devRef .tc main_v19))) (cur2 (W5 (F := Ideal) m ρ c (Proc.devRef .tc main_v1)))) = _
  rw [W5_v11_0, W5_v13, W5_v17, W5_v18, W5_v19, W5_v1, pixOut]
  simp only [cur2_arr2, curRow_arrRow]

/-! ## The result: the last host stretch splits the pixel axis and moves the channel axis second -/

/-- The result array at the last segment boundary: the whole block, with the variance as mean of
    squares minus square of mean, of the seven argument arrays as launched. -/
theorem result_eq (c : Dev nD) :
    W7 (F := Ideal) m ρ c (Proc.devRef .tc main_v22)
      = arr4 (kernelOut (cur4 (m ((c.tc : Thread nD τ).loc main_arg0))) (cur2 (m ((c.tc : Thread nD τ).loc main_arg1)))
          (cur1 (m ((c.tc : Thread nD τ).loc main_arg2))) (cur1 (m ((c.tc : Thread nD τ).loc main_arg3)))
          (cur2 (m ((c.tc : Thread nD τ).loc main_arg4))) (cur1 (m ((c.tc : Thread nD τ).loc main_arg5)))
          (cur1 (m ((c.tc : Thread nD τ).loc main_arg6)))) := by
  have e : W7 (F := Ideal) m ρ c (Proc.devRef .tc main_v22)
      = transpose S16x64x64x64 [0, 3, 1, 2]
          (fun i => shapeCast S16x64x64x64 (W6 (F := Ideal) m ρ c (Proc.devRef .tc main_v20)) shapeCasts_S65536x64_S16x64x64x64 i)
          transposes_S16x64x64x64_S16x64x64x64_0_3_1_2 := by
    show StableHlo.after hostOps3 _ (Proc.devRef .tc main_v22) = _
    after_results
    rfl
  rw [e, W6_v20, unflatten_eq, cur2_arr2]
  simp only [kernelOut, block, pixOut, layer2, clamp1, layer1, pixIn]

end Cert.KernelIdeal.Value

end
-- ==== Proof.RefTerm.lean ====
import proofs.«147408_j71545565217396_1_alg».proof.ReferenceIdeal

/-!
# The reference, as one term of its arguments

Each definition below is one stretch of the reference's host operations, written as a function of the
stretch's inputs: the adder layer (a transpose to channel-last, the broadcast difference against the
weight table, absolute values summed over the input channel, a sign flip, the transpose back), the
per-channel mean, the per-channel variance as jax's `var` computes it (mean squared deviation over
`N - ddof`, guarded by `N - ddof > 0`), batch normalisation, and the clamp at zero.
-/

noncomputable section

namespace Cert.ReferenceIdeal.RefTerm

open Idealize.ShloMosaic Cert.ReferenceIdeal Cert.ReferenceIdeal.Facts₀

variable {F : FTy → Type} [FloatOps F] [Facts]

/-- A `[1, 64, 1, 1]` per-channel table spread over the whole image batch. -/
def spread (t : FVec F S1x64x1x1 .f32) : FVec F S16x64x64x64 .f32 :=
  broadcastInDim S16x64x64x64 ![0, 1, 2, 3] bcast_S1x64x1x1_S16x64x64x64_0_1_2_3 t

/-- A `[64]` per-channel vector as a `[1, 64, 1, 1]` table. -/
def table (v : FVec F S64 .f32) : FVec F S1x64x1x1 .f32 :=
  broadcastInDim S1x64x1x1 ![1] bcast_S64_S1x64x1x1_1 v

/-- A scalar as a `[1, 64, 1, 1]` table. -/
def splat {α : Type} (s : S_.Idx → α) : S1x64x1x1.Idx → α :=
  broadcastInDim S1x64x1x1 ![] bcast_S_S1x64x1x1 s

/-- The adder layer: `out[b, o, h, w] = -(0 + ∑ c, |x[b, c, h, w] - w[o, c]|)`. -/
def adderT (x : FVec F S16x64x64x64 .f32) (w : FVec F S64x64 .f32) : FVec F S16x64x64x64 .f32 :=
  transpose S16x64x64x64 [0, 3, 1, 2]
    (Host.negf (Host.reduceAdd
      (Host.absf (subf
        (broadcastInDim S16x64x64x64x64 ![0, 1, 2, 3, 4] bcast_S16x64x64x1x64_S16x64x64x64x64_0_1_2_3_4
          (broadcastInDim S16x64x64x1x64 ![0, 1, 2, 4] bcast_S16x64x64x64_S16x64x64x1x64_0_1_2_4
            (transpose S16x64x64x64 [0, 2, 3, 1] x transposes_S16x64x64x64_S16x64x64x64_0_2_3_1)))
        (broadcastInDim S16x64x64x64x64 ![0, 1, 2, 3, 4] bcast_S1x1x1x64x64_S16x64x64x64x64_0_1_2_3_4
          (broadcastInDim S1x1x1x64x64 ![3, 4] bcast_S64x64_S1x1x1x64x64_3_4 w))))
      (constant S_ .f32 0x00000000#32) reducesTo_S16x64x64x64x64_S16x64x64x64_d4 h_S_))
    transposes_S16x64x64x64_S16x64x64x64_0_3_1_2

/-- The per-channel sum over batch, row and column, as a `[64]` vector. -/
def chanSum (h : FVec F S16x64x64x64 .f32) : FVec F S64 .f32 :=
  Host.reduceAdd h (constant S_ .f32 0x00000000#32) reducesTo_S16x64x64x64_S64_d0_2_3 h_S_

/-- The per-channel mean: the sum over the pixel count 65536. -/
def meanT (h : FVec F S16x64x64x64 .f32) : FVec F S1x64x1x1 .f32 :=
  Host.divf (table (chanSum h)) (splat (constant S_ .f32 0x47800000#32))

/-- The divisor of the variance: the pixel count less the degrees of freedom taken off. -/
def normT (ddof : IVec S_ 32) : FVec F S_ .f32 :=
  subf (constant S_ .f32 0x47800000#32) (sitofp .f32 ddof)

/-- The squared deviations from the mean. -/
def sqdevT (h : FVec F S16x64x64x64 .f32) : FVec F S16x64x64x64 .f32 :=
  mulf (subf h (spread (meanT h))) (subf h (spread (meanT h)))

/-- The per-channel variance: mean squared deviation, kept where the divisor is positive. -/
def varT (h : FVec F S16x64x64x64 .f32) (ddof : IVec S_ 32) : FVec F S1x64x1x1 .f32 :=
  select (splat (cmpf .ogt (normT (F := F) ddof) (constant S_ .f32 0x00000000#32)))
    (Host.divf (table (chanSum (sqdevT h))) (splat (normT ddof)))
    (splat (id (constant S_ .f32 0x7FC00000#32)))

/-- Batch normalisation with full-batch statistics, then the per-channel scale and shift. -/
def bnT (h : FVec F S16x64x64x64 .f32) (g b : FVec F S64 .f32) : FVec F S16x64x64x64 .f32 :=
  addf
    (mulf
      (mulf (subf h (spread (meanT h)))
        (spread (Host.rsqrt (addf (varT h (constantI S_ 32 0#32)) (splat (constant S_ .f32 0x3727C5AC#32))))))
      (spread (table g)))
    (spread (table b))

/-- The clamp below at zero. -/
def reluT (a : FVec F S16x64x64x64 .f32) : FVec F S16x64x64x64 .f32 :=
  maximumf a (broadcastInDim S16x64x64x64 ![] bcast_S_S16x64x64x64 (constant S_ .f32 0x00000000#32))

/-- The whole reference. -/
def refTerm (x : FVec F S16x64x64x64 .f32) (w1 : FVec F S64x64 .f32) (g1 b1 : FVec F S64 .f32)
    (w2 : FVec F S64x64 .f32) (g2 b2 : FVec F S64 .f32) : FVec F S16x64x64x64 .f32 :=
  reluT (addf (bnT (adderT (reluT (bnT (adderT x w1) g1 b1)) w2) g2 b2) x)

end Cert.ReferenceIdeal.RefTerm

end
-- ==== Proof.RefRun.lean ====
import proofs.«147408_j71545565217396_1_alg».proof.Proof.Gen.ReferenceIdeal
import proofs.«147408_j71545565217396_1_alg».proof.Proof.RefTerm
import Idealize.ShloMosaic.Lib.StableHlo.Run
import Idealize.ShloMosaic.Lib.Tactic

noncomputable section

namespace Cert.ReferenceIdeal.RefRun

open Idealize.ShloMosaic Idealize.ShloMosaic.TcCoe Idealize.SL.Sem Idealize.ShloMosaic.StableHlo
open Cert.ReferenceIdeal Cert.ReferenceIdeal.RefTerm
open Cert.ReferenceIdeal.Facts₀

variable {F : FTy → Type} [FloatOps F]

/-- The reference's operations in order, each outlined function's body written at its call over that call's own
    buffers: the two adder layers, each followed by its mean, its variance, its normalisation and its clamp, the
    residual added before the last clamp. -/
abbrev ops : List (HloOp τ sig (Elt F)) :=
  [
    -- the adder layer on main_arg0 against main_arg1: channel-last, the broadcast difference, absolute values summed over the input channel, the sign flip, channel-first again
    unary main_arg0 main_v0 (transpose S16x64x64x64 [0, 2, 3, 1] · transposes_S16x64x64x64_S16x64x64x64_0_2_3_1),
    unary main_v0 main_v1 (broadcastInDim S16x64x64x1x64 ![0, 1, 2, 4] bcast_S16x64x64x64_S16x64x64x1x64_0_1_2_4),
    unary main_arg1 main_v2 (broadcastInDim S1x1x1x64x64 ![3, 4] bcast_S64x64_S1x1x1x64x64_3_4),
    unary main_v1 main_v3 (broadcastInDim S16x64x64x64x64 ![0, 1, 2, 3, 4] bcast_S16x64x64x1x64_S16x64x64x64x64_0_1_2_3_4),
    unary main_v2 main_v4 (broadcastInDim S16x64x64x64x64 ![0, 1, 2, 3, 4] bcast_S1x1x1x64x64_S16x64x64x64x64_0_1_2_3_4),
    binary main_v3 main_v4 main_v5 subf,
    unary main_v5 main_v6 Host.absf,
    nullary main_cst (constant S_ .f32 0x00000000#32),
    binary main_v6 main_cst main_v7 (fun x v => Host.reduceAdd x v reducesTo_S16x64x64x64x64_S16x64x64x64_d4 h_S_),
    unary main_v7 main_v8 Host.negf,
    unary main_v8 main_v9 (transpose S16x64x64x64 [0, 3, 1, 2] · transposes_S16x64x64x64_S16x64x64x64_0_3_1_2),
    -- the per-channel mean of main_v9, and the zero the variance takes off its divisor
    nullary main_cst_0 (constant S_ .f32 0x00000000#32),
    binary main_v9 main_cst_0 main_v10 (fun x v => Host.reduceAdd x v reducesTo_S16x64x64x64_S64_d0_2_3 h_S_),
    unary main_v10 main_v11 (broadcastInDim S1x64x1x1 ![1] bcast_S64_S1x64x1x1_1),
    nullary main_cst_1 (constant S_ .f32 0x47800000#32),
    unary main_cst_1 main_v12 (broadcastInDim S1x64x1x1 ![] bcast_S_S1x64x1x1),
    binary main_v11 main_v12 main_v13 Host.divf,
    nullary main_c (constantI S_ 32 0#32),
    -- the variance of main_v9 (mean squared deviation over the pixel count less main_c's value, kept where that divisor is positive)
    TRef.nullary main_call0.cst (constant S_ .f32 0x00000000#32),
    TRef.binary (.of main_v9) main_call0.cst main_call0.v0 (fun x v => Host.reduceAdd x v reducesTo_S16x64x64x64_S64_d0_2_3 h_S_),
    TRef.unary main_call0.v0 main_call0.v1 (broadcastInDim S1x64x1x1 ![1] bcast_S64_S1x64x1x1_1),
    TRef.nullary main_call0.cst_0 (constant S_ .f32 0x47800000#32),
    TRef.unary main_call0.cst_0 main_call0.v2 (broadcastInDim S1x64x1x1 ![] bcast_S_S1x64x1x1),
    TRef.binary main_call0.v1 main_call0.v2 main_call0.v3 Host.divf,
    TRef.unary main_call0.v3 main_call0.v4 (broadcastInDim S16x64x64x64 ![0, 1, 2, 3] bcast_S1x64x1x1_S16x64x64x64_0_1_2_3),
    TRef.binary (.of main_v9) main_call0.v4 main_call0.v5 subf,
    TRef.binary main_call0.v5 main_call0.v5 main_call0.v6 mulf,
    TRef.unary (.of main_c) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16x64x64x64_S64_d0_2_3 h_S_),
    TRef.unary main_call0.v9 main_call0.v10 (broadcastInDim S1x64x1x1 ![1] bcast_S64_S1x64x1x1_1),
    TRef.unary main_call0.v8 main_call0.v11 (broadcastInDim S1x64x1x1 ![] bcast_S_S1x64x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x64x1x1 ![] bcast_S_S1x64x1x1),
    TRef.ternary main_call0.v13 main_call0.v12 main_call0.call0.v1 main_call0.call0.v2 (fun p a b => select (broadcastInDim S1x64x1x1 ![] bcast_S_S1x64x1x1 p) a b),
    -- batch normalisation of main_v9: centre, scale by the inverse root of the variance plus the small constant, then the per-channel scale and shift
    unary main_v13 main_v15 (broadcastInDim S16x64x64x64 ![0, 1, 2, 3] bcast_S1x64x1x1_S16x64x64x64_0_1_2_3),
    binary main_v9 main_v15 main_v16 subf,
    nullary main_cst_2 (constant S_ .f32 0x3727C5AC#32),
    unary main_cst_2 main_v17 (broadcastInDim S1x64x1x1 ![] bcast_S_S1x64x1x1),
    binary main_v14 main_v17 main_v18 addf,
    unary main_v18 main_v19 Host.rsqrt,
    unary main_v19 main_v20 (broadcastInDim S16x64x64x64 ![0, 1, 2, 3] bcast_S1x64x1x1_S16x64x64x64_0_1_2_3),
    binary main_v16 main_v20 main_v21 mulf,
    unary main_arg2 main_v22 (broadcastInDim S1x64x1x1 ![1] bcast_S64_S1x64x1x1_1),
    unary main_v22 main_v23 (broadcastInDim S16x64x64x64 ![0, 1, 2, 3] bcast_S1x64x1x1_S16x64x64x64_0_1_2_3),
    binary main_v21 main_v23 main_v24 mulf,
    unary main_arg3 main_v25 (broadcastInDim S1x64x1x1 ![1] bcast_S64_S1x64x1x1_1),
    unary main_v25 main_v26 (broadcastInDim S16x64x64x64 ![0, 1, 2, 3] bcast_S1x64x1x1_S16x64x64x64_0_1_2_3),
    binary main_v24 main_v26 main_v27 addf,
    -- the clamp of main_v27 below at zero
    TRef.nullary main_call1.cst (constant S_ .f32 0x00000000#32),
    TRef.unary main_call1.cst main_call1.v0 (broadcastInDim S16x64x64x64 ![] bcast_S_S16x64x64x64),
    TRef.binary (.of main_v27) main_call1.v0 main_call1.v1 maximumf,
    -- the adder layer on main_v28 against main_arg4: channel-last, the broadcast difference, absolute values summed over the input channel, the sign flip, channel-first again
    unary main_v28 main_v29 (transpose S16x64x64x64 [0, 2, 3, 1] · transposes_S16x64x64x64_S16x64x64x64_0_2_3_1),
    unary main_v29 main_v30 (broadcastInDim S16x64x64x1x64 ![0, 1, 2, 4] bcast_S16x64x64x64_S16x64x64x1x64_0_1_2_4),
    unary main_arg4 main_v31 (broadcastInDim S1x1x1x64x64 ![3, 4] bcast_S64x64_S1x1x1x64x64_3_4),
    unary main_v30 main_v32 (broadcastInDim S16x64x64x64x64 ![0, 1, 2, 3, 4] bcast_S16x64x64x1x64_S16x64x64x64x64_0_1_2_3_4),
    unary main_v31 main_v33 (broadcastInDim S16x64x64x64x64 ![0, 1, 2, 3, 4] bcast_S1x1x1x64x64_S16x64x64x64x64_0_1_2_3_4),
    binary main_v32 main_v33 main_v34 subf,
    unary main_v34 main_v35 Host.absf,
    nullary main_cst_3 (constant S_ .f32 0x00000000#32),
    binary main_v35 main_cst_3 main_v36 (fun x v => Host.reduceAdd x v reducesTo_S16x64x64x64x64_S16x64x64x64_d4 h_S_),
    unary main_v36 main_v37 Host.negf,
    unary main_v37 main_v38 (transpose S16x64x64x64 [0, 3, 1, 2] · transposes_S16x64x64x64_S16x64x64x64_0_3_1_2),
    -- the per-channel mean of main_v38, and the zero the variance takes off its divisor
    nullary main_cst_4 (constant S_ .f32 0x00000000#32),
    binary main_v38 main_cst_4 main_v39 (fun x v => Host.reduceAdd x v reducesTo_S16x64x64x64_S64_d0_2_3 h_S_),
    unary main_v39 main_v40 (broadcastInDim S1x64x1x1 ![1] bcast_S64_S1x64x1x1_1),
    nullary main_cst_5 (constant S_ .f32 0x47800000#32),
    unary main_cst_5 main_v41 (broadcastInDim S1x64x1x1 ![] bcast_S_S1x64x1x1),
    binary main_v40 main_v41 main_v42 Host.divf,
    nullary main_c_6 (constantI S_ 32 0#32),
    -- the variance of main_v38 (mean squared deviation over the pixel count less main_c_6's value, kept where that divisor is positive)
    TRef.nullary main_call2.cst (constant S_ .f32 0x00000000#32),
    TRef.binary (.of main_v38) main_call2.cst main_call2.v0 (fun x v => Host.reduceAdd x v reducesTo_S16x64x64x64_S64_d0_2_3 h_S_),
    TRef.unary main_call2.v0 main_call2.v1 (broadcastInDim S1x64x1x1 ![1] bcast_S64_S1x64x1x1_1),
    TRef.nullary main_call2.cst_0 (constant S_ .f32 0x47800000#32),
    TRef.unary main_call2.cst_0 main_call2.v2 (broadcastInDim S1x64x1x1 ![] bcast_S_S1x64x1x1),
    TRef.binary main_call2.v1 main_call2.v2 main_call2.v3 Host.divf,
    TRef.unary main_call2.v3 main_call2.v4 (broadcastInDim S16x64x64x64 ![0, 1, 2, 3] bcast_S1x64x1x1_S16x64x64x64_0_1_2_3),
    TRef.binary (.of main_v38) main_call2.v4 main_call2.v5 subf,
    TRef.binary main_call2.v5 main_call2.v5 main_call2.v6 mulf,
    TRef.unary (.of main_c_6) main_call2.v7 (sitofp .f32),
    TRef.nullary main_call2.cst_1 (constant S_ .f32 0x47800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S16x64x64x64_S64_d0_2_3 h_S_),
    TRef.unary main_call2.v9 main_call2.v10 (broadcastInDim S1x64x1x1 ![1] bcast_S64_S1x64x1x1_1),
    TRef.unary main_call2.v8 main_call2.v11 (broadcastInDim S1x64x1x1 ![] bcast_S_S1x64x1x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S1x64x1x1 ![] bcast_S_S1x64x1x1),
    TRef.ternary main_call2.v13 main_call2.v12 main_call2.call0.v1 main_call2.call0.v2 (fun p a b => select (broadcastInDim S1x64x1x1 ![] bcast_S_S1x64x1x1 p) a b),
    -- batch normalisation of main_v38: centre, scale by the inverse root of the variance plus the small constant, then the per-channel scale and shift
    unary main_v42 main_v44 (broadcastInDim S16x64x64x64 ![0, 1, 2, 3] bcast_S1x64x1x1_S16x64x64x64_0_1_2_3),
    binary main_v38 main_v44 main_v45 subf,
    nullary main_cst_7 (constant S_ .f32 0x3727C5AC#32),
    unary main_cst_7 main_v46 (broadcastInDim S1x64x1x1 ![] bcast_S_S1x64x1x1),
    binary main_v43 main_v46 main_v47 addf,
    unary main_v47 main_v48 Host.rsqrt,
    unary main_v48 main_v49 (broadcastInDim S16x64x64x64 ![0, 1, 2, 3] bcast_S1x64x1x1_S16x64x64x64_0_1_2_3),
    binary main_v45 main_v49 main_v50 mulf,
    unary main_arg5 main_v51 (broadcastInDim S1x64x1x1 ![1] bcast_S64_S1x64x1x1_1),
    unary main_v51 main_v52 (broadcastInDim S16x64x64x64 ![0, 1, 2, 3] bcast_S1x64x1x1_S16x64x64x64_0_1_2_3),
    binary main_v50 main_v52 main_v53 mulf,
    unary main_arg6 main_v54 (broadcastInDim S1x64x1x1 ![1] bcast_S64_S1x64x1x1_1),
    unary main_v54 main_v55 (broadcastInDim S16x64x64x64 ![0, 1, 2, 3] bcast_S1x64x1x1_S16x64x64x64_0_1_2_3),
    binary main_v53 main_v55 main_v56 addf,
    -- the residual
    binary main_v56 main_arg0 main_v57 addf,
    -- the clamp of main_v57 below at zero
    TRef.nullary main_call3.cst (constant S_ .f32 0x00000000#32),
    TRef.unary main_call3.cst main_call3.v0 (broadcastInDim S16x64x64x64 ![] bcast_S_S16x64x64x64),
    TRef.binary (.of main_v57) main_call3.v0 main_call3.v1 maximumf ]

-- one hundred and seventeen binds re-associated: the rewriting recurses once per operation
set_option maxRecDepth 4096 in
set_option maxHeartbeats 4000000 in
/-- The reference is that straight line: the outlined functions unfolded at their calls and the two windows of the
    main function joined, both sides are one chain of steps once sequencing is re-associated. -/
theorem main_eq (c : Dev nD) : main (F := F) c = seq ops := by
  simp only [main, main_part0, main_part1, fn_var.body, fn_where.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨unary_bufs_sub .., unary_bufs_sub .., unary_bufs_sub .., unary_bufs_sub .., unary_bufs_sub .., binary_bufs_sub ..,
    unary_bufs_sub .., nullary_bufs_sub .., binary_bufs_sub .., unary_bufs_sub .., unary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., unary_bufs_sub .., unary_bufs_sub .., binary_bufs_sub .., unary_bufs_sub .., nullary_bufs_sub ..,
    binary_bufs_sub .., unary_bufs_sub .., unary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., binary_bufs_sub ..⟩

-- the sums, the absolute value, the sign flip, the quotient and the inverse root stay folded: the equation below is
-- between two spellings of one composition and never looks inside them
attribute [local irreducible] Host.reduceAdd Host.absf Host.negf Host.divf Host.rsqrt in
set_option maxRecDepth 100000 in
set_option maxHeartbeats 4000000 in
/-- What the result buffer holds after the line: each operation's value put for its buffer, from the last clamp back
    to the arguments, is the reference's term — the same composition, stage by stage (each mean both where the main
    function takes it and where the variance takes it again). -/
theorem out_eq (V : Valuation τ sig (Elt F)) :
    after ops V (main_v58 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

/-! No operation writes an argument's buffer: each keeps its launch contents. -/

set_option maxRecDepth 100000 in
set_option maxHeartbeats 4000000 in
theorem arg0_eq (V : Valuation τ sig (Elt F)) :
    after ops V (main_arg0 : DevRef τ sig) = V (main_arg0 : DevRef τ sig) := by
  after_results_simp

set_option maxRecDepth 100000 in
set_option maxHeartbeats 4000000 in
theorem arg1_eq (V : Valuation τ sig (Elt F)) :
    after ops V (main_arg1 : DevRef τ sig) = V (main_arg1 : DevRef τ sig) := by
  after_results_simp

set_option maxRecDepth 100000 in
set_option maxHeartbeats 4000000 in
theorem arg2_eq (V : Valuation τ sig (Elt F)) :
    after ops V (main_arg2 : DevRef τ sig) = V (main_arg2 : DevRef τ sig) := by
  after_results_simp

set_option maxRecDepth 100000 in
set_option maxHeartbeats 4000000 in
theorem arg3_eq (V : Valuation τ sig (Elt F)) :
    after ops V (main_arg3 : DevRef τ sig) = V (main_arg3 : DevRef τ sig) := by
  after_results_simp

set_option maxRecDepth 100000 in
set_option maxHeartbeats 4000000 in
theorem arg4_eq (V : Valuation τ sig (Elt F)) :
    after ops V (main_arg4 : DevRef τ sig) = V (main_arg4 : DevRef τ sig) := by
  after_results_simp

set_option maxRecDepth 100000 in
set_option maxHeartbeats 4000000 in
theorem arg5_eq (V : Valuation τ sig (Elt F)) :
    after ops V (main_arg5 : DevRef τ sig) = V (main_arg5 : DevRef τ sig) := by
  after_results_simp

set_option maxRecDepth 100000 in
set_option maxHeartbeats 4000000 in
theorem arg6_eq (V : Valuation τ sig (Elt F)) :
    after ops V (main_arg6 : DevRef τ sig) = V (main_arg6 : DevRef τ sig) := by
  after_results_simp

/-- Every weakly fair execution of the reference terminates with its result at the reference's term of
    the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c main_v58).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _)⟩)
    (run_seq scopedRefs_eq scopedSems_eq defs main (fun _ => ops) main_eq (fun _ => ops_sub) m ρ)

end Cert.ReferenceIdeal.RefRun

end
-- ==== Proof.RefRead.lean ====
import proofs.«147408_j71545565217396_1_alg».proof.Proof.Gen.ReferenceIdeal
import proofs.«147408_j71545565217396_1_alg».proof.Proof.RefTerm
import proofs.«147408_j71545565217396_1_alg».proof.Proof.Spec
import proofs.«147408_j71545565217396_1_alg».proof.Proof.SpecLaw
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefRead

open Idealize.ShloMosaic Idealize.ShloMosaic.ValueIdx
open Cert.ReferenceIdeal Cert.ReferenceIdeal.RefTerm Cert.Spec

/-! ## Per-channel tables read at an index -/

/-- A `[1, 64, 1, 1]` table spread over the image batch reads the table at the channel. -/
theorem spread_apply (t : FVec Ideal S1x64x1x1 .f32) (b : Fin 16) (o h w : Fin 64) :
    spread t (ix4 b o h w) = t (ix4 (0 : Fin 1) o (0 : Fin 1) (0 : Fin 1)) := by
  unfold spread
  exact broadcastInDim_apply _ _ _ _ _ (fun a => by
    match a with
    | ⟨0, _⟩ => rfl
    | ⟨1, _⟩ => rfl
    | ⟨2, _⟩ => rfl
    | ⟨3, _⟩ => rfl)

/-- A `[64]` vector as a table reads the vector at the channel. -/
theorem table_apply (v : FVec Ideal S64 .f32) (o : Fin 64) :
    table v (ix4 (0 : Fin 1) o (0 : Fin 1) (0 : Fin 1)) = v (ix1 o) := by
  unfold table
  exact broadcastInDim_apply _ _ _ _ _ (fun a => by
    match a with
    | ⟨0, _⟩ => rfl)

/-- A scalar as a table reads the scalar. -/
theorem splat_apply {α : Type} (s : S_.Idx → α) (j : S1x64x1x1.Idx) : splat s j = s ix0 := by
  unfold splat
  exact broadcastInDim_apply _ _ _ _ _ (fun a => a.elim0)

/-! ## The adder layer read at an index -/

/-- The last-axis reduction's inserted index is the rank-5 index with the channel last. -/
theorem lift5 (hR : S16x64x64x64x64.Reduces [4] S16x64x64x64) (b : Fin 16) (h w o c : Fin 64) :
    hR.lift (ix4 b h w o) c = ix5 b h w o c := by
  funext a
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- The image batch, channel moved last and spread over the output channel, reads the image. -/
theorem lhs_apply (x : FVec Ideal S16x64x64x64 .f32) (b : Fin 16) (h w o c : Fin 64) :
    broadcastInDim S16x64x64x64x64 ![0, 1, 2, 3, 4] Facts₀.bcast_S16x64x64x1x64_S16x64x64x64x64_0_1_2_3_4
      (broadcastInDim S16x64x64x1x64 ![0, 1, 2, 4] Facts₀.bcast_S16x64x64x64_S16x64x64x1x64_0_1_2_4
        (transpose S16x64x64x64 [0, 2, 3, 1] x Facts₀.transposes_S16x64x64x64_S16x64x64x64_0_2_3_1))
      (ix5 b h w o c) = x (ix4 b c h w) := by
  refine (broadcastInDim_apply _ _ _ (ix5 b h w o c) (ix5 b h w (0 : Fin 1) c) (fun a => by
    match a with
    | ⟨0, _⟩ => rfl
    | ⟨1, _⟩ => rfl
    | ⟨2, _⟩ => rfl
    | ⟨3, _⟩ => rfl
    | ⟨4, _⟩ => rfl)).trans ?_
  refine (broadcastInDim_apply _ _ _ (ix5 b h w (0 : Fin 1) c) (ix4 b h w c) (fun a => by
    match a with
    | ⟨0, _⟩ => rfl
    | ⟨1, _⟩ => rfl
    | ⟨2, _⟩ => rfl
    | ⟨3, _⟩ => rfl)).trans ?_
  exact transpose_apply _ _ _ (ix4 b h w c) (ix4 b c h w) (fun a => by
    match a with
    | ⟨0, _⟩ => rfl
    | ⟨1, _⟩ => rfl
    | ⟨2, _⟩ => rfl
    | ⟨3, _⟩ => rfl)

/-- The weight table spread over batch, row and column reads the table. -/
theorem rhs_apply (wt : FVec Ideal S64x64 .f32) (b : Fin 16) (h w o c : Fin 64) :
    broadcastInDim S16x64x64x64x64 ![0, 1, 2, 3, 4] Facts₀.bcast_S1x1x1x64x64_S16x64x64x64x64_0_1_2_3_4
      (broadcastInDim S1x1x1x64x64 ![3, 4] Facts₀.bcast_S64x64_S1x1x1x64x64_3_4 wt)
      (ix5 b h w o c) = wt (ix2 o c) := by
  refine (broadcastInDim_apply _ _ _ (ix5 b h w o c) (ix5 (0 : Fin 1) (0 : Fin 1) (0 : Fin 1) o c) (fun a => by
    match a with
    | ⟨0, _⟩ => rfl
    | ⟨1, _⟩ => rfl
    | ⟨2, _⟩ => rfl
    | ⟨3, _⟩ => rfl
    | ⟨4, _⟩ => rfl)).trans ?_
  exact broadcastInDim_apply _ _ _ (ix5 (0 : Fin 1) (0 : Fin 1) (0 : Fin 1) o c) (ix2 o c) (fun a => by
    match a with
    | ⟨0, _⟩ => rfl
    | ⟨1, _⟩ => rfl)

/-- The adder layer at (batch, output channel, row, column): minus the sum over the input channel of the
    absolute differences. -/
theorem adderT_apply (x : FVec Ideal S16x64x64x64 .f32) (wt : FVec Ideal S64x64 .f32) (b : Fin 16) (o h w : Fin 64) :
    adderT x wt (ix4 b o h w)
      = -(∑ c : Fin 64, max (x (ix4 b c h w) - wt (ix2 o c)) (-(x (ix4 b c h w) - wt (ix2 o c)))) := by
  have hR : S16x64x64x64x64.Reduces [4] S16x64x64x64 := by decide
  unfold adderT
  refine (transpose_apply _ _ _ (ix4 b o h w) (ix4 b h w o) (fun a => by
    match a with
    | ⟨0, _⟩ => rfl
    | ⟨1, _⟩ => rfl
    | ⟨2, _⟩ => rfl
    | ⟨3, _⟩ => rfl)).trans ?_
  unfold Host.negf Host.reduceAdd
  rw [Ideal.hostNegf_def, Ideal.negf_def, Ideal.hostReduceAdd_def, Ideal.hostReduceAdd_single _ hR]
  rw [constant_apply, Ideal.ofBits_zero_f32, zero_add]
  refine congrArg Neg.neg ?_
  refine Finset.sum_congr rfl (fun (c : Fin 64) _ => ?_)
  rw [lift5 hR b h w o c]
  unfold Host.absf
  rw [Ideal.hostAbsf_def, Ideal.absf_def, subf_apply, lhs_apply, rhs_apply]

/-! ## The per-channel sum -/

/-- An index of the image batch that the reduction over batch, row and column sends to channel `o`
    has `o` as its channel coordinate. -/
theorem chan_of_drop (i : S16x64x64x64.Idx) (o : Fin 64)
    (hi : Facts₀.reducesTo_S16x64x64x64_S64_d0_2_3.drop i = ix1 o) : (i 1).val = o.val := by
  have h1 : ((Facts₀.reducesTo_S16x64x64x64_S64_d0_2_3.drop i (0 : Fin 1) : Fin 64) : Nat) = (i 1).val :=
    Shape.ReducesTo.drop_apply_val_of_eq _ i 0 1
  rw [← h1, hi]

/-- The per-channel sum over batch, row and column is the sum over the flat pixel positions. -/
theorem chanSum_apply (h4 : FVec Ideal S16x64x64x64 .f32) (o : Fin 64) :
    chanSum h4 (ix1 o) = ∑ n : Fin 65536, flatOf (cur4 h4) n o := by
  unfold chanSum Host.reduceAdd
  rw [Ideal.hostReduceAdd_def]
  unfold Ideal.hostReduceAdd
  rw [constant_apply, Ideal.ofBits_zero_f32, zero_add]
  refine Finset.sum_nbij' (fun i => flat (i 0) (i 2) (i 3)) (fun n => ix4 (pb n) o (ph n) (pw n)) ?_ ?_ ?_ ?_ ?_
  · intro i _; exact Finset.mem_univ _
  · intro n _
    refine Finset.mem_filter.2 ⟨Finset.mem_univ _, ?_⟩
    funext a
    match a with
    | ⟨0, _⟩ => exact Fin.ext rfl
  · intro i hi
    have hc := chan_of_drop i o (Finset.mem_filter.1 hi).2
    obtain ⟨b, c, h, w, rfl⟩ : ∃ (b : Fin 16) (c h w : Fin 64), i = ix4 b c h w := ⟨i 0, i 1, i 2, i 3, eq_ix4 i⟩
    have hco : c = o := Fin.ext hc
    show ix4 (pb (flat b h w)) o (ph (flat b h w)) (pw (flat b h w)) = ix4 b c h w
    rw [pb_flat, ph_flat, pw_flat, hco]
  · intro n _
    show flat (pb n) (ph n) (pw n) = n
    exact flat_pb_ph_pw n
  · intro i hi
    have hc := chan_of_drop i o (Finset.mem_filter.1 hi).2
    obtain ⟨b, c, h, w, rfl⟩ : ∃ (b : Fin 16) (c h w : Fin 64), i = ix4 b c h w := ⟨i 0, i 1, i 2, i 3, eq_ix4 i⟩
    have hco : c = o := Fin.ext hc
    show h4 (ix4 b c h w) = h4 (ix4 (pb (flat b h w)) o (ph (flat b h w)) (pw (flat b h w)))
    rw [pb_flat, ph_flat, pw_flat, hco]

/-! ## Mean and variance -/

/-- The per-channel mean is the pixel sum over the pixel count. -/
theorem meanT_apply (h4 : FVec Ideal S16x64x64x64 .f32) (o : Fin 64) :
    meanT h4 (ix4 (0 : Fin 1) o (0 : Fin 1) (0 : Fin 1)) = mean (flatOf (cur4 h4)) o := by
  unfold meanT Host.divf
  rw [Ideal.hostDivf_def, table_apply, splat_apply, constant_apply, chanSum_apply]
  rfl

/-- With no degrees of freedom taken off, the variance's divisor is the pixel count: the integer zero
    converts to the real zero, and subtracting zero changes nothing. -/
theorem normT_zero : normT (F := Ideal) (constantI S_ 32 0#32) ix0 = Ideal.ofBits .f32 0x47800000#32 := by
  unfold normT
  rw [subf_apply, constant_apply, sitofp_apply]
  show Ideal.ofBits .f32 0x47800000#32 - (((0#32 : BitVec 32).toInt : ℝ) : EReal) = _
  rw [show (0#32 : BitVec 32).toInt = 0 from by decide, Int.cast_zero, EReal.coe_zero, sub_zero]

/-- The guard "the divisor is positive" holds: the pixel count is the real number 65536. -/
theorem guard_apply (j : S1x64x1x1.Idx) :
    splat (cmpf .ogt (normT (F := Ideal) (constantI S_ 32 0#32)) (constant S_ .f32 0x00000000#32)) j = 1#1 := by
  rw [splat_apply, cmpf_apply, Ideal.cmpf_def, normT_zero, constant_apply, Ideal.ofBits_zero_f32, count_eq]
  unfold Ideal.cmp
  show BitVec.ofBool (decide ((0 : EReal) < ((65536 : ℝ) : EReal))) = 1#1
  rw [decide_eq_true (EReal.coe_pos.mpr (by norm_num))]
  rfl

/-- The per-channel variance is the mean squared deviation from the mean. -/
theorem varT_apply (h4 : FVec Ideal S16x64x64x64 .f32) (o : Fin 64) :
    varT h4 (constantI S_ 32 0#32) (ix4 (0 : Fin 1) o (0 : Fin 1) (0 : Fin 1)) = varR (flatOf (cur4 h4)) o := by
  unfold varT
  rw [select_apply, guard_apply, select_one]
  unfold Host.divf
  rw [Ideal.hostDivf_def, table_apply, splat_apply, normT_zero, chanSum_apply]
  unfold varR perN
  refine congrArg (fun s => Ideal.div s (Ideal.ofBits .f32 0x47800000#32)) (Finset.sum_congr rfl (fun n _ => ?_))
  show sqdevT h4 (ix4 (pb n) o (ph n) (pw n)) = _
  unfold sqdevT
  rw [mulf_apply, subf_apply, spread_apply, meanT_apply]
  rfl

/-! ## Normalisation and the clamp -/

/-- A pixel array read at the flat position of (batch, row, column) is the image at those coordinates. -/
theorem flatOf_cur4_flat (h4 : FVec Ideal S16x64x64x64 .f32) (b : Fin 16) (o h w : Fin 64) :
    flatOf (cur4 h4) (flat b h w) o = h4 (ix4 b o h w) := by
  show h4 (ix4 (pb (flat b h w)) o (ph (flat b h w)) (pw (flat b h w))) = _
  rw [pb_flat, ph_flat, pw_flat]

/-- Batch normalisation at (batch, channel, row, column). -/
theorem bnT_apply (h4 : FVec Ideal S16x64x64x64 .f32) (g bb : FVec Ideal S64 .f32) (b : Fin 16) (o h w : Fin 64) :
    bnT h4 g bb (ix4 b o h w)
      = bn (flatOf (cur4 h4)) (mean (flatOf (cur4 h4))) (varR (flatOf (cur4 h4))) (cur1 g) (cur1 bb) (flat b h w) o := by
  unfold bnT
  simp only [addf_apply, mulf_apply, subf_apply, spread_apply, table_apply, meanT_apply]
  unfold Host.rsqrt
  rw [Ideal.hostUnary_rsqrt_def, addf_apply, varT_apply, splat_apply, constant_apply]
  unfold bn
  rw [flatOf_cur4_flat]
  rfl

/-- The clamp at an index. -/
theorem reluT_apply (a : FVec Ideal S16x64x64x64 .f32) (j : S16x64x64x64.Idx) : reluT a j = max (a j) 0 := by
  unfold reluT
  rw [maximumf_apply, broadcastInDim_apply _ _ _ j ix0 (fun a => a.elim0), constant_apply, Ideal.ofBits_zero_f32]

/-! ## The stages as arrays -/

/-- The adder layer of an image batch is the adder layer of its pixel array. -/
theorem adderT_eq (x : FVec Ideal S16x64x64x64 .f32) (wt : FVec Ideal S64x64 .f32) :
    adderT x wt = arr4 (ofFlat (adder (flatOf (cur4 x)) (cur2 wt))) := by
  funext j
  obtain ⟨b, o, h, w, rfl⟩ : ∃ (b : Fin 16) (o h w : Fin 64), j = ix4 b o h w := ⟨j 0, j 1, j 2, j 3, eq_ix4 j⟩
  rw [adderT_apply]
  show _ = adder (flatOf (cur4 x)) (cur2 wt) (flat b h w) o
  unfold adder
  simp only [flatOf_cur4_flat]
  rfl

/-- Normalisation followed by the clamp is the activation. -/
theorem act_eq (h4 : FVec Ideal S16x64x64x64 .f32) (g bb : FVec Ideal S64 .f32) :
    reluT (bnT h4 g bb)
      = arr4 (ofFlat (act (flatOf (cur4 h4)) (mean (flatOf (cur4 h4))) (varR (flatOf (cur4 h4))) (cur1 g) (cur1 bb))) := by
  funext j
  obtain ⟨b, o, h, w, rfl⟩ : ∃ (b : Fin 16) (o h w : Fin 64), j = ix4 b o h w := ⟨j 0, j 1, j 2, j 3, eq_ix4 j⟩
  rw [reluT_apply, bnT_apply]
  rfl

/-- Normalisation, the residual added, then the clamp is the block's last stage. -/
theorem res_eq (h4 x : FVec Ideal S16x64x64x64 .f32) (g bb : FVec Ideal S64 .f32) :
    reluT (addf (bnT h4 g bb) x)
      = arr4 (ofFlat (res (flatOf (cur4 h4)) (mean (flatOf (cur4 h4))) (varR (flatOf (cur4 h4))) (cur1 g) (cur1 bb)
          (flatOf (cur4 x)))) := by
  funext j
  obtain ⟨b, o, h, w, rfl⟩ : ∃ (b : Fin 16) (o h w : Fin 64), j = ix4 b o h w := ⟨j 0, j 1, j 2, j 3, eq_ix4 j⟩
  rw [reluT_apply, addf_apply, bnT_apply]
  show _ = res (flatOf (cur4 h4)) (mean (flatOf (cur4 h4))) (varR (flatOf (cur4 h4))) (cur1 g) (cur1 bb)
    (flatOf (cur4 x)) (flat b h w) o
  unfold res
  rw [flatOf_cur4_flat x]

/-- The reference's term, read index by index at the extended reals, is the block with the
    mean-squared-deviation variance. -/
theorem refTerm_eq (x : FVec Ideal S16x64x64x64 .f32) (w1 : FVec Ideal S64x64 .f32) (g1 b1 : FVec Ideal S64 .f32)
    (w2 : FVec Ideal S64x64 .f32) (g2 b2 : FVec Ideal S64 .f32) :
    refTerm (F := Ideal) x w1 g1 b1 w2 g2 b2
      = arr4 (refOut (cur4 x) (cur2 w1) (cur1 g1) (cur1 b1) (cur2 w2) (cur1 g2) (cur1 b2)) := by
  unfold refTerm
  rw [adderT_eq x w1, act_eq, cur4_arr4, flatOf_ofFlat, adderT_eq, cur4_arr4, flatOf_ofFlat, res_eq, cur4_arr4,
    flatOf_ofFlat]
  rfl

end Cert.ReferenceIdeal.RefRead

end
-- ==== Proof.Finite.lean ====
import proofs.«147408_j71545565217396_1_alg».proof.Defs
import proofs.«147408_j71545565217396_1_alg».proof.Proof.Gen.KernelIdeal
import proofs.«147408_j71545565217396_1_alg».proof.Proof.Gen.Pre_finite_inputs
import proofs.«147408_j71545565217396_1_alg».proof.Proof.Spec
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.TcCoe Idealize.SL.Sem Cert.Spec

/-- The rank-0 shape has one index. -/
instance : Subsingleton Cert.Pre_finite_inputs.S_.Idx := ⟨fun a b => funext fun d => d.elim0⟩

/-- The f32 word `0x7F800000` is `+∞`. -/
theorem inf_eq : Ideal.ofBits .f32 0x7F800000#32 = (⊤ : EReal) := by
  simp [Ideal.ofBits, Ideal.ieee]

/-- An extended real whose absolute value `max x (-x)` is strictly below `+∞` is a real:
    at `⊥` and at `⊤` the maximum is `⊤`. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- `all (|a| < +∞)` over an array of any shape: if the conjunction over all entries is true, every entry is a real. -/
theorem entries_real {s : Shape} {axes : List (Fin s.rank)} (a : FVec Ideal s .f32)
    (dims : Fin Cert.Pre_finite_inputs.S_.rank → Fin s.rank) (hb : Cert.Pre_finite_inputs.S_.BroadcastsInDim s dims)
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf a)
          (broadcastInDim s dims hb (constant (F := Ideal) Cert.Pre_finite_inputs.S_ .f32 0x7F800000#32))) init hr hu j = 1#1)
    (i : s.Idx) : ∃ r : ℝ, a i = (r : EReal) := by
  have hi := Host.reduce_andi_all _ init hr hu j e i
  apply real_of_abs_lt_top
  rw [← inf_eq]
  exact hi

/-- Under the precondition every entry of the image batch, of both weight tables and of the first
    scale and shift vectors is a real number. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ b ch hh w, ∃ r : ℝ, cur4 (m ((c.tc : Thread Cert.KernelIdeal.nD Cert.KernelIdeal.τ).loc Cert.KernelIdeal.main_arg0)) b ch hh w = (r : EReal))
    ∧ (∀ o k, ∃ r : ℝ, cur2 (m ((c.tc : Thread Cert.KernelIdeal.nD Cert.KernelIdeal.τ).loc Cert.KernelIdeal.main_arg1)) o k = (r : EReal))
    ∧ (∀ o, ∃ r : ℝ, cur1 (m ((c.tc : Thread Cert.KernelIdeal.nD Cert.KernelIdeal.τ).loc Cert.KernelIdeal.main_arg2)) o = (r : EReal))
    ∧ (∀ o, ∃ r : ℝ, cur1 (m ((c.tc : Thread Cert.KernelIdeal.nD Cert.KernelIdeal.τ).loc Cert.KernelIdeal.main_arg3)) o = (r : EReal))
    ∧ (∀ o k, ∃ r : ℝ, cur2 (m ((c.tc : Thread Cert.KernelIdeal.nD Cert.KernelIdeal.τ).loc Cert.KernelIdeal.main_arg4)) o k = (r : EReal)) := by
  -- the precondition at the one index of its rank-0 result, as a conjunction of seven `all`s
  have e := congrFun (h c) ValueIdx.ix0
  unfold Cert.Pre_finite_inputs.fn Cert.Pre_finite_inputs.fn_part1 at e
  dsimp only at e
  -- split the conjunction, innermost first
  obtain ⟨e5, -⟩ := IntOp.andi_eq_one.1 e
  obtain ⟨e4, -⟩ := IntOp.andi_eq_one.1 e5
  obtain ⟨e3, a4⟩ := IntOp.andi_eq_one.1 e4
  obtain ⟨e2, a3⟩ := IntOp.andi_eq_one.1 e3
  obtain ⟨e1, a2⟩ := IntOp.andi_eq_one.1 e2
  obtain ⟨a0, a1⟩ := IntOp.andi_eq_one.1 e1
  exact ⟨fun b ch hh w => entries_real _ _ _ _ _ _ _ a0 (ValueIdx.ix4 b ch hh w),
    fun o k => entries_real _ _ _ _ _ _ _ a1 (ValueIdx.ix2 o k),
    fun o => entries_real _ _ _ _ _ _ _ a2 (ValueIdx.ix1 o),
    fun o => entries_real _ _ _ _ _ _ _ a3 (ValueIdx.ix1 o),
    fun o k => entries_real _ _ _ _ _ _ _ a4 (ValueIdx.ix2 o k)⟩

end Cert.Proof.Finite

end
-- ==== Proof.LibBlockSum.lean ====
import Mathlib.Algebra.BigOperators.Group.Finset.Basic
import Mathlib.Data.Fintype.BigOperators

/-!
# A sum over a grid of blocks is the sum over all rows

`A` blocks of `B` rows each hold the `A·B` rows `0, …, A·B - 1`: row `r` of block `s` is row `B·s + r`.
Summing block by block, and inside each block row by row, is summing over all rows, in any
commutative additive monoid. The instance used is `128` blocks of `512` rows: `65536` rows.
-/

namespace Cert.LibBlockSum

variable {M : Type*} [AddCommMonoid M]

/-- Row `r` of block `s < A` is one of the `A·B` rows: `B·s + r < B·(s+1) ≤ A·B`. -/
theorem block_lt {A B s : ℕ} (hs : s < A) (r : Fin B) : B * s + r.val < A * B :=
  calc B * s + r.val < B * s + B := Nat.add_lt_add_left r.isLt _
    _ = B * (s + 1) := (Nat.mul_succ B s).symm
    _ ≤ B * A := Nat.mul_le_mul_left B hs
    _ = A * B := Nat.mul_comm B A

/-- The sum over `A` blocks of the sums over their `B` rows (row `r` of block `s` read at `s·B + r`)
    is the sum over all `A·B` rows: by induction on `A`, the last block being the rows from `A·B` on. -/
theorem sum_blocks' (A B : ℕ) (f : ℕ → M) :
    ∑ s ∈ Finset.range A, ∑ r : Fin B, f (s * B + r.val) = ∑ n : Fin (A * B), f n.val := by
  rw [Fin.sum_univ_eq_sum_range f (A * B)]
  induction A with
  | zero => simp
  | succ A ih =>
    rw [Finset.sum_range_succ, ih, Nat.succ_mul, Finset.sum_range_add,
      Fin.sum_univ_eq_sum_range (fun r => f (A * B + r)) B]

/-- The same with row `r` of block `s` read at `B·s + r`. -/
theorem sum_blocks (A B : ℕ) (f : ℕ → M) :
    ∑ s ∈ Finset.range A, ∑ r : Fin B, f (B * s + r.val) = ∑ n : Fin (A * B), f n.val :=
  (Finset.sum_congr rfl fun s _ => Finset.sum_congr rfl fun r _ => by rw [Nat.mul_comm B s]).trans
    (sum_blocks' A B f)

/-- For a function `g` of the `A·B` rows themselves: any per-block terms `T s` that are, for each block
    `s < A`, the sum of `g` over that block's rows, sum to the sum of `g` over all rows. (Extend `g` by
    zero beyond the last row and use `sum_blocks`; the extension is never read inside the grid.) -/
theorem sum_blocks_of (A B : ℕ) (g : Fin (A * B) → M) (T : ℕ → M)
    (hT : ∀ s (hs : s < A), T s = ∑ r : Fin B, g ⟨B * s + r.val, block_lt hs r⟩) :
    ∑ s ∈ Finset.range A, T s = ∑ n : Fin (A * B), g n := by
  have e := sum_blocks A B (fun n => if h : n < A * B then g ⟨n, h⟩ else 0)
  have eR : ∑ n : Fin (A * B), g n
      = ∑ n : Fin (A * B), (fun n => if h : n < A * B then g ⟨n, h⟩ else 0) n.val :=
    Finset.sum_congr rfl fun n _ => by dsimp only; rw [dif_pos n.isLt]
  rw [eR, ← e]
  refine Finset.sum_congr rfl fun s hs => ?_
  rw [hT s (Finset.mem_range.1 hs)]
  exact Finset.sum_congr rfl fun r _ => by rw [dif_pos (block_lt (Finset.mem_range.1 hs) r)]

/-- The grid of `128` blocks of `512` rows over the `65536` rows: per-block terms `T s` that are, for
    `s < 128`, the sum of `g` over rows `512·s, …, 512·s + 511`, sum to the sum of `g` over all rows. -/
theorem sum_grid_of (g : Fin 65536 → M) (T : ℕ → M)
    (hT : ∀ s (hs : s < 128), T s = ∑ r : Fin 512, g ⟨512 * s + r.val, by have := r.isLt; omega⟩) :
    ∑ s ∈ Finset.range 128, T s = ∑ n : Fin 65536, g n :=
  sum_blocks_of 128 512 g T hT

/-- The same with the per-row terms given: `F s r` is `g` at row `512·s + r` for every block `s < 128`. -/
theorem sum_grid_rows (g : Fin 65536 → M) (F : ℕ → Fin 512 → M)
    (hF : ∀ s (hs : s < 128) (r : Fin 512), F s r = g ⟨512 * s + r.val, by have := r.isLt; omega⟩) :
    ∑ s ∈ Finset.range 128, ∑ r : Fin 512, F s r = ∑ n : Fin 65536, g n :=
  sum_grid_of g (fun s => ∑ r : Fin 512, F s r) fun s hs => Finset.sum_congr rfl fun r _ => hF s hs r

/-- The same with `g` extended by zero to all naturals, so that the left side is total in `s`. -/
theorem sum_grid (g : Fin 65536 → M) :
    ∑ s ∈ Finset.range 128, ∑ r : Fin 512,
        (fun n => if h : n < 65536 then g ⟨n, h⟩ else 0) (512 * s + r.val) = ∑ n : Fin 65536, g n :=
  sum_grid_rows g _ fun s hs r => by
    have hlt : 512 * s + r.val < 65536 := by have := r.isLt; omega
    dsimp only; rw [dif_pos hlt]

end Cert.LibBlockSum
-- ==== Proof.lean ====
/-
  The certificate of a residual block: adder layer, full-batch normalisation, clamp at zero, second adder
  layer, normalisation, residual sum, clamp at zero.

  The kernel runs three grid-pipelined calls over 128 blocks of 512 flat pixels. The first two leave, besides
  the layer's output, the per-channel sum and sum of squares over all 65536 pixels, accumulated across the
  grid; between the calls the host forms the mean `s/N` and the variance `ss/N - (s/N)²`. The reference
  forms the variance as the mean squared deviation `(∑ (h - μ)²)/N`. On finite inputs the two variances are
  the same real number, every intermediate is finite (the variance is non-negative and ε is positive, so the
  reciprocal square root is a real), and so the two programs compute the same array, element by element.

  Modules: `Spec` (the mathematics, as functions of flat pixels × channels), `SpecLaw` (the variance law and
  the equality of the two blocks on finite data), `Reg0Value` / `Reg1Value` / `Reg2Value` (what each call
  leaves in its output arrays, for any entry contents), `KernelValue` (the host stretches between the calls
  and the chain through them), `KernelRun` (the kernel's run with its result named), `RefTerm` / `RefRun` /
  `RefRead` (the reference as one term, its run, and the term read index by index), `Finite` (every input
  entry is a real under the precondition), `LibBlockSum` (a sum over a grid of blocks of rows is the sum over all
  rows: a general regrouping lemma, kept beside the certificate).
-/
import proofs.«147408_j71545565217396_1_alg».proof.Defs
import proofs.«147408_j71545565217396_1_alg».proof.Proof.Gen.Kernel
import proofs.«147408_j71545565217396_1_alg».proof.Proof.Gen.Kernel.Skeleton
import proofs.«147408_j71545565217396_1_alg».proof.Proof.Gen.Kernel.Launch
import proofs.«147408_j71545565217396_1_alg».proof.Proof.Gen.Kernel.Points
import proofs.«147408_j71545565217396_1_alg».proof.Proof.Gen.Kernel.Frame
import proofs.«147408_j71545565217396_1_alg».proof.Proof.Gen.KernelIdeal
import proofs.«147408_j71545565217396_1_alg».proof.Proof.Gen.KernelIdeal.Skeleton
import proofs.«147408_j71545565217396_1_alg».proof.Proof.Gen.KernelIdeal.Launch
import proofs.«147408_j71545565217396_1_alg».proof.Proof.Gen.KernelIdeal.Points
import proofs.«147408_j71545565217396_1_alg».proof.Proof.Gen.KernelIdeal.Frame
import proofs.«147408_j71545565217396_1_alg».proof.Proof.Gen.ReferenceIdeal
import proofs.«147408_j71545565217396_1_alg».proof.Proof.Gen.Pre_finite_inputs
import proofs.«147408_j71545565217396_1_alg».proof.Proof.Spec
import proofs.«147408_j71545565217396_1_alg».proof.Proof.SpecLaw
import proofs.«147408_j71545565217396_1_alg».proof.Proof.KernelRun
import proofs.«147408_j71545565217396_1_alg».proof.Proof.KernelValue
import proofs.«147408_j71545565217396_1_alg».proof.Proof.RefRun
import proofs.«147408_j71545565217396_1_alg».proof.Proof.RefRead
import proofs.«147408_j71545565217396_1_alg».proof.Proof.Finite
import proofs.«147408_j71545565217396_1_alg».proof.Proof.LibBlockSum
import Idealize.ShloMosaic.Adequacy
import Idealize.ShloMosaic.Init

noncomputable section

namespace Cert.Proof

open Idealize.ShloMosaic Idealize.ShloMosaic.TcCoe Idealize.SL.Sem Cert.Spec

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end at the same array: the kernel's is the block with the variance `ss/N - (s/N)²`,
    the reference's the block with the mean squared deviation, and on finite inputs these agree. -/
theorem algebraic : Cert.algebraic_KernelIdeal_ReferenceIdeal := by
  intro m ρ m' ρ' hpre hagree
  refine ⟨fun c => arr4 (kernelOut (cur4 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg1)))
      (cur1 (m ((c.tc : Thread Cert.KernelIdeal.nD Cert.KernelIdeal.τ).loc Cert.KernelIdeal.main_arg2))) (cur1 (m ((c.tc : Thread Cert.KernelIdeal.nD Cert.KernelIdeal.τ).loc Cert.KernelIdeal.main_arg3))) (cur2 (m ((c.tc : Thread Cert.KernelIdeal.nD Cert.KernelIdeal.τ).loc Cert.KernelIdeal.main_arg4)))
      (cur1 (m ((c.tc : Thread Cert.KernelIdeal.nD Cert.KernelIdeal.τ).loc Cert.KernelIdeal.main_arg5))) (cur1 (m ((c.tc : Thread Cert.KernelIdeal.nD Cert.KernelIdeal.τ).loc Cert.KernelIdeal.main_arg6)))), ?_, ?_⟩
  · exact (θ_run Cert.KernelIdeal.defs _ _).mono
      (fun _ h c => ⟨(h c).1.trans (Cert.KernelIdeal.Value.result_eq m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.RefRun.run (F := Ideal) m' ρ')
    obtain ⟨a0, a1, a2, a3, a4, a5, a6⟩ := hagree c
    rw [a0, a1, a2, a3, a4, a5, a6, Cert.ReferenceIdeal.RefRead.refTerm_eq]
    obtain ⟨hx, hw1, hg1, hb1, hw2⟩ := Cert.Proof.Finite.of_pre m hpre c
    exact congrArg arr4 (kernelOut_eq_refOut _ _ _ _ _ _ _ hx hw1 hg1 hb1 hw2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
